-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S64x1 .f32) (main_arg10 : FVec F S1 .f32) (main_v33 : IVec S_ 1) : IVec S_ 1 :=
  let main_v34 : FVec F S64x1 .f32 := Host.absf main_arg9
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S128 .f32) (main_arg7 : FVec F S128x64 .f32) (main_arg8 : FVec F S64 .f32) (main_arg9 : FVec F S64x1 .f32) (main_arg10 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x64 .f32) (main_arg8 : FVec F S64 .f32) (main_arg9 : FVec F S64x1 .f32) (main_arg10 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S100000x1 : Shape := ⟨2, ![100000, 1]⟩
abbrev S1x1 : Shape := ⟨2, ![1, 1]⟩
abbrev S1x512 : Shape := ⟨2, ![1, 512]⟩
abbrev S5000x1 : Shape := ⟨2, ![5000, 1]⟩
abbrev S128x512 : Shape := ⟨2, ![128, 512]⟩
abbrev S5000x512 : Shape := ⟨2, ![5000, 512]⟩
abbrev S512 : Shape := ⟨1, ![512]⟩
abbrev S64x512 : Shape := ⟨2, ![64, 512]⟩
abbrev S512x1 : Shape := ⟨2, ![512, 1]⟩

abbrev nBuf : Space → Nat
  | .hbm => 100
  | .vmem => 21
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S64x1, .f32⟩
  | .hbm, ⟨10, _⟩ => ⟨S1, .f32⟩
  | .hbm, ⟨11, _⟩ => ⟨S100000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S1x1600000, .i32⟩
  | .hbm, ⟨16, _⟩ => ⟨S1600000, .i32⟩
  | .hbm, ⟨17, _⟩ => ⟨S1700000, .i32⟩
  | .hbm, ⟨18, _⟩ => ⟨S_, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000, .f32⟩
  | .hbm, ⟨52, _⟩ => ⟨S1700000, .f32⟩
  | .hbm, ⟨53, _⟩ => ⟨S1700000x1, .f32⟩
  | .hbm, ⟨54, _⟩ => ⟨S100000x128, .f32⟩
  | .hbm, ⟨55, _⟩ => ⟨S_, .i32⟩
  | .hbm, ⟨56, _⟩ => ⟨S1700000, .i32⟩
  | .hbm, ⟨57, _⟩ => ⟨S1700000, .i1⟩
  | .hbm, ⟨58, _⟩ => ⟨S_, .i32⟩
  | .hbm, ⟨59, _⟩ => ⟨S1700000, .i32⟩
  | .hbm, ⟨60, _⟩ => ⟨S1700000, .i32⟩
  | .hbm, ⟨61, _⟩ => ⟨S1700000, .i32⟩
  | .hbm, ⟨62, _⟩ => ⟨S1700000x1, .i32⟩
  | .hbm, ⟨63, _⟩ => ⟨S1700000x128, .f32⟩
  | .hbm, ⟨64, _⟩ => ⟨S1700000x128, .f32⟩
  | .hbm, ⟨65, _⟩ => ⟨S1700000x128, .f32⟩
  | .hbm, ⟨66, _⟩ => ⟨S_, .f32⟩
  | .hbm, ⟨67, _⟩ => ⟨S100000x128, .f32⟩
  | .hbm, ⟨68, _⟩ => ⟨S1700000x1, .i32⟩
  | .hbm, ⟨69, _⟩ => ⟨S100000x128, .f32⟩
  | .hbm, ⟨70, _⟩ => ⟨S1x128, .f32⟩
  | .hbm, ⟨71, _⟩ => ⟨S100000x128, .f32⟩
  | .hbm, ⟨72, _⟩ => ⟨S100000x128, .f32⟩
  | .hbm, ⟨73, _⟩ => ⟨S_, .f32⟩
  | .hbm, ⟨74, _⟩ => ⟨S100000x128, .f32⟩
  | .hbm, ⟨75, _⟩ => ⟨S100000x128, .f32⟩
  | .hbm, ⟨76, _⟩ => ⟨S100000x128, .f32⟩
  | .hbm, ⟨77, _⟩ => ⟨S_, .i32⟩
  | .hbm, ⟨78, _⟩ => ⟨S1700000, .i32⟩
  | .hbm, ⟨79, _⟩ => ⟨S1700000, .i1⟩
  | .hbm, ⟨80, _⟩ => ⟨S_, .i32⟩
  | .hbm, ⟨81, _⟩ => ⟨S1700000, .i32⟩
  | .hbm, ⟨82, _⟩ => ⟨S1700000, .i32⟩
  | .hbm, ⟨83, _⟩ => ⟨S1700000, .i32⟩
  | .hbm, ⟨84, _⟩ => ⟨S1700000x1, .i32⟩
  | .hbm, ⟨85, _⟩ => ⟨S1700000x128, .f32⟩
  | .hbm, ⟨86, _⟩ => ⟨S1700000x128, .f32⟩
  | .hbm, ⟨87, _⟩ => ⟨S1700000x128, .f32⟩
  | .hbm, ⟨88, _⟩ => ⟨S_, .f32⟩
  | .hbm, ⟨89, _⟩ => ⟨S100000x128, .f32⟩
  | .hbm, ⟨90, _⟩ => ⟨S1700000x1, .i32⟩
  | .hbm, ⟨91, _⟩ => ⟨S100000x128, .f32⟩
  | .hbm, ⟨92, _⟩ => ⟨S1x128, .f32⟩
  | .hbm, ⟨93, _⟩ => ⟨S100000x128, .f32⟩
  | .hbm, ⟨94, _⟩ => ⟨S100000x128, .f32⟩
  | .hbm, ⟨95, _⟩ => ⟨S100000x1, .i32⟩
  | .hbm, ⟨96, _⟩ => ⟨S64x1, .f32⟩
  | .hbm, ⟨97, _⟩ => ⟨S1x1, .f32⟩
  | .hbm, ⟨98, _⟩ => ⟨S1x512, .f32⟩
  | .hbm, ⟨99, _⟩ => ⟨S512x1, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x1, .i32⟩
  | .local _ .vmem, ⟨13, _⟩ => ⟨S5000x1, .i32⟩
  | .local _ .vmem, ⟨14, _⟩ => ⟨S128x64, .f32⟩
  | .local _ .vmem, ⟨15, _⟩ => ⟨S64x1, .f32⟩
  | .local _ .vmem, ⟨16, _⟩ => ⟨S64x1, .f32⟩
  | .local _ .vmem, ⟨17, _⟩ => ⟨S1x1, .f32⟩
  | .local _ .vmem, ⟨18, _⟩ => ⟨S1x512, .f32⟩
  | .local _ .vmem, ⟨19, _⟩ => ⟨S128x512, .f32⟩
  | .local _ .vmem, ⟨20, _⟩ => ⟨S1x512, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_4 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_5 : Ref sig .tc := ⟨.hbm, 43, rfl⟩
abbrev main_v23 : Ref sig .tc := ⟨.hbm, 44, rfl⟩
abbrev main_v24 : Ref sig .tc := ⟨.hbm, 45, rfl⟩
abbrev main_c_6 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_c_8 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_9 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_call1_cst : Ref sig .tc := ⟨.hbm, 73, rfl⟩
abbrev main_call1_v0 : Ref sig .tc := ⟨.hbm, 74, rfl⟩
abbrev main_v48 : Ref sig .tc := ⟨.hbm, 75, rfl⟩
abbrev main_v49 : Ref sig .tc := ⟨.hbm, 76, rfl⟩
abbrev main_c_10 : Ref sig .tc := ⟨.hbm, 77, rfl⟩
abbrev main_v50 : Ref sig .tc := ⟨.hbm, 78, rfl⟩
abbrev main_v51 : Ref sig .tc := ⟨.hbm, 79, rfl⟩
abbrev main_c_11 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_12 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_scratch0 : Ref sig .tc := ⟨.vmem, 19, rfl⟩
abbrev cc2_scratch1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem6_0 : DmaSem sig := 18

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def k2_cond2 (i : grid2.Coords) : BitVec 1 :=
  let arg0 : BitVec 32 := BitVec.ofNat 32 (i 0).val
  let c19_i32 : BitVec 32 := 19#32
  let v29 : BitVec 1 := Scalar.cmpi .eq arg0 c19_i32
  let v30 : BitVec 32 := Scalar.extui v29
  let c0_i32_13 : BitVec 32 := 0#32
  let v31 : BitVec 1 := Scalar.cmpi .ne v30 c0_i32_13
  v31

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x512 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S5000x128_S5000x128 : S5000x128.ShapeCasts S5000x128
  shapeCasts_S100000_S100000x1 : S100000.ShapeCasts S100000x1
  shapeCasts_S64_S64x1 : S64.ShapeCasts S64x1
  shapeCasts_S1_S1x1 : S1.ShapeCasts S1x1
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  iota_S5000x512_d1_w32 : S5000x512.Iotas .tc 32 [1]
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x512 : S5000x1.Broadcasts S5000x512
  natLt_1_32 : 1 < 32
  reduces_S5000x512_S512 : S5000x512.Reduces [0] S512
  shapeCasts_S512_S1x512 : S512.ShapeCasts S1x512
  broadcasts_S1x512_S128x512 : S1x512.Broadcasts S128x512
  inb_S128x64_S128x64_0_0 : ∀ a, (![0, 0] : Fin 2 → Nat) a + S128x64.size a ≤ S128x64.size a
  h_S128x64 : 0 < S128x64.numel
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x512 : S64x1.Broadcasts S64x512
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x512 : S1x1.Broadcasts S1x512
  transposes_S1x512_S512x1_1_0 : S1x512.Transposes [1, 0] S512x1
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S5000x512_S128x512_0_0_1_1_n_n_wf : DotDims.WF S5000x128 S5000x512 S128x512 [0] [0] [1] [1] [] []
  dot_S128x64_S128x512_S64x512_0_0_1_1_n_n_wf : DotDims.WF S128x64 S128x512 S64x512 [0] [0] [1] [1] [] []
  dot_S64x1_S64x512_S1x512_0_0_1_1_n_n_wf : DotDims.WF S64x1 S64x512 S1x512 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .i32 = 32 ∨ (Rect.block (s := S100000x1) S5000x1.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x1.size a ≤ S64x1.size a
  hwx2_3 : ∀ i : grid2.Coords, EltTy.bits .f32 = 32 ∨ (Rect.block (s := S64x1) S64x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x1.size a ≤ S64x1.size a
  hwx2_4 : ∀ i : grid2.Coords, EltTy.bits .f32 = 32 ∨ (Rect.block (s := S64x1) S64x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x1.size a ≤ S1x1.size a
  hwx2_5 : ∀ i : grid2.Coords, EltTy.bits .f32 = 32 ∨ (Rect.block (s := S1x1) S1x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x512.size a ≤ S1x512.size a
  hwx2_6 : ∀ i : grid2.Coords, EltTy.bits .f32 = 32 ∨ (Rect.block (s := S1x512) S1x512.size (cc2_transform_6 i) (hinb2_6 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S5000x512_S128x512_0_0_1_1_n_n : DotDims S5000x128 S5000x512 S128x512 where
  lhsContracting := [0]
  rhsContracting := [0]
  lhsNonContracting := [1]
  rhsNonContracting := [1]
  lhsBatch := []
  rhsBatch := []
  wf := dot_S5000x128_S5000x512_S128x512_0_0_1_1_n_n_wf
def dot_S128x64_S128x512_S64x512_0_0_1_1_n_n : DotDims S128x64 S128x512 S64x512 where
  lhsContracting := [0]
  rhsContracting := [0]
  lhsNonContracting := [1]
  rhsNonContracting := [1]
  lhsBatch := []
  rhsBatch := []
  wf := dot_S128x64_S128x512_S64x512_0_0_1_1_n_n_wf
def dot_S64x1_S64x512_S1x512_0_0_1_1_n_n : DotDims S64x1 S64x512 S1x512 where
  lhsContracting := [0]
  rhsContracting := [0]
  lhsNonContracting := [1]
  rhsNonContracting := [1]
  lhsBatch := []
  rhsBatch := []
  wf := dot_S64x1_S64x512_S1x512_0_0_1_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v64) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v65) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v66) S64x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S64x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v67) S1x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v68) S1x512.size cc2_transform_6 reads2_6 true true 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun _ => false | 5 => fun _ => false | 6 => fun i => !(k2_cond2 i == 1#1) | ⟨_ + 7, h⟩ => absurd h (Nat.not_lt.2 (Nat.le_add_left _ _))

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S512x128 : Shape := ⟨2, ![512, 128]⟩
abbrev S100000x1 : Shape := ⟨2, ![100000, 1]⟩
abbrev S512 : Shape := ⟨1, ![512]⟩
abbrev S512x1 : Shape := ⟨2, ![512, 1]⟩
abbrev S512x64 : Shape := ⟨2, ![512, 64]⟩
abbrev S1x64 : Shape := ⟨2, ![1, 64]⟩
abbrev S1x1 : Shape := ⟨2, ![1, 1]⟩

abbrev nBuf : Space → Nat
  | .hbm => 158
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x64, .f32⟩
  | 8 => ⟨S64, .f32⟩
  | 9 => ⟨S64x1, .f32⟩
  | 10 => ⟨S1, .f32⟩
  | 11 => ⟨S100000, .i32⟩
  | 12 => ⟨S1x1600000, .i32⟩
  | 13 => ⟨S1600000, .i32⟩
  | 14 => ⟨S1700000, .i32⟩
  | 15 => ⟨S1x1600000, .i32⟩
  | 16 => ⟨S1600000, .i32⟩
  | 17 => ⟨S1700000, .i32⟩
  | 18 => ⟨S100000x128, .f32⟩
  | 19 => ⟨S_, .f32⟩
  | 20 => ⟨S1700000, .f32⟩
  | 21 => ⟨S_, .f32⟩
  | 22 => ⟨S100000, .f32⟩
  | 23 => ⟨S1700000x1, .i32⟩
  | 24 => ⟨S100000, .f32⟩
  | 25 => ⟨S_, .f32⟩
  | 26 => ⟨S100000, .f32⟩
  | 27 => ⟨S100000, .i1⟩
  | 28 => ⟨S_, .f32⟩
  | 29 => ⟨S100000, .f32⟩
  | 30 => ⟨S100000, .f32⟩
  | 31 => ⟨S_, .f32⟩
  | 32 => ⟨S_, .f32⟩
  | 33 => ⟨S100000, .f32⟩
  | 34 => ⟨S100000, .f32⟩
  | 35 => ⟨S_, .i32⟩
  | 36 => ⟨S1700000, .i32⟩
  | 37 => ⟨S1700000, .i1⟩
  | 38 => ⟨S_, .i32⟩
  | 39 => ⟨S1700000, .i32⟩
  | 40 => ⟨S1700000, .i32⟩
  | 41 => ⟨S1700000, .i32⟩
  | 42 => ⟨S1700000x1, .i32⟩
  | 43 => ⟨S1700000, .f32⟩
  | 44 => ⟨S_, .i32⟩
  | 45 => ⟨S1700000, .i32⟩
  | 46 => ⟨S1700000, .i1⟩
  | 47 => ⟨S_, .i32⟩
  | 48 => ⟨S1700000, .i32⟩
  | 49 => ⟨S1700000, .i32⟩
  | 50 => ⟨S1700000, .i32⟩
  | 51 => ⟨S1700000x1, .i32⟩
  | 52 => ⟨S1700000, .f32⟩
  | 53 => ⟨S1700000, .f32⟩
  | 54 => ⟨S1700000x1, .f32⟩
  | 55 => ⟨S_, .i32⟩
  | 56 => ⟨S1700000, .i32⟩
  | 57 => ⟨S1700000, .i1⟩
  | 58 => ⟨S_, .i32⟩
  | 59 => ⟨S1700000, .i32⟩
  | 60 => ⟨S1700000, .i32⟩
  | 61 => ⟨S1700000, .i32⟩
  | 62 => ⟨S1700000x1, .i32⟩
  | 63 => ⟨S1700000x128, .f32⟩
  | 64 => ⟨S1700000x128, .f32⟩
  | 65 => ⟨S1700000x128, .f32⟩
  | 66 => ⟨S_, .f32⟩
  | 67 => ⟨S100000x128, .f32⟩
  | 68 => ⟨S1700000x1, .i32⟩
  | 69 => ⟨S100000x128, .f32⟩
  | 70 => ⟨S1x128, .f32⟩
  | 71 => ⟨S100000x128, .f32⟩
  | 72 => ⟨S100000x128, .f32⟩
  | 73 => ⟨S_, .f32⟩
  | 74 => ⟨S100000x128, .f32⟩
  | 75 => ⟨S100000x128, .f32⟩
  | 76 => ⟨S100000x128, .f32⟩
  | 77 => ⟨S_, .f32⟩
  | 78 => ⟨S1700000, .f32⟩
  | 79 => ⟨S_, .f32⟩
  | 80 => ⟨S100000, .f32⟩
  | 81 => ⟨S1700000x1, .i32⟩
  | 82 => ⟨S100000, .f32⟩
  | 83 => ⟨S_, .f32⟩
  | 84 => ⟨S100000, .f32⟩
  | 85 => ⟨S100000, .i1⟩
  | 86 => ⟨S_, .f32⟩
  | 87 => ⟨S100000, .f32⟩
  | 88 => ⟨S100000, .f32⟩
  | 89 => ⟨S_, .f32⟩
  | 90 => ⟨S_, .f32⟩
  | 91 => ⟨S100000, .f32⟩
  | 92 => ⟨S100000, .f32⟩
  | 93 => ⟨S_, .i32⟩
  | 94 => ⟨S1700000, .i32⟩
  | 95 => ⟨S1700000, .i1⟩
  | 96 => ⟨S_, .i32⟩
  | 97 => ⟨S1700000, .i32⟩
  | 98 => ⟨S1700000, .i32⟩
  | 99 => ⟨S1700000, .i32⟩
  | 100 => ⟨S1700000x1, .i32⟩
  | 101 => ⟨S1700000, .f32⟩
  | 102 => ⟨S_, .i32⟩
  | 103 => ⟨S1700000, .i32⟩
  | 104 => ⟨S1700000, .i1⟩
  | 105 => ⟨S_, .i32⟩
  | 106 => ⟨S1700000, .i32⟩
  | 107 => ⟨S1700000, .i32⟩
  | 108 => ⟨S1700000, .i32⟩
  | 109 => ⟨S1700000x1, .i32⟩
  | 110 => ⟨S1700000, .f32⟩
  | 111 => ⟨S1700000, .f32⟩
  | 112 => ⟨S1700000x1, .f32⟩
  | 113 => ⟨S_, .i32⟩
  | 114 => ⟨S1700000, .i32⟩
  | 115 => ⟨S1700000, .i1⟩
  | 116 => ⟨S_, .i32⟩
  | 117 => ⟨S1700000, .i32⟩
  | 118 => ⟨S1700000, .i32⟩
  | 119 => ⟨S1700000, .i32⟩
  | 120 => ⟨S1700000x1, .i32⟩
  | 121 => ⟨S1700000x128, .f32⟩
  | 122 => ⟨S1700000x128, .f32⟩
  | 123 => ⟨S1700000x128, .f32⟩
  | 124 => ⟨S_, .f32⟩
  | 125 => ⟨S100000x128, .f32⟩
  | 126 => ⟨S1700000x1, .i32⟩
  | 127 => ⟨S100000x128, .f32⟩
  | _ => ⟨S100000x128, .f32⟩

abbrev hbmTy0_1 (i : Nat) : BufTy := match i % 128 with
  | 0 => ⟨S1x128, .f32⟩
  | 1 => ⟨S100000x128, .f32⟩
  | 2 => ⟨S100000x128, .f32⟩
  | 3 => ⟨S_, .f32⟩
  | 4 => ⟨S512x128, .f32⟩
  | 5 => ⟨S100000x1, .i32⟩
  | 6 => ⟨S512x128, .f32⟩
  | 7 => ⟨S_, .f32⟩
  | 8 => ⟨S100000, .f32⟩
  | 9 => ⟨S_, .f32⟩
  | 10 => ⟨S512, .f32⟩
  | 11 => ⟨S100000x1, .i32⟩
  | 12 => ⟨S512, .f32⟩
  | 13 => ⟨S_, .f32⟩
  | 14 => ⟨S512, .f32⟩
  | 15 => ⟨S512, .f32⟩
  | 16 => ⟨S512x1, .f32⟩
  | 17 => ⟨S512x128, .f32⟩
  | 18 => ⟨S512x128, .f32⟩
  | 19 => ⟨S512x64, .f32⟩
  | 20 => ⟨S1x64, .f32⟩
  | 21 => ⟨S512x64, .f32⟩
  | 22 => ⟨S512x64, .f32⟩
  | 23 => ⟨S_, .f32⟩
  | 24 => ⟨S512x64, .f32⟩
  | 25 => ⟨S512x64, .f32⟩
  | 26 => ⟨S512x1, .f32⟩
  | 27 => ⟨S1x1, .f32⟩
  | 28 => ⟨S512x1, .f32⟩
  | 29 => ⟨S512x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_c_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_c_8 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_9 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_call1_cst : Ref sig .tc := ⟨.hbm, 73, rfl⟩
abbrev main_call1_v0 : Ref sig .tc := ⟨.hbm, 74, rfl⟩
abbrev main_v48 : Ref sig .tc := ⟨.hbm, 75, rfl⟩
abbrev main_v49 : Ref sig .tc := ⟨.hbm, 76, rfl⟩
abbrev main_cst_10 : Ref sig .tc := ⟨.hbm, 77, rfl⟩
abbrev main_v50 : Ref sig .tc := ⟨.hbm, 78, rfl⟩
abbrev main_cst_11 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_12 : Ref sig .tc := ⟨.hbm, 83, rfl⟩
abbrev main_v54 : Ref sig .tc := ⟨.hbm, 84, rfl⟩
abbrev main_v55 : Ref sig .tc := ⟨.hbm, 85, rfl⟩
abbrev main_cst_13 : Ref sig .tc := ⟨.hbm, 86, rfl⟩
abbrev main_v56 : Ref sig .tc := ⟨.hbm, 87, rfl⟩
abbrev main_v57 : Ref sig .tc := ⟨.hbm, 88, rfl⟩
abbrev main_cst_14 : Ref sig .tc := ⟨.hbm, 89, rfl⟩
abbrev main_call2_v0 : Ref sig .tc := ⟨.hbm, 90, rfl⟩
abbrev main_call2_v1 : Ref sig .tc := ⟨.hbm, 91, rfl⟩
abbrev main_v58 : Ref sig .tc := ⟨.hbm, 92, rfl⟩
abbrev main_c_15 : Ref sig .tc := ⟨.hbm, 93, rfl⟩
abbrev main_v59 : Ref sig .tc := ⟨.hbm, 94, rfl⟩
abbrev main_v60 : Ref sig .tc := ⟨.hbm, 95, rfl⟩
abbrev main_c_16 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_c_17 : Ref sig .tc := ⟨.hbm, 102, rfl⟩
abbrev main_v66 : Ref sig .tc := ⟨.hbm, 103, rfl⟩
abbrev main_v67 : Ref sig .tc := ⟨.hbm, 104, rfl⟩
abbrev main_c_18 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_c_19 : Ref sig .tc := ⟨.hbm, 113, rfl⟩
abbrev main_v75 : Ref sig .tc := ⟨.hbm, 114, rfl⟩
abbrev main_v76 : Ref sig .tc := ⟨.hbm, 115, rfl⟩
abbrev main_c_20 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_cst_21 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_cst_22 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_cst_23 : Ref sig .tc := ⟨.hbm, 135, rfl⟩
abbrev main_v93 : Ref sig .tc := ⟨.hbm, 136, rfl⟩
abbrev main_cst_24 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_cst_25 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_call3_cst : Ref sig .tc := ⟨.hbm, 151, rfl⟩
abbrev main_call3_v0 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S512x128 : S_.BroadcastsInDim S512x128 (![] : Fin 0 → Fin S512x128.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S64_S1x64_1 : S64.BroadcastsInDim S1x64 (![1] : Fin 1 → Fin S1x64.rank)
  bcast_S1x64_S512x64_0_1 : S1x64.BroadcastsInDim S512x64 (![0, 1] : Fin 2 → Fin S512x64.rank)
  bcast_S_S512x64 : S_.BroadcastsInDim S512x64 (![] : Fin 0 → Fin S512x64.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x64_S512x64_1_0_0_1_n_n_wf : DotDims.WF S512x128 S128x64 S512x64 [1] [0] [0] [1] [] []
  dot_S512x64_S64x1_S512x1_1_0_0_1_n_n_wf : DotDims.WF S512x64 S64x1 S512x1 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf
def dot_S512x64_S64x1_S512x1_1_0_0_1_n_n : DotDims S512x64 S64x1 S512x1 where
  lhsContracting := [1]
  rhsContracting := [0]
  lhsNonContracting := [0]
  rhsNonContracting := [1]
  lhsBatch := []
  rhsBatch := []
  wf := dot_S512x64_S64x1_S512x1_1_0_0_1_n_n_wf

class Facts : Prop extends Facts₀ where

variable [Facts]
-- ==== Proof.KI.PoolSpec.lean ====
/-
  The pooled perceptron as explicit index formulas over the extended reals. Six arrays enter: the node features
  `h` (100000 × 128), the graph id of every node `b` (100000 × 1, 32-bit words), and the two dense layers' weights and
  biases `wm1` (128 × 64), `bm1` (64 × 1), `wm2` (64 × 1), `bm2` (1 × 1). Row `n` weighs `1` for graph `g` when its id
  is the word of `g` and `0` otherwise (`hot`); a graph's feature sums and row count are the weighted sums over all
  rows (`poolSum`, `poolCnt`); the mean divides the sum by the count, at least one (`pooled`); the hidden layer is the
  rectified affine image of the mean (`hid`), the output the affine image of the hidden layer (`outv`), laid out as one
  row of 512 graphs (`poolOut`). Definitions only: every constant stays the extended real its word denotes, every
  operation the ideal instance's own, and every product keeps its factor order (array element first where a row's
  weight multiplies it, layer weight first in the two dense layers).
-/
import proofs.«424487_j41961830482015_1_alg».proof.KernelIdeal
import Idealize.ShloMosaic.PureOps.Ideal
import Idealize.ShloMosaic.Lib.ValueIdx

noncomputable section

open scoped BigOperators

namespace Cert.KernelIdeal.Spec

open Cert.KernelIdeal
open Idealize.ShloMosaic Idealize.ShloMosaic.ValueIdx

/-- The weight of row `n` for graph `g`: the one-bit answer of "the row's graph id is the word of `g`", widened to 32
    bits and read as a signed integer, so `1` or `0`. -/
def hot (b : Vec Ideal S100000x1 .i32) (n : Fin 100000) (g : Fin 512) : EReal :=
  FloatOps.sitofp (F := Ideal) .f32 ((IntOp.cmpi .eq (b (ix2 n 0)) (BitVec.ofNat 32 g.val)).setWidth 32)

/-- Feature `ch` summed over the rows of graph `g`. -/
def poolSum (h : Vec Ideal S100000x128 .f32) (b : Vec Ideal S100000x1 .i32) (ch : Fin 128) (g : Fin 512) : EReal :=
  ∑ n : Fin 100000, h (ix2 n ch) * hot b n g

/-- The number of rows of graph `g`. -/
def poolCnt (b : Vec Ideal S100000x1 .i32) (g : Fin 512) : EReal :=
  ∑ n : Fin 100000, hot b n g

/-- The mean of feature `ch` over graph `g`: the sum over the count, the count taken at least one. -/
def pooled (h : Vec Ideal S100000x128 .f32) (b : Vec Ideal S100000x1 .i32) (ch : Fin 128) (g : Fin 512) : EReal :=
  Ideal.div (poolSum h b ch g) (max (poolCnt b g) (Ideal.ofBits .f32 0x3F800000#32))

/-- Hidden unit `k` of graph `g`: the first dense layer on the graph's means, its bias added, rectified. -/
def hid (h : Vec Ideal S100000x128 .f32) (b : Vec Ideal S100000x1 .i32) (wm1 : Vec Ideal S128x64 .f32)
    (bm1 : Vec Ideal S64x1 .f32) (k : Fin 64) (g : Fin 512) : EReal :=
  max ((∑ ch : Fin 128, wm1 (ix2 ch k) * pooled h b ch g) + bm1 (ix2 k 0)) (Ideal.ofBits .f32 0x00000000#32)

/-- The output of graph `g`: the second dense layer on the hidden units, its bias added. -/
def outv (h : Vec Ideal S100000x128 .f32) (b : Vec Ideal S100000x1 .i32) (wm1 : Vec Ideal S128x64 .f32)
    (bm1 : Vec Ideal S64x1 .f32) (wm2 : Vec Ideal S64x1 .f32) (bm2 : Vec Ideal S1x1 .f32) (g : Fin 512) : EReal :=
  (∑ k : Fin 64, wm2 (ix2 k 0) * hid h b wm1 bm1 k g) + bm2 (ix2 0 0)

/-- The outputs of all graphs as one row of 512. -/
def poolOut (h : Vec Ideal S100000x128 .f32) (b : Vec Ideal S100000x1 .i32) (wm1 : Vec Ideal S128x64 .f32)
    (bm1 : Vec Ideal S64x1 .f32) (wm2 : Vec Ideal S64x1 .f32) (bm2 : Vec Ideal S1x1 .f32) : Vec Ideal S1x512 .f32 :=
  fun j => outv h b wm1 bm1 wm2 bm2 (j 1)

end Cert.KernelIdeal.Spec

end
-- ==== Proof.RefPool.lean ====
/-
  The closing stretch of the reference program — per-graph sums and counts by two accumulating scatters, the mean, and
  the two dense layers with the rectifier between them — read at an index and identified with the pooled perceptron's
  explicit formulas. An accumulating scatter at the exact-arithmetic instance is its start value plus the sum of the
  update entries whose landing index is the entry read; for the two scatters here a row lands on graph `g` exactly
  when its graph id, read as a signed word, is `g`, and a row whose id is outside `0 … 511` lands nowhere. The one-hot
  weight of the formulas is one for exactly those rows, so sums and counts agree term by term; the rest is pointwise
  arithmetic and two finite sums of products, whose factors are commuted to the formulas' order.
-/
import proofs.«424487_j41961830482015_1_alg».proof.Proof.RefRead
import proofs.«424487_j41961830482015_1_alg».proof.Proof.KI.PoolSpec
import proofs.«424487_j41961830482015_1_alg».proof.Proof.Gen.KernelIdeal
import Idealize.ShloMosaic.Lib.ValueIdxRank1
import Idealize.ShloMosaic.Lib.ValueLayout
import Idealize.ShloMosaic.Lib.IdealHost
import Idealize.ShloMosaic.Lib.StableHlo.Predicate

noncomputable section

namespace Cert.ReferenceIdeal.RefValue

open Cert.ReferenceIdeal Cert.ReferenceIdeal.Gen Cert.ReferenceIdeal.ReadP
open Idealize.ShloMosaic Idealize.ShloMosaic.TcCoe Idealize.SL.Sem Idealize.ShloMosaic.StableHlo
open Idealize.ShloMosaic.ValueIdx

/-! ## The scatter-add of rows, read at an index -/

section Sums

theorem sums_start0 (j : S100000x128.Idx) (idx : IVec S100000x1 32) :
    scatter_S512x128_S100000x1_S100000x128_1_0_0_1.start j idx 0 = (idx (ix2 (j 0) 0)).toInt := by
  unfold ScatterDims.start
  rw [dif_pos (show (0 : Fin S512x128.rank) ∈ scatter_S512x128_S100000x1_S100000x128_1_0_0_1.scatterDimsToOperandDims by decide)]
  congr 2
  funext b; refine Fin.ext ?_
  match b with
  | ⟨0, _⟩ => rfl
  | ⟨1, _⟩ => rfl

theorem sums_start1 (j : S100000x128.Idx) (idx : IVec S100000x1 32) :
    scatter_S512x128_S100000x1_S100000x128_1_0_0_1.start j idx 1 = 0 := by
  unfold ScatterDims.start
  rw [dif_neg (show ¬ (1 : Fin S512x128.rank) ∈ scatter_S512x128_S100000x1_S100000x128_1_0_0_1.scatterDimsToOperandDims by decide)]

theorem sums_window0 (j : S100000x128.Idx) :
    scatter_S512x128_S100000x1_S100000x128_1_0_0_1.window j 0 = 0 := by
  unfold ScatterDims.window
  rw [dif_neg (show ¬ (0 : Fin S512x128.rank) ∈ scatter_S512x128_S100000x1_S100000x128_1_0_0_1.sKept by decide)]

theorem sums_window1 (j : S100000x128.Idx) :
    scatter_S512x128_S100000x1_S100000x128_1_0_0_1.window j 1 = (j 1).val := by
  unfold ScatterDims.window
  rw [dif_pos (show (1 : Fin S512x128.rank) ∈ scatter_S512x128_S100000x1_S100000x128_1_0_0_1.sKept by decide)]
  rfl

theorem sums_resultIdx (idx : IVec S100000x1 32) (j : S100000x128.Idx) (i : S512x128.Idx) :
    scatter_S512x128_S100000x1_S100000x128_1_0_0_1.resultIdx? j idx = some i ↔
      ((idx (ix2 (j 0) 0)).toInt = ((i 0).val : Int) ∧ j 1 = i 1) := by
  unfold ScatterDims.resultIdx?
  have h0 := sums_start0 j idx
  have h1 := sums_start1 j idx
  have w0 := sums_window0 j
  have w1 := sums_window1 j
  have hi0 : (i 0).val < 512 := (i 0).isLt
  have hi1 : (i 1).val < 128 := (i 1).isLt
  have hj1 : (j 1).val < 128 := (j 1).isLt
  constructor
  · intro h
    split at h
    · rename_i hh
      have he := Option.some.inj h
      have e0 := congrArg (fun f => (f 0).val) he
      have e1 := congrArg (fun f => (f 1).val) he
      simp only at e0 e1
      have hh0 := hh 0
      rw [h0, w0] at e0 hh0
      rw [h1, w1] at e1
      refine ⟨by omega, Fin.ext (by omega)⟩
    · exact absurd h (by simp)
  · rintro ⟨ha, hb⟩
    have hb' : (j 1).val = (i 1).val := congrArg Fin.val hb
    rw [dif_pos]
    · congr 1
      funext a
      refine Fin.ext ?_
      match a with
      | ⟨0, _⟩ => show (scatter_S512x128_S100000x1_S100000x128_1_0_0_1.start j idx 0 + (scatter_S512x128_S100000x1_S100000x128_1_0_0_1.window j 0 : Int)).toNat = (i 0).val; rw [h0, w0]; omega
      | ⟨1, _⟩ => show (scatter_S512x128_S100000x1_S100000x128_1_0_0_1.start j idx 1 + (scatter_S512x128_S100000x1_S100000x128_1_0_0_1.window j 1 : Int)).toNat = (i 1).val; rw [h1, w1]; omega
    · intro a
      match a with
      | ⟨0, _⟩ => show 0 ≤ scatter_S512x128_S100000x1_S100000x128_1_0_0_1.start j idx 0 + (scatter_S512x128_S100000x1_S100000x128_1_0_0_1.window j 0 : Int) ∧ scatter_S512x128_S100000x1_S100000x128_1_0_0_1.start j idx 0 + (scatter_S512x128_S100000x1_S100000x128_1_0_0_1.window j 0 : Int) < (512 : Nat); rw [h0, w0]; omega
      | ⟨1, _⟩ => show 0 ≤ scatter_S512x128_S100000x1_S100000x128_1_0_0_1.start j idx 1 + (scatter_S512x128_S100000x1_S100000x128_1_0_0_1.window j 1 : Int) ∧ scatter_S512x128_S100000x1_S100000x128_1_0_0_1.start j idx 1 + (scatter_S512x128_S100000x1_S100000x128_1_0_0_1.window j 1 : Int) < (128 : Nat); rw [h1, w1]; omega

/-- The scatter-add of the rows of `upd` into `x` at the row numbers `idx`, read at `(g, c)`: the start value plus the
    sum over the rows whose (signed) row number is `g` of the row's entry in column `c`. A row number outside
    `0 … 511` matches no `g`, so such a row is dropped. -/
theorem sums_apply (x : FVec Ideal S512x128 .f32) (idx : IVec S100000x1 32) (upd : FVec Ideal S100000x128 .f32)
    (g : Fin 512) (c : Fin 128) :
    Host.scatterAdd (F := Ideal) scatter_S512x128_S100000x1_S100000x128_1_0_0_1 x idx upd (ix2 g c) =
      x (ix2 g c) + ∑ n : Fin 100000, if (idx (ix2 n 0)).toInt = (g.val : Int) then upd (ix2 n c) else 0 := by
  show Ideal.hostScatterAdd scatter_S512x128_S100000x1_S100000x128_1_0_0_1 x idx upd (ix2 g c) = _
  unfold Ideal.hostScatterAdd
  refine congrArg (fun z => x (ix2 g c) + z) ?_
  rw [Finset.sum_filter, sum_idx2]
  refine Finset.sum_congr rfl fun n _ => ?_
  have key : ∀ b : Fin 128, (scatter_S512x128_S100000x1_S100000x128_1_0_0_1.resultIdx? (ix2 n b) idx = some (ix2 g c)) ↔
      ((idx (ix2 n 0)).toInt = (g.val : Int) ∧ b = c) := fun b => sums_resultIdx idx (ix2 n b) (ix2 g c)
  rw [Finset.sum_congr rfl (fun b _ => if_congr (key b) rfl rfl)]
  by_cases hn : (idx (ix2 n 0)).toInt = (g.val : Int)
  · simp only [hn, true_and, if_true]
    exact (Finset.sum_ite_eq' Finset.univ c (fun b => upd (ix2 n b))).trans (if_pos (Finset.mem_univ c))
  · simp only [hn, false_and, if_false, Finset.sum_const_zero]

end Sums

/-! ## The scatter-add of ones, read at an index -/

section Counts

theorem cnt_start0 (j : S100000.Idx) (idx : IVec S100000x1 32) :
    scatter_S512_S100000x1_S100000_n_0_0_1.start j idx 0 = (idx (ix2 (j 0) 0)).toInt := by
  unfold ScatterDims.start
  rw [dif_pos (show (0 : Fin S512.rank) ∈ scatter_S512_S100000x1_S100000_n_0_0_1.scatterDimsToOperandDims by decide)]
  congr 2
  funext b; refine Fin.ext ?_
  match b with
  | ⟨0, _⟩ => rfl
  | ⟨1, _⟩ => rfl

theorem cnt_window0 (j : S100000.Idx) :
    scatter_S512_S100000x1_S100000_n_0_0_1.window j 0 = 0 := by
  unfold ScatterDims.window
  rw [dif_neg (show ¬ (0 : Fin S512.rank) ∈ scatter_S512_S100000x1_S100000_n_0_0_1.sKept by decide)]

theorem cnt_resultIdx (idx : IVec S100000x1 32) (j : S100000.Idx) (i : S512.Idx) :
    scatter_S512_S100000x1_S100000_n_0_0_1.resultIdx? j idx = some i ↔
      (idx (ix2 (j 0) 0)).toInt = ((i 0).val : Int) := by
  unfold ScatterDims.resultIdx?
  have h0 := cnt_start0 j idx
  have w0 := cnt_window0 j
  have hi0 : (i 0).val < 512 := (i 0).isLt
  constructor
  · intro h
    split at h
    · rename_i hh
      have he := Option.some.inj h
      have e0 := congrArg (fun f => (f 0).val) he
      simp only at e0
      have hh0 := hh 0
      rw [h0, w0] at e0 hh0
      omega
    · exact absurd h (by simp)
  · intro ha
    rw [dif_pos]
    · congr 1
      funext a
      refine Fin.ext ?_
      match a with
      | ⟨0, _⟩ => show (scatter_S512_S100000x1_S100000_n_0_0_1.start j idx 0 + (scatter_S512_S100000x1_S100000_n_0_0_1.window j 0 : Int)).toNat = (i 0).val; rw [h0, w0]; omega
    · intro a
      match a with
      | ⟨0, _⟩ => show 0 ≤ scatter_S512_S100000x1_S100000_n_0_0_1.start j idx 0 + (scatter_S512_S100000x1_S100000_n_0_0_1.window j 0 : Int) ∧ scatter_S512_S100000x1_S100000_n_0_0_1.start j idx 0 + (scatter_S512_S100000x1_S100000_n_0_0_1.window j 0 : Int) < (512 : Nat); rw [h0, w0]; omega

/-- The scatter-add of the entries of `upd` into `x` at the positions `idx`, read at `g`: the start value plus the
    sum of the entries whose (signed) position is `g`. -/
theorem cnt_apply (x : FVec Ideal S512 .f32) (idx : IVec S100000x1 32) (upd : FVec Ideal S100000 .f32) (g : Fin 512) :
    Host.scatterAdd (F := Ideal) scatter_S512_S100000x1_S100000_n_0_0_1 x idx upd (ix1 g) =
      x (ix1 g) + ∑ n : Fin 100000, if (idx (ix2 n 0)).toInt = (g.val : Int) then upd (ix1 n) else 0 := by
  show Ideal.hostScatterAdd scatter_S512_S100000x1_S100000_n_0_0_1 x idx upd (ix1 g) = _
  unfold Ideal.hostScatterAdd
  refine congrArg (fun z => x (ix1 g) + z) ?_
  rw [Finset.sum_filter, ← Equiv.sum_comp (idxEquiv1 (n := 100000)).symm]
  exact Finset.sum_congr rfl fun n _ => if_congr (cnt_resultIdx idx (ix1 n) (ix1 g)) rfl rfl

end Counts

/-! ## Small facts: a word against a small number, a column read at an index -/

/-- A 32-bit word read signed is the small number `g` exactly when it is `g`'s word. -/
theorem toInt_eq_iff (b : BitVec 32) (g : Fin 512) : b.toInt = (g.val : Int) ↔ b = BitVec.ofNat 32 g.val := by
  have hg := g.isLt
  have hb := b.isLt
  rw [BitVec.toInt_eq_toNat_cond]
  constructor
  · intro h
    apply BitVec.eq_of_toNat_eq
    rw [BitVec.toNat_ofNat]
    split at h <;> omega
  · intro h
    have hn : b.toNat = g.val := by rw [h, BitVec.toNat_ofNat]; omega
    rw [if_pos (by omega)]; omega

/-- Row `n`'s weight for graph `g` is one when the row's graph id, read signed, is `g`, and zero otherwise. -/
theorem hot_eq (b : IVec Cert.KernelIdeal.S100000x1 32) (n : Fin 100000) (g : Fin 512) :
    Cert.KernelIdeal.Spec.hot b n g = if (b (ix2 n 0)).toInt = (g.val : Int) then 1 else 0 := by
  unfold Cert.KernelIdeal.Spec.hot
  show ((((IntOp.cmpi .eq (b (ix2 n 0)) (BitVec.ofNat 32 g.val)).setWidth 32).toInt : ℝ) : EReal) = _
  by_cases h : (b (ix2 n 0)).toInt = (g.val : Int)
  · rw [if_pos h, Predicate.cmpi_eq_iff.mpr ((toInt_eq_iff _ g).mp h)]
    have : ((1#1 : BitVec 1).setWidth 32).toInt = 1 := by decide
    rw [this]; norm_num
  · rw [if_neg h, eq_zero_of_ne_one (fun hc => h ((toInt_eq_iff _ g).mpr (Predicate.cmpi_eq_iff.mp hc)))]
    have : ((0#1 : BitVec 1).setWidth 32).toInt = 0 := by decide
    rw [this]; norm_num

/-- A vector reshaped to a column, read at row `i`. -/
theorem col_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## The stages' index functions at coordinates -/

theorem e91 (n : Fin 100000) (u : Fin 1) : idx_main_v91 (ix2 n u) = ix1 n :=
  funext fun a => Fin.ext (by match a with | ⟨0, _⟩ => rfl)
theorem e95 (n : Fin 100000) (u : Fin 1) : idx_main_v95 (ix2 n u) = ix1 n :=
  funext fun a => Fin.ext (by match a with | ⟨0, _⟩ => rfl)
theorem e100 (g : Fin 512) (c : Fin 128) : idx_main_v99 (idx_main_v100 (ix2 g c)) = ix1 g :=
  funext fun a => Fin.ext (by match a with | ⟨0, _⟩ => rfl)
theorem el102 (g : Fin 512) (k : Fin 64) (c : Fin 128) : lidx_main_v102 (ix2 g k) c = ix2 g c :=
  funext fun a => Fin.ext (by match a with | ⟨0, _⟩ => rfl | ⟨1, _⟩ => rfl)
theorem er102 (g : Fin 512) (k : Fin 64) (c : Fin 128) : ridx_main_v102 (ix2 g k) c = ix2 c k :=
  funext fun a => Fin.ext (by match a with | ⟨0, _⟩ => rfl | ⟨1, _⟩ => rfl)
theorem e104 (g : Fin 512) (k : Fin 64) : idx_main_v103 (idx_main_v104 (ix2 g k)) = ix1 k :=
  funext fun a => Fin.ext (by match a with | ⟨0, _⟩ => rfl)
theorem el107 (g : Fin 512) (u : Fin 1) (k : Fin 64) : lidx_main_v107 (ix2 g u) k = ix2 g k :=
  funext fun a => Fin.ext (by match a with | ⟨0, _⟩ => rfl | ⟨1, _⟩ => rfl)
theorem er107 (g : Fin 512) (u : Fin 1) (k : Fin 64) : ridx_main_v107 (ix2 g u) k = ix2 k u :=
  funext fun a => Fin.ext (by match a with | ⟨0, _⟩ => rfl | ⟨1, _⟩ => rfl)
theorem e109 (g : Fin 512) (u : Fin 1) : idx_main_v108 (idx_main_v109 (ix2 g u)) = ix1 (0 : Fin 1) :=
  funext fun a => Fin.ext (by match a with | ⟨0, _⟩ => rfl)

/-! ## The tail of the reference, stage by stage -/

section Tail

variable (x0 : (⟨S100000x128, .f32⟩ : BufTy).Contents (Elt Ideal)) (x1 : (⟨S2x1600000, .i32⟩ : BufTy).Contents (Elt Ideal))
  (x2 : (⟨S100000, .i32⟩ : BufTy).Contents (Elt Ideal)) (x3 : (⟨S128x128, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal)) (x7 : (⟨S128x64, .f32⟩ : BufTy).Contents (Elt Ideal))
  (x8 : (⟨S64, .f32⟩ : BufTy).Contents (Elt Ideal)) (x9 : (⟨S64x1, .f32⟩ : BufTy).Contents (Elt Ideal))
  (x10 : (⟨S1, .f32⟩ : BufTy).Contents (Elt Ideal))

/-- The graph ids as a column, as the kernel program reshapes them. -/
abbrev idsCol : Vec Ideal Cert.KernelIdeal.S100000x1 .i32 :=
  shapeCast Cert.KernelIdeal.S100000x1 x2 Cert.KernelIdeal.Facts₀.shapeCasts_S100000_S100000x1

theorem idsCol_apply (n : Fin 100000) (u : Fin 1) : idsCol x2 (ix2 n u) = x2 (ix1 n) :=
  col_apply x2 Cert.KernelIdeal.Facts₀.shapeCasts_S100000_S100000x1 n u

/-- The counts: the scatter-add of ones is the number of rows of each graph. -/
theorem counts_eq (g : Fin 512) :
    val_main_v96 (F := Ideal) x2 (ix1 g) = Cert.KernelIdeal.Spec.poolCnt (idsCol x2) g := by
  unfold val_main_v96 Cert.KernelIdeal.Spec.poolCnt
  rw [cnt_apply, val_main_v94_apply, val_main_cst_24_apply]
  show Ideal.ofBits .f32 0x00000000#32 + _ = _
  rw [Ideal.ofBits_zero_f32, zero_add]
  refine Finset.sum_congr rfl fun n _ => ?_
  rw [hot_eq, idsCol_apply, val_main_v95_apply, e95, val_main_v93_apply, val_main_cst_23_apply]
  show (if _ then Ideal.ofBits .f32 0x3F800000#32 else 0) = _
  rw [Ideal.ofBits_one_f32]

/-- The sums: the scatter-add of the feature rows is each graph's sum of its rows. -/
theorem sums_eq (g : Fin 512) (c : Fin 128) :
    val_main_v92 (F := Ideal) x0 x1 x2 x3 x4 x5 x6 (ix2 g c) =
      Cert.KernelIdeal.Spec.poolSum (val_main_v89 (F := Ideal) x0 x1 x3 x4 x5 x6) (idsCol x2) c g := by
  unfold val_main_v92 Cert.KernelIdeal.Spec.poolSum
  generalize val_main_v89 (F := Ideal) x0 x1 x3 x4 x5 x6 = hfin
  rw [sums_apply, val_main_v90_apply, val_main_cst_22_apply]
  show Ideal.ofBits .f32 0x00000000#32 + _ = _
  rw [Ideal.ofBits_zero_f32, zero_add]
  refine Finset.sum_congr rfl fun n _ => ?_
  rw [hot_eq, idsCol_apply, val_main_v91_apply, e91]
  by_cases h : (x2 (ix1 n)).toInt = (g.val : Int)
  · rw [if_pos h, if_pos h, mul_one]
  · rw [if_neg h, if_neg h, mul_zero]

/-- The means. -/
theorem mean_eq (g : Fin 512) (c : Fin 128) :
    val_main_v101 (F := Ideal) x0 x1 x2 x3 x4 x5 x6 (ix2 g c) =
      Cert.KernelIdeal.Spec.pooled (val_main_v89 (F := Ideal) x0 x1 x3 x4 x5 x6) (idsCol x2) c g := by
  rw [val_main_v101_apply, sums_eq, val_main_v100_apply, val_main_v99_apply, val_main_v98_apply, e100, counts_eq,
    val_main_v97_apply, val_main_cst_25_apply]
  rfl

/-- The hidden layer. -/
theorem hid_eq (g : Fin 512) (k : Fin 64) :
    val_main_v106 (F := Ideal) x0 x1 x2 x3 x4 x5 x6 x7 x8 (ix2 g k) =
      Cert.KernelIdeal.Spec.hid (val_main_v89 (F := Ideal) x0 x1 x3 x4 x5 x6) (idsCol x2) x7
        (shapeCast Cert.KernelIdeal.S64x1 x8 Cert.KernelIdeal.Facts₀.shapeCasts_S64_S64x1) k g := by
  rw [val_main_v106_apply, val_main_v105_apply, val_main_v102_apply, val_main_v104_apply, val_main_v103_apply, e104,
    val_main_call3_v0_apply, val_main_call3_cst_apply]
  unfold Cert.KernelIdeal.Spec.hid
  rw [col_apply]
  have hs : (∑ c : Fin 128, val_main_v101 (F := Ideal) x0 x1 x2 x3 x4 x5 x6 (lidx_main_v102 (ix2 g k) c) * x7 (ridx_main_v102 (ix2 g k) c)) =
      ∑ ch : Fin 128, x7 (ix2 ch k) * Cert.KernelIdeal.Spec.pooled (val_main_v89 (F := Ideal) x0 x1 x3 x4 x5 x6) (idsCol x2) ch g :=
    Finset.sum_congr rfl fun c _ => by rw [el102, er102, mean_eq, mul_comm]
  rw [hs]
  rfl

end Tail

/-! ## The tail of the reference is the pooled perceptron -/

/-- The reference's result as a function of its eleven arguments is the pooled perceptron of the second convolution's
    output `val_main_v89`, the graph ids as a column, the first dense layer, its bias as a column, the second dense layer
    and its bias as a 1 × 1 array, laid out as a column of 512 graphs. -/
theorem tail_eq_spec (x0 : (⟨S100000x128, .f32⟩ : BufTy).Contents (Elt Ideal)) (x1 : (⟨S2x1600000, .i32⟩ : BufTy).Contents (Elt Ideal))
    (x2 : (⟨S100000, .i32⟩ : BufTy).Contents (Elt Ideal)) (x3 : (⟨S128x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) (x7 : (⟨S128x64, .f32⟩ : BufTy).Contents (Elt Ideal))
    (x8 : (⟨S64, .f32⟩ : BufTy).Contents (Elt Ideal)) (x9 : (⟨S64x1, .f32⟩ : BufTy).Contents (Elt Ideal))
    (x10 : (⟨S1, .f32⟩ : BufTy).Contents (Elt Ideal)) :
    val_main_v110 (F := Ideal) x0 x1 x2 x3 x4 x5 x6 x7 x8 x9 x10 =
      transpose Cert.KernelIdeal.S512x1 [1, 0]
        (Cert.KernelIdeal.Spec.poolOut (val_main_v89 (F := Ideal) x0 x1 x3 x4 x5 x6)
          (shapeCast Cert.KernelIdeal.S100000x1 x2 Cert.KernelIdeal.Facts₀.shapeCasts_S100000_S100000x1) x7
          (shapeCast Cert.KernelIdeal.S64x1 x8 Cert.KernelIdeal.Facts₀.shapeCasts_S64_S64x1) x9
          (shapeCast Cert.KernelIdeal.S1x1 x10 Cert.KernelIdeal.Facts₀.shapeCasts_S1_S1x1))
        Cert.KernelIdeal.Facts₀.transposes_S1x512_S512x1_1_0 := by
  funext i
  obtain ⟨g, u, rfl⟩ : ∃ (g : Fin 512) (u : Fin 1), i = ix2 g u := ⟨i 0, i 1, eq_ix2 i⟩
  rw [transpose_ix2_apply]
  show _ = Cert.KernelIdeal.Spec.outv (val_main_v89 (F := Ideal) x0 x1 x3 x4 x5 x6) (idsCol x2) x7
    (shapeCast Cert.KernelIdeal.S64x1 x8 Cert.KernelIdeal.Facts₀.shapeCasts_S64_S64x1) x9
    (shapeCast Cert.KernelIdeal.S1x1 x10 Cert.KernelIdeal.Facts₀.shapeCasts_S1_S1x1) g
  unfold Cert.KernelIdeal.Spec.outv
  rw [val_main_v110_apply, val_main_v107_apply, val_main_v109_apply, val_main_v108_apply, e109, col_apply]
  have hs : (∑ k : Fin 64, val_main_v106 (F := Ideal) x0 x1 x2 x3 x4 x5 x6 x7 x8 (lidx_main_v107 (ix2 g u) k) * x9 (ridx_main_v107 (ix2 g u) k)) =
      ∑ k : Fin 64, x9 (ix2 k 0) * Cert.KernelIdeal.Spec.hid (val_main_v89 (F := Ideal) x0 x1 x3 x4 x5 x6) (idsCol x2) x7
        (shapeCast Cert.KernelIdeal.S64x1 x8 Cert.KernelIdeal.Facts₀.shapeCasts_S64_S64x1) k g :=
    Finset.sum_congr rfl fun k _ => by
      rw [el107, er107, hid_eq, mul_comm, Subsingleton.elim u 0]
  rw [hs]
  rfl

end Cert.ReferenceIdeal.RefValue

end
-- ==== Proof.K.Reg0.lean ====
/-
  The first matrix product, x · W1, as one pipelined region: twenty grid points, point t staging rows
  5000·t … 5000·t + 4999 of the left operand and the whole right operand, and writing back the 5000 × 128 block of
  products. Stated at a parameter `V`, the buffers' contents when the region is entered: what each window's
  block is, what the body leaves in the output's staging buffer (the product of the two staged blocks), the
  body's triple, the pipeline's proof data and the body obligation at every point.
-/
import proofs.«424487_j41961830482015_1_alg».proof.Proof.Gen.Kernel.Launch
import proofs.«424487_j41961830482015_1_alg».proof.Proof.Gen.Kernel.Skeleton
import proofs.«424487_j41961830482015_1_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0: the blocks of its windows -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of the left operand is in its staging buffer at every point (it is fetched at each). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right operand is in its staging buffer at every point: fetched once, its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the output's staging buffer -/

abbrev rX0 : Rect S5000x128 := Rect.unit (s := S5000x128) ![0, 0] S5000x128.size inb_S5000x128_S5000x128_0_0
abbrev rW0 : Rect S128x128 := Rect.unit (s := S128x128) ![0, 0] S128x128.size inb_S128x128_S128x128_0_0

/-- The output block after the body: its one store, of the product of the two staged blocks. -/
def out0_2 (x : Vec F S5000x128 .f32) (w : Vec F S128x128 .f32) : Vec F S5000x128 .f32 :=
  View.canon [⟨rX0, k0_pay1 (View.ld x rX0) (View.ld w rW0)⟩]

/-- That store covers the whole block. -/
theorem cover0_2 (p0 : Vec F S5000x128 .f32) (y : S5000x128.Idx) :
    ∃ pc ∈ ([⟨rX0, p0⟩] : List (View.Piece (Elt F) S5000x128 .f32)), y ∈ pc.1.set :=
  View.cover_of_tiled [⟨rX0, p0⟩] S5000x128.size (by rfl) y

/-! ## The body's triple -/

set_option maxHeartbeats 1000000 in
/-- On whole staging buffers, the inputs' at `x` and `w` and the output's at anything, the body runs to its end with
    the inputs as they were and the output at `out0_2 x w`. -/
theorem sound_kernel0 (c : Dev nD) (E : Set ℕ) (i : grid0.Coords) (arg1 : Memref sig .tc .vmem S5000x128 .f32) (harg1 : arg1.IsWhole)
    (arg2 : Memref sig .tc .vmem S128x128 .f32) (harg2 : arg2.IsWhole) (arg3 : Memref sig .tc .vmem S5000x128 .f32) (harg3 : arg3.IsWhole)
    (x : Vec F S5000x128 .f32) (w : Vec F S128x128 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w ∗ owns (c : Thread nD τ) arg3 fullShare (out0_2 x w)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- Region 0's proof data on core `c`: the arrays as the region finds them; after the body at point `t` each input's
    buffer at its block and the output's at the product of the two blocks; between points only the scratch-free rest
    and the generator register; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Reg

end
-- ==== Proof.K.Reg1.lean ====
/-
  The second matrix product, h · W2 (h the first layer's output after its rectifier), as one pipelined region:
  twenty grid points, point t staging rows 5000·t … 5000·t + 4999 of the left operand and the whole right operand,
  and writing back the 5000 × 128 block of products. Stated at a parameter `V`, the buffers' contents when the
  region is entered: what each window's block is, what the body leaves in the output's staging buffer (the product
  of the two staged blocks), the body's triple, the pipeline's proof data and the body obligation at every point.
-/
import proofs.«424487_j41961830482015_1_alg».proof.Proof.Gen.Kernel.Launch
import proofs.«424487_j41961830482015_1_alg».proof.Proof.Gen.Kernel.Skeleton
import proofs.«424487_j41961830482015_1_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 1: the blocks of its windows -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row block of the left operand is in its staging buffer at every point (it is fetched at each). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The right operand is in its staging buffer at every point: fetched once, its block index never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in the output's staging buffer -/

abbrev rX1 : Rect S5000x128 := Rect.unit (s := S5000x128) ![0, 0] S5000x128.size inb_S5000x128_S5000x128_0_0
abbrev rW1 : Rect S128x128 := Rect.unit (s := S128x128) ![0, 0] S128x128.size inb_S128x128_S128x128_0_0

/-- The output block after the body: its one store, of the product of the two staged blocks. -/
def out1_2 (x : Vec F S5000x128 .f32) (w : Vec F S128x128 .f32) : Vec F S5000x128 .f32 :=
  View.canon [⟨rX1, k1_pay1 (View.ld x rX1) (View.ld w rW1)⟩]

/-- That store covers the whole block. -/
theorem cover1_2 (p0 : Vec F S5000x128 .f32) (y : S5000x128.Idx) :
    ∃ pc ∈ ([⟨rX1, p0⟩] : List (View.Piece (Elt F) S5000x128 .f32)), y ∈ pc.1.set :=
  View.cover_of_tiled [⟨rX1, p0⟩] S5000x128.size (by rfl) y

/-! ## The body's triple -/

set_option maxHeartbeats 1000000 in
/-- On whole staging buffers, the inputs' at `x` and `w` and the output's at anything, the body runs to its end with
    the inputs as they were and the output at `out1_2 x w`. -/
theorem sound_kernel1 (c : Dev nD) (E : Set ℕ) (i : grid1.Coords) (arg1 : Memref sig .tc .vmem S5000x128 .f32) (harg1 : arg1.IsWhole)
    (arg2 : Memref sig .tc .vmem S128x128 .f32) (harg2 : arg2.IsWhole) (arg3 : Memref sig .tc .vmem S5000x128 .f32) (harg3 : arg3.IsWhole)
    (x : Vec F S5000x128 .f32) (w : Vec F S128x128 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w ∗ owns (c : Thread nD τ) arg3 fullShare (out1_2 x w)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- Region 1's proof data on core `c`: the arrays as the region finds them; after the body at point `t` each input's
    buffer at its block and the output's at the product of the two blocks; between points only the scratch-free rest
    and the generator register; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.Kernel.Reg

end
-- ==== Proof.K.Reg2Defs.lean ====
/-
  The pooling region: twenty grid points, point t staging rows 5000·t … 5000·t + 4999 of the node features and of the
  graph ids, and (once) the four small operands of the two closing products. Two scratch buffers are carried from point
  to point: the 128 × 512 sums, per feature and graph, of the feature rows whose graph id is that graph, and the
  1 × 512 counts of rows per graph. Point 0 first clears both; every point adds its tile's one-hot product and its
  tile's counts; the last point divides the sums by the counts (at least one), applies the two small products with
  their biases and the rectifier between them, and stores the 1 × 512 result, the only store into the output's
  staging buffer. Stated at a parameter `V`, the buffers' contents when the region is entered: the windows' blocks,
  the scratch contents after each point, the pipeline's proof data.
-/
import proofs.«424487_j41961830482015_1_alg».proof.Proof.Gen.Kernel.Launch
import proofs.«424487_j41961830482015_1_alg».proof.Proof.Gen.Kernel.Skeleton
import proofs.«424487_j41961830482015_1_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks of the region's windows -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The two carried scratch buffers -/

/-- The sums scratch after the first `n` points: cleared, then each point's tile added. -/
def accUpTo (c : Dev nD) : (n : ℕ) → n ≤ cfg2.N → Vec F S128x512 .f32
  | 0, _ => k2_pay1
  | n + 1, h => k2_pay4 (iblk2 V c 1 ⟨n, h⟩) (iblk2 V c 0 ⟨n, h⟩) (accUpTo c n (Nat.le_of_succ_le h))

/-- The counts scratch after the first `n` points: cleared, then each point's tile counted. -/
def cntUpTo (c : Dev nD) : (n : ℕ) → n ≤ cfg2.N → Vec F S1x512 .f32
  | 0, _ => k2_pay2
  | n + 1, h => k2_pay5 (iblk2 V c 1 ⟨n, h⟩) (cntUpTo c n (Nat.le_of_succ_le h))

theorem accUpTo_zero (c : Dev nD) (h) : accUpTo V c 0 h = k2_pay1 := rfl
theorem accUpTo_succ (c : Dev nD) (n : ℕ) (h : n + 1 ≤ cfg2.N) :
    accUpTo V c (n + 1) h = k2_pay4 (iblk2 V c 1 ⟨n, h⟩) (iblk2 V c 0 ⟨n, h⟩) (accUpTo V c n (Nat.le_of_succ_le h)) := rfl
theorem cntUpTo_zero (c : Dev nD) (h) : cntUpTo V c 0 h = k2_pay2 := rfl
theorem cntUpTo_succ (c : Dev nD) (n : ℕ) (h : n + 1 ≤ cfg2.N) :
    cntUpTo V c (n + 1) h = k2_pay5 (iblk2 V c 1 ⟨n, h⟩) (cntUpTo V c n (Nat.le_of_succ_le h)) := rfl

/-! ## What the last point stores into the output's staging buffer -/

/-- The output block at point `t`, were the closing branch taken there: the closing arithmetic on the scratch contents
    after that point's tile and on the four small operands' blocks. Only the last point takes that branch. -/
def out2_6 (c : Dev nD) (t : Fin cfg2.N) : Vec F S1x512 .f32 :=
  k2_pay6 (cntUpTo V c (t.val + 1) t.isLt) (accUpTo V c (t.val + 1) t.isLt)
    (iblk2 V c 2 t) (iblk2 V c 3 t) (iblk2 V c 4 t) (iblk2 V c 5 t)

end Cert.Kernel.Reg

end
-- ==== Proof.K.Reg2.lean ====
/-
  The pooling region's frame half: the invariant carried between grid points (the generator register, the scoped
  buffers no window stages, and after the first point the two scratch buffers at the running sums and counts), the
  pipeline's proof data, and the body obligation at every point, by the three control cases (first point, a middle
  point, last point).
-/
import proofs.«424487_j41961830482015_1_alg».proof.Proof.K.Reg2Defs
import Idealize.ShloMosaic.Lib.Pipeline.Value

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The invariant between points -/

/-- The two scratch buffers the body carries from point to point, as whole memrefs: the sums and the counts. -/
abbrev scA : Memref sig .tc .vmem S128x512 .f32 := Memref.whole cc2_scratch0
abbrev scC : Memref sig .tc .vmem S1x512 .f32 := Memref.whole cc2_scratch1

/-- The core's scoped buffers that are neither a staging buffer of this region's windows nor one of its two scratch
    buffers, each whole at some contents: the body never touches them. -/
def rest2 (c : Dev nD) : sProp 𝕄 :=
  Pipeline.scopedRestBut (Ix := Unit) (Name := ℕ) (U := UR sig nD τ) (Lvl := ℕ) (Val := Elt F) spec2 c [cc2_scratch0, cc2_scratch1]

/-- The class invariant with the two scratch buffers taken out of the scoped rest, each owned whole at some contents. -/
theorem PhiA2_eq (c : Dev nD) :
    (Pipeline.ΦA spec2 c : sProp 𝕄)
      = iprop((((∃ d, owns (c : Thread nD τ) scA fullShare d) ∗ (∃ d, owns (c : Thread nD τ) scC fullShare d)) ∗ rest2 (F := F) c) ∗ (∃ r, prngReg c r)) := by
  unfold Pipeline.ΦA rest2
  rw [Pipeline.scopedRest_split_of_list spec2 c [cc2_scratch0, cc2_scratch1] (by decide) (by decide)]
  simp only [scA, scC, owns_whole]; try rfl

/-- The invariant before position `n`: before the first point the class invariant (both scratch buffers at anything);
    afterwards the untouched rest, the sums scratch at `accUpTo V c n`, the counts scratch at `cntUpTo V c n`, and the
    generator register at some state. -/
def PhiS2 (c : Dev nD) : (n : ℕ) → n ≤ cfg2.N → sProp 𝕄
  | 0, _ => Pipeline.ΦA spec2 c
  | n + 1, h => iprop(rest2 (F := F) c ∗ owns (c : Thread nD τ) scA fullShare (accUpTo V c (n + 1) h)
      ∗ owns (c : Thread nD τ) scC fullShare (cntUpTo V c (n + 1) h) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (h : n + 1 ≤ cfg2.N) :
    PhiS2 V c (n + 1) h = iprop(rest2 (F := F) c ∗ owns (c : Thread nD τ) scA fullShare (accUpTo V c (n + 1) h)
      ∗ owns (c : Thread nD τ) scC fullShare (cntUpTo V c (n + 1) h) ∗ (∃ r, prngReg c r)) := rfl

/-- Between points the core holds the generator register and every scoped buffer no window stages; before point 0
    at any contents (the class invariant), after point `n` with the two scratch buffers at the running sums and
    counts `accUpTo V c n`, `cntUpTo V c n`. -/
def Φ2 (c : Dev nD) : Fin (cfg2.N + 1) → sProp 𝕄 := fun t => PhiS2 V c t.val (Nat.le_of_lt_succ t.isLt)

/-! ## The pipeline's proof data -/

/-- Region 2's proof data on core `c`: the arrays as the region finds them; after the body at point `t` each input's
    buffer at its block, the output's at the closing arithmetic on the scratch contents after that point (read only at
    the last point: elsewhere the window is idle); nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 V c t
  Φ := Φ2 V c
  q _ := fullShare
  owed _ := 0

theorem A_eq2 (c : Dev nD) (w : Fin cfg2.W) : (dat2 V c).A w = V c (Pipeline.arrRef spec2 w) := by
  dsimp only [dat2]

theorem after2_6 (c : Dev nD) (t : Fin cfg2.N) : (dat2 V c).after 6 t = out2_6 V c t := by dsimp only [dat2]

/-- Before the first point the invariant is the class invariant. -/
theorem Φ2_first (c : Dev nD) : (dat2 V c).Φ 0 = Pipeline.ΦA spec2 c := by
  show PhiS2 V c (0 : Fin (cfg2.N + 1)).val (Nat.le_of_lt_succ (0 : Fin (cfg2.N + 1)).isLt) = _
  exact PhiS2_zero V c _ _ (Fin.val_zero (cfg2.N + 1))

/-- After the last point the invariant gives the class invariant back (the scratch contents forgotten). -/
theorem Φ2_last (c : Dev nD) : (dat2 V c).Φ (Fin.last cfg2.N) ⊢ (Pipeline.ΦA spec2 c : sProp 𝕄) := by
  have hN : cfg2.N = 19 + 1 := N_2
  show PhiS2 V c (Fin.last cfg2.N).val _ ⊢ _
  have e : ∀ (n : ℕ) (h : n ≤ cfg2.N), n = 19 + 1 → (PhiS2 V c n h ⊢ (Pipeline.ΦA spec2 c : sProp 𝕄)) := by
    intro n h hn; subst hn
    rw [PhiS2_succ, PhiA2_eq]
    iintro ⟨Hr, HA, HC, Hg⟩
    isplitr [Hg]
    · isplitr [Hr]
      · isplitl [HA]
        · iexists _; iexact HA
        · iexists _; iexact HC
      · iexact Hr
    · iexact Hg
  exact e _ _ (by rw [Fin.val_last]; exact hN)

/-! ## The body's two branch conditions over the grid -/

/-- The first branch's condition (clear both scratch buffers), from the grid coordinate: the kernel's scalar chain. -/
abbrev cond2_0 (i : grid2.Coords) : Prop :=
  (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val = 0 :=
  (by decide +kernel : ∀ t : Fin grid2.N, cond2_0 (grid2.coords t) ↔ t.val = 0)
/-- The second branch's condition (the closing arithmetic and the output's store). -/
abbrev cond2_1 (i : grid2.Coords) : Prop := k2_cond2 i = 1#1
/-- It holds at the last point only. -/
theorem hcond2_1 : ∀ t : Fin cfg2.N, cond2_1 (grid2.coords t) ↔ t.val = 19 :=
  (by decide +kernel : ∀ t : Fin grid2.N, cond2_1 (grid2.coords t) ↔ t.val = 19)

/-- The output window is idle, and not written back, wherever the second branch is not taken; live where it is. -/
theorem idleAt2_6 : ∀ t : Fin cfg2.N, ¬cond2_1 (grid2.coords t) → cfg2.idle 6 (grid2.coords t) = true := by decide +kernel
theorem noFlush2_6 : ∀ t : Fin cfg2.N, ¬cond2_1 (grid2.coords t) → (cfg2.win 6).flush t = false := by decide +kernel
theorem liveAt2_6 : ∀ t : Fin cfg2.N, cond2_1 (grid2.coords t) → cfg2.idle 6 (grid2.coords t) = false := by decide +kernel

/-! ## The body's triples, case by case -/

theorem hz2 : (![0, 0] : Fin 2 → Nat) = fun _ => 0 := funext fun a => by fin_cases a <;> rfl

/-- A list of stores whose last is through the whole-shape rectangle at zero offsets covers the buffer. -/
theorem cover_unit2 {S : Shape} {e : EltTy} {off : Fin S.rank → Nat} {inb : ∀ a, off a + S.size a ≤ S.size a} (hz : off = fun _ => 0)
    (w : (Rect.unit off S.size inb).shape.Idx → Elt F e) (L : List (View.Piece (Elt F) S e)) (y : S.Idx) :
    ∃ pc ∈ ((⟨Rect.unit off S.size inb, w⟩ : View.Piece (Elt F) S e) :: L), y ∈ pc.1.set :=
  ⟨_, List.mem_cons_self, View.mem_set_unit_zero hz inb y⟩

set_option maxHeartbeats 1000000 in
/-- A middle point (neither branch): the tile's one-hot product is added to the sums, the tile's counts to the counts. -/
theorem sound_kernel2_mid (c : Dev nD) (E : Set ℕ) (i : grid2.Coords) (arg1 : Memref sig .tc .vmem S5000x128 .f32) (harg1 : arg1.IsWhole) (arg2 : Memref sig .tc .vmem S5000x1 .i32) (harg2 : arg2.IsWhole) (arg3 : Memref sig .tc .vmem S128x64 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S1x1 .f32) (harg6 : arg6.IsWhole) (arg7 : Memref sig .tc .vmem S1x512 .f32) (harg7 : arg7.IsWhole) (arg8 : Memref sig .tc .vmem S128x512 .f32) (harg8 : arg8.IsWhole) (arg9 : Memref sig .tc .vmem S1x512 .f32) (harg9 : arg9.IsWhole)
    (hc0 : ¬cond2_0 i) (hc1 : ¬cond2_1 i)
    (x : Vec F S5000x128 .f32) (g : Vec F S5000x1 .i32) (a : Vec F S128x512 .f32) (k : Vec F S1x512 .f32) (K : PUnit → sProp 𝕄) :
    iprop(owns (c : Thread nD τ) arg1 fullShare x ∗ owns (c : Thread nD τ) arg2 fullShare g ∗ owns (c : Thread nD τ) arg8 fullShare a ∗ owns (c : Thread nD τ) arg9 fullShare k
        ∗ (iprop(owns (c : Thread nD τ) arg1 fullShare x ∗ owns (c : Thread nD τ) arg2 fullShare g ∗ owns (c : Thread nD τ) arg8 fullShare (k2_pay4 g x a) ∗ owns (c : Thread nD τ) arg9 fullShare (k2_pay5 g k)) -∗ K ⟨⟩))
      ⊢ wp frame (wpE (defs₀ (F := F)) Variants.none c none) E (cc2__pool_mlp_kernel i arg1 harg1 arg2 harg2 arg3 harg3 arg4 harg4 arg5 harg5 arg6 harg6 arg7 harg7 arg8 harg8 arg9 harg9) K := by
  simp only [cc2__pool_mlp_kernel_eq_skeleton]; unfold cc2__pool_mlp_kernel_skel
  unfold owns
  iintro ⟨⟨%f1, %hf1, H1⟩, ⟨%f2, %hf2, H2⟩, ⟨%f8, %hf8, H8⟩, ⟨%f9, %hf9, H9⟩, Hk⟩
  subst hf1; subst hf2; subst hf8; subst hf9
  sl_exec
  sl_step
  iapply Hk
  isplitl [H1]
  · iexists f1; isplitr; · ipureintro; rfl
    iexact H1
  isplitl [H2]
  · iexists f2; isplitr; · ipureintro; rfl
    iexact H2
  isplitl [H8]
  · iexists _; isplitr
    swap; · iexact H8
    ipureintro
    sl_unfold_words
    rw [View.read_writes_eq_canon _ _ _ (cover_unit2 hz2 _ _), View.canon_unit_zero hz2]
    simp only [View.readAt_eq_ld, View.ld_unit_zero (S := S5000x1) hz2, View.ld_unit_zero (S := S5000x128) hz2, View.ld_unit_zero (S := S128x512) hz2, View.ld_unit_zero (S := S1x512) hz2, View.ld_unit_zero (S := S128x64) hz2, View.ld_unit_zero (S := S64x1) hz2, View.ld_unit_zero (S := S1x1) hz2]
  · iexists _; isplitr
    swap; · iexact H9
    ipureintro
    sl_unfold_words
    rw [View.read_writes_eq_canon _ _ _ (cover_unit2 hz2 _ _), View.canon_unit_zero hz2]
    simp only [View.readAt_eq_ld, View.ld_unit_zero (S := S5000x1) hz2, View.ld_unit_zero (S := S5000x128) hz2, View.ld_unit_zero (S := S128x512) hz2, View.ld_unit_zero (S := S1x512) hz2, View.ld_unit_zero (S := S128x64) hz2, View.ld_unit_zero (S := S64x1) hz2, View.ld_unit_zero (S := S1x1) hz2]

set_option maxHeartbeats 1000000 in
/-- The first point (first branch only): both scratch buffers are cleared, then the tile's one-hot product is added to
    the cleared sums and the tile's counts to the cleared counts. -/
theorem sound_kernel2_first (c : Dev nD) (E : Set ℕ) (i : grid2.Coords) (arg1 : Memref sig .tc .vmem S5000x128 .f32) (harg1 : arg1.IsWhole) (arg2 : Memref sig .tc .vmem S5000x1 .i32) (harg2 : arg2.IsWhole) (arg3 : Memref sig .tc .vmem S128x64 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S1x1 .f32) (harg6 : arg6.IsWhole) (arg7 : Memref sig .tc .vmem S1x512 .f32) (harg7 : arg7.IsWhole) (arg8 : Memref sig .tc .vmem S128x512 .f32) (harg8 : arg8.IsWhole) (arg9 : Memref sig .tc .vmem S1x512 .f32) (harg9 : arg9.IsWhole)
    (hc0 : cond2_0 i) (hc1 : ¬cond2_1 i)
    (x : Vec F S5000x128 .f32) (g : Vec F S5000x1 .i32) (K : PUnit → sProp 𝕄) :
    iprop(owns (c : Thread nD τ) arg1 fullShare x ∗ owns (c : Thread nD τ) arg2 fullShare g ∗ (∃ d, owns (c : Thread nD τ) arg8 fullShare d) ∗ (∃ d, owns (c : Thread nD τ) arg9 fullShare d)
        ∗ (iprop(owns (c : Thread nD τ) arg1 fullShare x ∗ owns (c : Thread nD τ) arg2 fullShare g ∗ owns (c : Thread nD τ) arg8 fullShare (k2_pay4 g x k2_pay1) ∗ owns (c : Thread nD τ) arg9 fullShare (k2_pay5 g k2_pay2)) -∗ K ⟨⟩))
      ⊢ wp frame (wpE (defs₀ (F := F)) Variants.none c none) E (cc2__pool_mlp_kernel i arg1 harg1 arg2 harg2 arg3 harg3 arg4 harg4 arg5 harg5 arg6 harg6 arg7 harg7 arg8 harg8 arg9 harg9) K := by
  simp only [cc2__pool_mlp_kernel_eq_skeleton]; unfold cc2__pool_mlp_kernel_skel
  unfold owns
  iintro ⟨⟨%f1, %hf1, H1⟩, ⟨%f2, %hf2, H2⟩, ⟨%d8, %f8, -, H8⟩, ⟨%d9, %f9, -, H9⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  isplitl [H8]
  · iexists _; isplitr
    swap; · iexact H8
    ipureintro
    sl_unfold_words
    rw [View.read_writes_eq_canon _ _ _ (cover_unit2 hz2 _ _), View.canon_cons_unit_zero (S := S128x512) hz2]
    simp only [View.readAt_eq_ld, View.ld_unit_zero (S := S5000x1) hz2, View.ld_unit_zero (S := S5000x128) hz2, View.ld_unit_zero (S := S128x512) hz2, View.ld_unit_zero (S := S1x512) hz2, View.ld_unit_zero (S := S128x64) hz2, View.ld_unit_zero (S := S64x1) hz2, View.ld_unit_zero (S := S1x1) hz2, View.readCov_unit_zero (S := S128x512) _ hz2]
  · iexists _; isplitr
    swap; · iexact H9
    ipureintro
    sl_unfold_words
    rw [View.read_writes_eq_canon _ _ _ (cover_unit2 hz2 _ _), View.canon_cons_unit_zero (S := S1x512) hz2]
    simp only [View.readAt_eq_ld, View.ld_unit_zero (S := S5000x1) hz2, View.ld_unit_zero (S := S5000x128) hz2, View.ld_unit_zero (S := S128x512) hz2, View.ld_unit_zero (S := S1x512) hz2, View.ld_unit_zero (S := S128x64) hz2, View.ld_unit_zero (S := S64x1) hz2, View.ld_unit_zero (S := S1x1) hz2, View.readCov_unit_zero (S := S1x512) _ hz2]

set_option maxHeartbeats 1000000 in
/-- The last point (second branch only): the tile is added as at a middle point; then the sums are divided by the counts
    (at least one), the two small products with their biases and the rectifier between them are applied, and the
    result is stored into the output's staging buffer. -/
theorem sound_kernel2_last (c : Dev nD) (E : Set ℕ) (i : grid2.Coords) (arg1 : Memref sig .tc .vmem S5000x128 .f32) (harg1 : arg1.IsWhole) (arg2 : Memref sig .tc .vmem S5000x1 .i32) (harg2 : arg2.IsWhole) (arg3 : Memref sig .tc .vmem S128x64 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S1x1 .f32) (harg6 : arg6.IsWhole) (arg7 : Memref sig .tc .vmem S1x512 .f32) (harg7 : arg7.IsWhole) (arg8 : Memref sig .tc .vmem S128x512 .f32) (harg8 : arg8.IsWhole) (arg9 : Memref sig .tc .vmem S1x512 .f32) (harg9 : arg9.IsWhole)
    (hc0 : ¬cond2_0 i) (hc1 : cond2_1 i)
    (x : Vec F S5000x128 .f32) (g : Vec F S5000x1 .i32) (w1 : Vec F S128x64 .f32) (b1 : Vec F S64x1 .f32) (w2 : Vec F S64x1 .f32) (b2 : Vec F S1x1 .f32)
    (a : Vec F S128x512 .f32) (k : Vec F S1x512 .f32) (K : PUnit → sProp 𝕄) :
    iprop(owns (c : Thread nD τ) arg1 fullShare x ∗ owns (c : Thread nD τ) arg2 fullShare g ∗ owns (c : Thread nD τ) arg3 fullShare w1 ∗ owns (c : Thread nD τ) arg4 fullShare b1
        ∗ owns (c : Thread nD τ) arg5 fullShare w2 ∗ owns (c : Thread nD τ) arg6 fullShare b2 ∗ (∃ d, owns (c : Thread nD τ) arg7 fullShare d)
        ∗ owns (c : Thread nD τ) arg8 fullShare a ∗ owns (c : Thread nD τ) arg9 fullShare k
        ∗ (iprop(owns (c : Thread nD τ) arg1 fullShare x ∗ owns (c : Thread nD τ) arg2 fullShare g ∗ owns (c : Thread nD τ) arg3 fullShare w1 ∗ owns (c : Thread nD τ) arg4 fullShare b1
            ∗ owns (c : Thread nD τ) arg5 fullShare w2 ∗ owns (c : Thread nD τ) arg6 fullShare b2
            ∗ owns (c : Thread nD τ) arg7 fullShare (k2_pay6 (k2_pay5 g k) (k2_pay4 g x a) w1 b1 w2 b2)
            ∗ owns (c : Thread nD τ) arg8 fullShare (k2_pay4 g x a) ∗ owns (c : Thread nD τ) arg9 fullShare (k2_pay5 g k)) -∗ K ⟨⟩))
      ⊢ wp frame (wpE (defs₀ (F := F)) Variants.none c none) E (cc2__pool_mlp_kernel i arg1 harg1 arg2 harg2 arg3 harg3 arg4 harg4 arg5 harg5 arg6 harg6 arg7 harg7 arg8 harg8 arg9 harg9) K := by
  simp only [cc2__pool_mlp_kernel_eq_skeleton]; unfold cc2__pool_mlp_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, Hk⟩
  subst hf1; subst hf2; subst hf3; subst hf4; subst hf5; subst hf6; subst hf8; subst hf9
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    sl_unfold_words
    rw [View.read_writes_eq_canon _ _ _ (cover_unit2 hz2 _ _), View.canon_unit_zero hz2]
    simp only [View.readAt_eq_ld, View.ld_unit_zero (S := S5000x1) hz2, View.ld_unit_zero (S := S5000x128) hz2, View.ld_unit_zero (S := S128x512) hz2, View.ld_unit_zero (S := S1x512) hz2, View.ld_unit_zero (S := S128x64) hz2, View.ld_unit_zero (S := S64x1) hz2, View.ld_unit_zero (S := S1x1) hz2, View.readCov_unit_zero (S := S128x512) _ hz2, View.readCov_unit_zero (S := S1x512) _ hz2]
  isplitl [H8]
  · iexists _; isplitr
    swap; · iexact H8
    ipureintro
    sl_unfold_words
    rw [View.read_writes_eq_canon _ _ _ (cover_unit2 hz2 _ _), View.canon_unit_zero hz2]
    simp only [View.readAt_eq_ld, View.ld_unit_zero (S := S5000x1) hz2, View.ld_unit_zero (S := S5000x128) hz2, View.ld_unit_zero (S := S128x512) hz2, View.ld_unit_zero (S := S1x512) hz2, View.ld_unit_zero (S := S128x64) hz2, View.ld_unit_zero (S := S64x1) hz2, View.ld_unit_zero (S := S1x1) hz2]
  · iexists _; isplitr
    swap; · iexact H9
    ipureintro
    sl_unfold_words
    rw [View.read_writes_eq_canon _ _ _ (cover_unit2 hz2 _ _), View.canon_unit_zero hz2]
    simp only [View.readAt_eq_ld, View.ld_unit_zero (S := S5000x1) hz2, View.ld_unit_zero (S := S5000x128) hz2, View.ld_unit_zero (S := S128x512) hz2, View.ld_unit_zero (S := S1x512) hz2, View.ld_unit_zero (S := S128x64) hz2, View.ld_unit_zero (S := S64x1) hz2, View.ld_unit_zero (S := S1x1) hz2]

/-! ## What the inputs' staging buffers hold -/

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]

/-- Each input's current staging buffer holds its block at every point, fetched there or not (an unfetched window's
    block index has not moved). -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A_eq2]; try rfl) t d).trans
    (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (fun _ => rfl) (fun _ _ _ => rfl) (fun t => by rw [after2_5]; unfold Dat.blockOf iblk2; rw [A_eq2]; try rfl) t d).trans
    (by unfold Dat.fetched Dat.blockOf iblk2; rw [A_eq2]; try rfl)

/-- The inputs are never idle: the body leaves each at its block. -/
theorem leaves2_0 (c : Dev nD) (t : Fin cfg2.N) :
    (dat2 V c).leavesExact 0 t = owns (c : Thread nD τ) (st2_0 t) fullShare (iblk2 V c 0 t) := by
  unfold Dat.leavesExact; rw [show cfg2.idle 0 (cfg2.grid.coords t) = false from rfl, after2_0]
theorem leaves2_1 (c : Dev nD) (t : Fin cfg2.N) :
    (dat2 V c).leavesExact 1 t = owns (c : Thread nD τ) (st2_1 t) fullShare (iblk2 V c 1 t) := by
  unfold Dat.leavesExact; rw [show cfg2.idle 1 (cfg2.grid.coords t) = false from rfl, after2_1]
theorem leaves2_2 (c : Dev nD) (t : Fin cfg2.N) :
    (dat2 V c).leavesExact 2 t = owns (c : Thread nD τ) (st2_2 t) fullShare (iblk2 V c 2 t) := by
  unfold Dat.leavesExact; rw [show cfg2.idle 2 (cfg2.grid.coords t) = false from rfl, after2_2]
theorem leaves2_3 (c : Dev nD) (t : Fin cfg2.N) :
    (dat2 V c).leavesExact 3 t = owns (c : Thread nD τ) (st2_3 t) fullShare (iblk2 V c 3 t) := by
  unfold Dat.leavesExact; rw [show cfg2.idle 3 (cfg2.grid.coords t) = false from rfl, after2_3]
theorem leaves2_4 (c : Dev nD) (t : Fin cfg2.N) :
    (dat2 V c).leavesExact 4 t = owns (c : Thread nD τ) (st2_4 t) fullShare (iblk2 V c 4 t) := by
  unfold Dat.leavesExact; rw [show cfg2.idle 4 (cfg2.grid.coords t) = false from rfl, after2_4]
theorem leaves2_5 (c : Dev nD) (t : Fin cfg2.N) :
    (dat2 V c).leavesExact 5 t = owns (c : Thread nD τ) (st2_5 t) fullShare (iblk2 V c 5 t) := by
  unfold Dat.leavesExact; rw [show cfg2.idle 5 (cfg2.grid.coords t) = false from rfl, after2_5]

/-! ## The scratch contents at a point -/

theorem accUpTo_of_zero (c : Dev nD) (n : ℕ) (h : n ≤ cfg2.N) (hz : n = 0) : accUpTo V c n h = k2_pay1 := by subst hz; rfl
theorem cntUpTo_of_zero (c : Dev nD) (n : ℕ) (h : n ≤ cfg2.N) (hz : n = 0) : cntUpTo V c n h = k2_pay2 := by subst hz; rfl

/-- After point `t` the sums are point `t`'s tile added to what they were before it; likewise the counts. -/
theorem accUpTo_at (c : Dev nD) (t : Fin cfg2.N) :
    accUpTo V c (t.val + 1) t.isLt = k2_pay4 (iblk2 V c 1 t) (iblk2 V c 0 t) (accUpTo V c t.val (Nat.le_of_lt t.isLt)) := rfl
theorem cntUpTo_at (c : Dev nD) (t : Fin cfg2.N) :
    cntUpTo V c (t.val + 1) t.isLt = k2_pay5 (iblk2 V c 1 t) (cntUpTo V c t.val (Nat.le_of_lt t.isLt)) := rfl

/-- Before a point that is not the first the two scratch buffers hold the running sums and counts. -/
theorem PhiS2_pos (c : Dev nD) (n : ℕ) (h : n ≤ cfg2.N) (hz : n ≠ 0) :
    PhiS2 V c n h = iprop(rest2 (F := F) c ∗ owns (c : Thread nD τ) scA fullShare (accUpTo V c n h)
      ∗ owns (c : Thread nD τ) scC fullShare (cntUpTo V c n h) ∗ (∃ r, prngReg c r)) := by
  cases n with
  | zero => exact absurd rfl hz
  | succ n => rfl

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 4000000 in
/-- The body at any point, by the three control cases. The inputs' buffers hold their blocks; the invariant hands the
    body the two scratch buffers (at anything before the first point, at the running sums and counts afterwards) and
    takes them back with this point's tile added; the output's buffer is handed back as found except at the last
    point, where it receives the closing arithmetic; the untouched rest, the generator register and what the core
    owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl,
    show (dat2 V c).Φ t.succ = PhiS2 V c (t.val + 1) t.isLt from rfl, PhiS2_succ,
    show (dat2 V c).Φ t.castSucc = PhiS2 V c t.val (Nat.le_of_lt t.isLt) from rfl,
    leaves2_0, leaves2_1, leaves2_2, leaves2_3, leaves2_4, leaves2_5, accUpTo_at, cntUpTo_at]
  have hN : t.val < 20 := lt_of_lt_of_eq t.isLt N_2
  by_cases h0 : t.val = 0
  · have hc0 : cond2_0 (grid2.coords t) := (hcond2_0 t).mpr h0
    have hc1 : ¬cond2_1 (grid2.coords t) := fun h => by have := (hcond2_1 t).mp h; omega
    rw [Dat.leavesExact_idle (dat2 V c) 6 t (idleAt2_6 t hc1) (noFlush2_6 t hc1),
      PhiS2_zero V c _ _ h0, PhiA2_eq, accUpTo_of_zero V c _ _ h0, cntUpTo_of_zero V c _ _ h0]
    iintro ⟨⟨⟨⟨⟨%dA, HA⟩, ⟨%dC, HC⟩⟩, Hr⟩, Hg⟩, Ho, ⟨%d0, H0⟩, ⟨%d1, H1⟩, ⟨%d2, H2⟩, ⟨%d3, H3⟩, ⟨%d4, H4⟩, ⟨%d5, H5⟩, H6⟩
    iapply (sound_kernel2_first c Set.univ _ _ _ _ _ _ _ _ _ _ _ _ _ _ _ _ _ _ _ hc0 hc1 (iblk2 V c 0 t) (iblk2 V c 1 t) _)
    isplitl [H0]; · iexact H0
    isplitl [H1]; · iexact H1
    isplitl [HA]; · iexists _; iexact HA
    isplitl [HC]; · iexists _; iexact HC
    iintro ⟨H0, H1, HA, HC⟩
    isplitl [Hr HA HC Hg]
    · isplitl [Hr]; · iexact Hr
      isplitl [HA]; · iexact HA
      isplitl [HC]; · iexact HC
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [PhiS2_pos V c _ _ h0]
    by_cases h1 : t.val = 19
    · have hc0 : ¬cond2_0 (grid2.coords t) := fun h => h0 ((hcond2_0 t).mp h)
      have hc1 : cond2_1 (grid2.coords t) := (hcond2_1 t).mpr h1
      rw [show (dat2 V c).leavesExact 6 t = owns (c : Thread nD τ) (st2_6 t) fullShare (out2_6 V c t) from by
        unfold Dat.leavesExact; rw [liveAt2_6 t hc1, after2_6]]
      unfold out2_6; rw [accUpTo_at, cntUpTo_at]
      iintro ⟨⟨Hr, HA, HC, Hg⟩, Ho, ⟨%d0, H0⟩, ⟨%d1, H1⟩, ⟨%d2, H2⟩, ⟨%d3, H3⟩, ⟨%d4, H4⟩, ⟨%d5, H5⟩, ⟨%d6, H6⟩⟩
      iapply (sound_kernel2_last c Set.univ _ _ _ _ _ _ _ _ _ _ _ _ _ _ _ _ _ _ _ hc0 hc1 (iblk2 V c 0 t) (iblk2 V c 1 t) (iblk2 V c 2 t) (iblk2 V c 3 t) (iblk2 V c 4 t) (iblk2 V c 5 t)
        (accUpTo V c t.val (Nat.le_of_lt t.isLt)) (cntUpTo V c t.val (Nat.le_of_lt t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HA]; · iexact HA
      isplitl [HC]; · iexact HC
      iintro ⟨H0, H1, H2, H3, H4, H5, H6, HA, HC⟩
      isplitl [Hr HA HC Hg]
      · isplitl [Hr]; · iexact Hr
        isplitl [HA]; · iexact HA
        isplitl [HC]; · iexact HC
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc0 : ¬cond2_0 (grid2.coords t) := fun h => h0 ((hcond2_0 t).mp h)
      have hc1 : ¬cond2_1 (grid2.coords t) := fun h => h1 ((hcond2_1 t).mp h)
      rw [Dat.leavesExact_idle (dat2 V c) 6 t (idleAt2_6 t hc1) (noFlush2_6 t hc1)]
      iintro ⟨⟨Hr, HA, HC, Hg⟩, Ho, ⟨%d0, H0⟩, ⟨%d1, H1⟩, ⟨%d2, H2⟩, ⟨%d3, H3⟩, ⟨%d4, H4⟩, ⟨%d5, H5⟩, H6⟩
      iapply (sound_kernel2_mid c Set.univ _ _ _ _ _ _ _ _ _ _ _ _ _ _ _ _ _ _ _ hc0 hc1 (iblk2 V c 0 t) (iblk2 V c 1 t)
        (accUpTo V c t.val (Nat.le_of_lt t.isLt)) (cntUpTo V c t.val (Nat.le_of_lt t.isLt)) _)
      isplitl [H0]; · iexact H0
      isplitl [H1]; · iexact H1
      isplitl [HA]; · iexact HA
      isplitl [HC]; · iexact HC
      iintro ⟨H0, H1, HA, HC⟩
      isplitl [Hr HA HC Hg]
      · isplitl [Hr]; · iexact Hr
        isplitl [HA]; · iexact HA
        isplitl [HC]; · iexact HC
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

theorem body_obligation2 (c : Dev nD) : BodyObligation (dat2 (F := F) V c) (defs₀ (F := F)) Variants.none () Set.univ := fun t => by
  rw [bigSep_W2, bigSep_W2]
  exact sound_body2 V c t

end Cert.Kernel.Reg

end
-- ==== Proof.K.Run.lean ====
/-
  The run of the program's three kernel regions, frame side. What each region leaves in its output array is named
  (`outs`): the first product's array after region 0, the second product's after region 1, the pooled and classified
  row after region 2, each read off that region's proof data at the last grid point, the data of a later region being
  taken at the buffers' contents the earlier ones leave. Every pipeline's proof data at its region's entry contents
  (`pdats`), the three regions as segments between the host stretches (`reg0`, `reg1`, `reg2`: a region's arrays are
  split out of the core's unscoped buffers on entry and put back on exit, the output's array at what the region
  leaves, every other buffer as it was), and the frame: every argument array ends as launched.
-/
import proofs.«424487_j41961830482015_1_alg».proof.Proof.K.Reg0
import proofs.«424487_j41961830482015_1_alg».proof.Proof.K.Reg1
import proofs.«424487_j41961830482015_1_alg».proof.Proof.K.Reg2
import proofs.«424487_j41961830482015_1_alg».proof.Proof.Gen.Kernel.Regions
import Idealize.ShloMosaic.Lib.Pipeline.RegionsLoop

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the regions leave in their output arrays -/

/-- After region 0: the first product's array at what the region's write-backs leave, whatever the item number. -/
def o4 : Gen.Outs (F := F) := fun _ r c =>
  if h : r = main_v32 then
    h ▸ ((dat0 (fun c b => Gen.V3 m c b) c).arrAt 2 cfg0.N : Buf (Elt F) ((c : Thread nD τ).loc main_v32))
  else Gen.V3 m c r

/-- After region 1: as before at item 4; else the second product's array at what region 1 leaves, its data taken at
    the contents region 0 and the host stretches after it leave. -/
def o7 : Gen.Outs (F := F) := fun J r c =>
  if J = 4 then o4 m J r c
  else if h : r = main_v49 then
    h ▸ ((dat1 (fun c b => Gen.V6 m (o4 m) c b) c).arrAt 2 cfg1.N : Buf (Elt F) ((c : Thread nD τ).loc main_v49))
  else Gen.V3 m c r

/-- After region 2: at item 9 the result row's array at what region 2 leaves, its data taken at the contents the two
    earlier regions and the host stretches leave; else as before. -/
def outs : Gen.Outs (F := F) := fun J r c =>
  if J = 9 then
    (if h : r = main_v68 then
      h ▸ ((dat2 (fun c b => Gen.V8 m (o7 m) c b) c).arrAt 6 cfg2.N : Buf (Elt F) ((c : Thread nD τ).loc main_v68))
    else Gen.V3 m c r)
  else o7 m J r c

theorem o7_4 (r : Ref sig .tc) (c : Dev nD) : o7 m 4 r c = o4 m 4 r c := if_pos rfl
theorem outs_o7_4 (r : Ref sig .tc) (c : Dev nD) : outs m 4 r c = o7 m 4 r c := if_neg (by decide)
theorem outs_o7_7 (r : Ref sig .tc) (c : Dev nD) : outs m 7 r c = o7 m 7 r c := if_neg (by decide)

/-- The contents before region 1 read region 0's output only. -/
theorem V6_congr {o o' : Gen.Outs (F := F)} (h4 : ∀ c, o 4 main_v32 c = o' 4 main_v32 c) (c : Dev nD) :
    Gen.V6 m o c = Gen.V6 m o' c := by
  show StableHlo.after hostOps1_1 (StableHlo.after hostOps1 (Function.update (Gen.V3 m c) main_v32 (o 4 main_v32 c))) = _
  rw [h4]

/-- The contents before region 2 read the two earlier regions' outputs only. -/
theorem V8_congr {o o' : Gen.Outs (F := F)} (h4 : ∀ c, o 4 main_v32 c = o' 4 main_v32 c) (h7 : ∀ c, o 7 main_v49 c = o' 7 main_v49 c)
    (c : Dev nD) : Gen.V8 m o c = Gen.V8 m o' c := by
  show StableHlo.after hostOps2 (Function.update (Gen.V6 m o c) main_v49 (o 7 main_v49 c)) = _
  rw [V6_congr m h4 c, h7]

theorem V6_outs (c : Dev nD) : Gen.V6 m (outs m) c = Gen.V6 m (o4 m) c :=
  V6_congr m (fun c => (outs_o7_4 m _ c).trans (o7_4 m _ c)) c
theorem V8_outs (c : Dev nD) : Gen.V8 m (outs m) c = Gen.V8 m (o7 m) c :=
  V8_congr m (fun c => outs_o7_4 m _ c) (fun c => outs_o7_7 m _ c) c

/-- Region 0 leaves in the first product's array what its proof data says, at the contents the host stretches before
    it leave. -/
theorem outs_4 (c : Dev nD) : outs m 4 main_v32 c = (dat0 (fun c b => Gen.V3 m c b) c).arrAt 2 cfg0.N :=
  (outs_o7_4 m _ c).trans ((o7_4 m _ c).trans (dif_pos rfl))

/-- Region 1 leaves in the second product's array what its proof data says, at the contents before it. -/
theorem outs_7 (c : Dev nD) : outs m 7 main_v49 c = (dat1 (fun c b => Gen.V6 m (outs m) c b) c).arrAt 2 cfg1.N := by
  rw [show (fun (c : Dev nD) (b : Ref sig .tc) => Gen.V6 m (outs m) c b) = fun (c : Dev nD) (b : Ref sig .tc) => Gen.V6 m (o4 m) c b from
    funext fun c => by rw [V6_outs m c]]
  exact (outs_o7_7 m _ c).trans ((if_neg (by decide)).trans (dif_pos rfl))

/-- Region 2 leaves in the result row's array what its proof data says, at the contents before it. -/
theorem outs_9 (c : Dev nD) : outs m 9 main_v68 c = (dat2 (fun c b => Gen.V8 m (outs m) c b) c).arrAt 6 cfg2.N := by
  rw [show (fun (c : Dev nD) (b : Ref sig .tc) => Gen.V8 m (outs m) c b) = fun (c : Dev nD) (b : Ref sig .tc) => Gen.V8 m (o7 m) c b from
    funext fun c => by rw [V8_outs m c]]
  exact (if_pos rfl).trans (dif_pos rfl)

/-! ## The proof data family and what rides beside the buffers -/

/-- Every pipeline's proof data, each at its region's entry contents: a literal match, so that the family at a numeral
    reduces to that region's data. -/
def pdats : (p : Fin 3) → (c : Dev nD) → Dat τ (Elt F) Unit ℕ (UR sig nD τ) ℕ (cfgs p) c
  | ⟨0, _⟩ => fun c => dat0 (fun c b => Gen.V3 m c b) c
  | ⟨1, _⟩ => fun c => dat1 (fun c b => Gen.V6 m (outs m) c b) c
  | ⟨2, _⟩ => fun c => dat2 (fun c b => Gen.V8 m (outs m) c b) c

/-- No core owes another anything: no level is assigned. -/
abbrev L0 : GSem nD τ sig → Finset Unit := fun _ => ∅
abbrev lv0 : GSem nD τ sig → Unit → ℕ := fun _ _ => 0

/-- What rides beside the buffers through every segment: the core's generator register at some state and the core
    owing nothing. -/
abbrev R (c : Dev nD) : sProp 𝕄 := iprop((∃ r, prngReg c r) ∗ ∃ W, owes (c : Thread nD τ) (0 : CellTallies nD τ sig Unit) W)

/-! ## Region 0 over the thread state -/

/-- At region 0's exit the output's array holds what `outs` names for it, -/
theorem hF0_2 (c : Dev nD) :
    (dat0 (fun c b => Gen.V3 m c b) c).arrAt 2 cfg0.N = (fun b : Ref sig .tc => Gen.V4 m (outs m) c b) main_v32 := by
  show _ = Function.update (Gen.V3 m c) (Proc.devRef .tc main_v32) (outs m 4 main_v32 c) (Proc.devRef .tc main_v32)
  rw [Function.update_self, outs_4]

/-- and each input's array what it held at entry: the pipeline writes no input back, and the exit contents differ
    from the entry contents at the output's array only. -/
theorem hF0_0 (c : Dev nD) :
    (dat0 (fun c b => Gen.V3 m c b) c).arrAt 0 cfg0.N = (fun b : Ref sig .tc => Gen.V4 m (outs m) c b) main_arg0 := by
  show _ = Gen.V4 m (outs m) c main_arg0
  rw [Gen.V4_of m (outs m) c main_arg0 (by decide)]
  exact ((dat0 (fun c b => Gen.V3 m c b) c).arrAt_in 0 rfl _).trans (A_eq0 (fun c b => Gen.V3 m c b) c 0)

theorem hF0_1 (c : Dev nD) :
    (dat0 (fun c b => Gen.V3 m c b) c).arrAt 1 cfg0.N = (fun b : Ref sig .tc => Gen.V4 m (outs m) c b) main_arg3 := by
  show _ = Gen.V4 m (outs m) c main_arg3
  rw [Gen.V4_of m (outs m) c main_arg3 (by decide)]
  exact ((dat0 (fun c b => Gen.V3 m c b) c).arrAt_in 1 rfl _).trans (A_eq0 (fun c b => Gen.V3 m c b) c 1)

theorem hF0 (c : Dev nD) : ∀ w : Fin cfg0.W,
    (pdats m 0 c).arrAt w cfg0.N = (fun b : Ref sig .tc => Gen.V4 m (outs m) c b) (Pipeline.arrRef spec0 w)
  | ⟨0, _⟩ => hF0_0 m c
  | ⟨1, _⟩ => hF0_1 m c
  | ⟨2, _⟩ => hF0_2 m c

/-- Every unscoped buffer that is no array of region 0 is as at entry. -/
theorem hrest0 (c : Dev nD) : ∀ b : Ref sig .tc, b ∉ Finset.univ.image (Pipeline.arrRef spec0) →
    (fun b : Ref sig .tc => Gen.V4 m (outs m) c b) b = (fun b : Ref sig .tc => Gen.V3 m c b) b :=
  fun b hb => Gen.V4_of m (outs m) c b fun h =>
    hb (Finset.mem_image.mpr ⟨2, Finset.mem_univ _, (List.mem_singleton.mp h).symm⟩)

-- a library lemma stated over the pinned configuration unifies with the printed one only when unification may unfold
-- plain definitions in a metavariable's type
set_option backward.isDefEq.respectTransparency.types false in
/-- Region 0 as a segment: entered from every unscoped buffer at the contents the first host stretches leave, left at
    those contents with the first product's array replaced. Its arrays are split out of the unscoped buffers and put
    back at the exit contents; the generator register goes into the pipeline's invariant and comes out; nothing is
    owed; the kernel has no semaphore of its own. -/
def reg0 : Pipeline.RegionSeg (pcfgs (F := F)) Gen.adm (pdats m) () defs₀ Variants.none (fun _ => ∅) (fun _ _ => 0) 0 where
  win := launch0.win.to₀
  block_pos := launch0.block_pos
  stage_whole := launch0.stage_whole
  K := PEmpty
  osem k := k.elim
  ho := Pipeline.OwnSemFacts.none _
  hbody c := (body_obligation0 (fun c b => Gen.V3 m c b) c).loose
  hwaits := Pipeline.hwaits_of_owed_zero _ _ _ _ L0 lv0 0 fun _ _ => rfl
  pre c := iprop(StableHlo.held (c : Thread nD τ) (Pipeline.ucRefs τ sig) (Gen.V3 m c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := UR sig nD τ) (Lvl := ℕ) spec0 c (fun b : Ref sig .tc => Gen.V3 m c b)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (fun b : Ref sig .tc => Gen.V3 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (fun b : Ref sig .tc => Gen.V3 m c b) (fun b : Ref sig .tc => Gen.V4 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 over the thread state -/

/-- At region 1's exit the output's array holds what `outs` names for it, -/
theorem hF1_2 (c : Dev nD) :
    (dat1 (fun c b => Gen.V6 m (outs m) c b) c).arrAt 2 cfg1.N = (fun b : Ref sig .tc => Gen.V7 m (outs m) c b) main_v49 := by
  show _ = Function.update (Gen.V6 m (outs m) c) (Proc.devRef .tc main_v49) (outs m 7 main_v49 c) (Proc.devRef .tc main_v49)
  rw [Function.update_self, outs_7]

/-- and each input's array what it held at entry. -/
theorem hF1_0 (c : Dev nD) :
    (dat1 (fun c b => Gen.V6 m (outs m) c b) c).arrAt 0 cfg1.N = (fun b : Ref sig .tc => Gen.V7 m (outs m) c b) main_v48 := by
  show _ = Gen.V7 m (outs m) c main_v48
  rw [Gen.V7_of m (outs m) c main_v48 (by decide)]
  exact ((dat1 (fun c b => Gen.V6 m (outs m) c b) c).arrAt_in 0 rfl _).trans (A_eq1 (fun c b => Gen.V6 m (outs m) c b) c 0)

theorem hF1_1 (c : Dev nD) :
    (dat1 (fun c b => Gen.V6 m (outs m) c b) c).arrAt 1 cfg1.N = (fun b : Ref sig .tc => Gen.V7 m (outs m) c b) main_arg5 := by
  show _ = Gen.V7 m (outs m) c main_arg5
  rw [Gen.V7_of m (outs m) c main_arg5 (by decide)]
  exact ((dat1 (fun c b => Gen.V6 m (outs m) c b) c).arrAt_in 1 rfl _).trans (A_eq1 (fun c b => Gen.V6 m (outs m) c b) c 1)

theorem hF1 (c : Dev nD) : ∀ w : Fin cfg1.W,
    (pdats m 1 c).arrAt w cfg1.N = (fun b : Ref sig .tc => Gen.V7 m (outs m) c b) (Pipeline.arrRef spec1 w)
  | ⟨0, _⟩ => hF1_0 m c
  | ⟨1, _⟩ => hF1_1 m c
  | ⟨2, _⟩ => hF1_2 m c

/-- Every unscoped buffer that is no array of region 1 is as at entry. -/
theorem hrest1 (c : Dev nD) : ∀ b : Ref sig .tc, b ∉ Finset.univ.image (Pipeline.arrRef spec1) →
    (fun b : Ref sig .tc => Gen.V7 m (outs m) c b) b = (fun b : Ref sig .tc => Gen.V6 m (outs m) c b) b :=
  fun b hb => Gen.V7_of m (outs m) c b fun h =>
    hb (Finset.mem_image.mpr ⟨2, Finset.mem_univ _, (List.mem_singleton.mp h).symm⟩)

-- as for region 0
set_option backward.isDefEq.respectTransparency.types false in
/-- Region 1 as a segment: entered from every unscoped buffer at the contents the host stretches after region 0
    leave, left at those contents with the second product's array replaced; the rest as for region 0. -/
def reg1 : Pipeline.RegionSeg (pcfgs (F := F)) Gen.adm (pdats m) () defs₀ Variants.none (fun _ => ∅) (fun _ _ => 0) 1 where
  win := launch1.win.to₀
  block_pos := launch1.block_pos
  stage_whole := launch1.stage_whole
  K := PEmpty
  osem k := k.elim
  ho := Pipeline.OwnSemFacts.none _
  hbody c := (body_obligation1 (fun c b => Gen.V6 m (outs m) c b) c).loose
  hwaits := Pipeline.hwaits_of_owed_zero _ _ _ _ L0 lv0 1 fun _ _ => rfl
  pre c := iprop(StableHlo.held (c : Thread nD τ) (Pipeline.ucRefs τ sig) (Gen.V6 m (outs m) c) ∗ R c)
  post c := iprop(StableHlo.held (c : Thread nD τ) (Pipeline.ucRefs τ sig) (Gen.V7 m (outs m) c) ∗ R c)
  X c := iprop(∃ r, prngReg c r)
  Y c := iprop(∃ r, prngReg c r)
  Z c := Pipeline.unscopedRest (Ix := Unit) (Name := ℕ) (U := UR sig nD τ) (Lvl := ℕ) spec1 c (fun b : Ref sig .tc => Gen.V6 m (outs m) c b)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (fun b : Ref sig .tc => Gen.V6 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (fun b : Ref sig .tc => Gen.V6 m (outs m) c b) (fun b : Ref sig .tc => Gen.V7 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 over the thread state -/

/-- At region 2's exit the output's array holds what `outs` names for it, -/
theorem hF2_6 (c : Dev nD) :
    (dat2 (fun c b => Gen.V8 m (outs m) c b) c).arrAt 6 cfg2.N = (fun b : Ref sig .tc => Gen.V9 m (outs m) c b) main_v68 := by
  show _ = Function.update (Gen.V8 m (outs m) c) (Proc.devRef .tc main_v68) (outs m 9 main_v68 c) (Proc.devRef .tc main_v68)
  rw [Function.update_self, outs_9]

/-- and each of the six inputs' arrays what it held at entry. -/
theorem hF2_0 (c : Dev nD) :
    (dat2 (fun c b => Gen.V8 m (outs m) c b) c).arrAt 0 cfg2.N = (fun b : Ref sig .tc => Gen.V9 m (outs m) c b) main_v64 := by
  show _ = Gen.V9 m (outs m) c main_v64
  rw [Gen.V9_of m (outs m) c main_v64 (by decide)]
  exact ((dat2 (fun c b => Gen.V8 m (outs m) c b) c).arrAt_in 0 rfl _).trans (A_eq2 (fun c b => Gen.V8 m (outs m) c b) c 0)

theorem hF2_1 (c : Dev nD) :
    (dat2 (fun c b => Gen.V8 m (outs m) c b) c).arrAt 1 cfg2.N = (fun b : Ref sig .tc => Gen.V9 m (outs m) c b) main_v65 := by
  show _ = Gen.V9 m (outs m) c main_v65
  rw [Gen.V9_of m (outs m) c main_v65 (by decide)]
  exact ((dat2 (fun c b => Gen.V8 m (outs m) c b) c).arrAt_in 1 rfl _).trans (A_eq2 (fun c b => Gen.V8 m (outs m) c b) c 1)

theorem hF2_2 (c : Dev nD) :
    (dat2 (fun c b => Gen.V8 m (outs m) c b) c).arrAt 2 cfg2.N = (fun b : Ref sig .tc => Gen.V9 m (outs m) c b) main_arg7 := by
  show _ = Gen.V9 m (outs m) c main_arg7
  rw [Gen.V9_of m (outs m) c main_arg7 (by decide)]
  exact ((dat2 (fun c b => Gen.V8 m (outs m) c b) c).arrAt_in 2 rfl _).trans (A_eq2 (fun c b => Gen.V8 m (outs m) c b) c 2)

theorem hF2_3 (c : Dev nD) :
    (dat2 (fun c b => Gen.V8 m (outs m) c b) c).arrAt 3 cfg2.N = (fun b : Ref sig .tc => Gen.V9 m (outs m) c b) main_v66 := by
  show _ = Gen.V9 m (outs m) c main_v66
  rw [Gen.V9_of m (outs m) c main_v66 (by decide)]
  exact ((dat2 (fun c b => Gen.V8 m (outs m) c b) c).arrAt_in 3 rfl _).trans (A_eq2 (fun c b => Gen.V8 m (outs m) c b) c 3)

theorem hF2_4 (c : Dev nD) :
    (dat2 (fun c b => Gen.V8 m (outs m) c b) c).arrAt 4 cfg2.N = (fun b : Ref sig .tc => Gen.V9 m (outs m) c b) main_arg9 := by
  show _ = Gen.V9 m (outs m) c main_arg9
  rw [Gen.V9_of m (outs m) c main_arg9 (by decide)]
  exact ((dat2 (fun c b => Gen.V8 m (outs m) c b) c).arrAt_in 4 rfl _).trans (A_eq2 (fun c b => Gen.V8 m (outs m) c b) c 4)

theorem hF2_5 (c : Dev nD) :
    (dat2 (fun c b => Gen.V8 m (outs m) c b) c).arrAt 5 cfg2.N = (fun b : Ref sig .tc => Gen.V9 m (outs m) c b) main_v67 := by
  show _ = Gen.V9 m (outs m) c main_v67
  rw [Gen.V9_of m (outs m) c main_v67 (by decide)]
  exact ((dat2 (fun c b => Gen.V8 m (outs m) c b) c).arrAt_in 5 rfl _).trans (A_eq2 (fun c b => Gen.V8 m (outs m) c b) c 5)

theorem hF2 (c : Dev nD) : ∀ w : Fin cfg2.W,
    (pdats m 2 c).arrAt w cfg2.N = (fun b : Ref sig .tc => Gen.V9 m (outs m) c b) (Pipeline.arrRef spec2 w)
  | ⟨0, _⟩ => hF2_0 m c
  | ⟨1, _⟩ => hF2_1 m c
  | ⟨2, _⟩ => hF2_2 m c
  | ⟨3, _⟩ => hF2_3 m c
  | ⟨4, _⟩ => hF2_4 m c
  | ⟨5, _⟩ => hF2_5 m c
  | ⟨6, _⟩ => hF2_6 m c

/-- Every unscoped buffer that is no array of region 2 is as at entry. -/
theorem hrest2 (c : Dev nD) : ∀ b : Ref sig .tc, b ∉ Finset.univ.image (Pipeline.arrRef spec2) →
    (fun b : Ref sig .tc => Gen.V9 m (outs m) c b) b = (fun b : Ref sig .tc => Gen.V8 m (outs m) c b) b :=
  fun b hb => Gen.V9_of m (outs m) c b fun h =>
    hb (Finset.mem_image.mpr ⟨6, Finset.mem_univ _, (List.mem_singleton.mp h).symm⟩)

-- as for region 0
set_option backward.isDefEq.respectTransparency.types false in
/-- Region 2 as a segment: entered from every unscoped buffer at the contents the host stretches after region 1
    leave, left at those contents with the result row's array replaced. Its invariant between points carries the two
    scratch buffers besides the class invariant: it is the class invariant before the first point and gives it back
    after the last. -/
def reg2 : Pipeline.RegionSeg (pcfgs (F := F)) Gen.adm (pdats m) () defs₀ Variants.none (fun _ => ∅) (fun _ _ => 0) 2 where
  win := launch2.win.to₀
  block_pos := launch2.block_pos
  stage_whole := launch2.stage_whole
  K := PEmpty
  osem k := k.elim
  ho := Pipeline.OwnSemFacts.none _
  hbody c := (body_obligation2 (fun c b => Gen.V8 m (outs m) c b) c).loose
  hwaits := Pipeline.hwaits_of_owed_zero _ _ _ _ L0 lv0 2 fun _ _ => rfl
  pre c := iprop(StableHlo.held (c : Thread nD τ) (Pipeline.ucRefs τ sig) (Gen.V8 m (outs m) c) ∗ R c)
  post c := iprop(StableHlo.held (c : Thread nD τ) (Pipeline.ucRefs τ sig) (Gen.V9 m (outs m) c) ∗ R c)
  X c := iprop(∃ r, prngReg c r)
  Y c := iprop(∃ r, prngReg c r)
  Z c := Pipeline.unscopedRest (Ix := Unit) (Name := ℕ) (U := UR sig nD τ) (Lvl := ℕ) spec2 c (fun b : Ref sig .tc => Gen.V8 m (outs m) c b)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (fun b : Ref sig .tc => Gen.V8 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from Φ2_first (fun c b => Gen.V8 m (outs m) c b) c]; unfold Pipeline.ΦA
    iintro ⟨Hp, -, Hr⟩
    isplitl [Hr]; · iexact Hr
    iexact Hp
  hout c := by
    rw [Pipeline.ownSems0_none]
    refine (show (pdats m 2 c).Φ (Fin.last _) ⊢ (Pipeline.ΦA spec2 c : sProp 𝕄) from Φ2_last (fun c b => Gen.V8 m (outs m) c b) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (fun b : Ref sig .tc => Gen.V8 m (outs m) c b) (fun b : Ref sig .tc => Gen.V9 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

-- the conditional frame's implicit arguments are found by unifying its hypotheses with the records' fields, which takes
-- unfolding plain definitions in a metavariable's type
set_option backward.isDefEq.respectTransparency.types false in
/-- THE FRAME, at any `F`: from any memory with zero counters, every weakly fair execution of the program on the
    TensorCores terminates and every final memory holds each argument array as launched. The conditional frame over the
    three records: the launch deals every core its generator register and nothing owed; the records' thread states are
    spelt as the conditional frame's, so they chain as they stand. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Gen.frame_cond m (EP := emb₁) (ι := ()) (𝒱₀ := Variants.none) (L := L0) (lv := lv0) (hL := fun _ _ => rfl) (ρ := ρ) (outs := outs m)
    (pdats := pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L0 lv0 fun c => ?_
      iintro ⟨⟨-, HO, -, Hp, -⟩, -⟩
      imodintro
      isplitl [Hp]; · iexists _; iexact Hp
      iexists ∅; iexact HO)
    (hE3 := fun c => by iintro ⟨-, HO⟩; iexact HO)
    (R0 := reg0 m) (hpre0 := fun _ => .rfl) (hpost0 := fun _ => .rfl)
    (R1 := reg1 m) (hpre1 := fun _ => .rfl) (hpost1 := fun _ => .rfl)
    (R2 := reg2 m) (hpre2 := fun _ => .rfl) (hpost2 := fun _ => .rfl)

end Cert.Kernel.Reg

end
-- ==== Proof.KI.Reg0.lean ====
/-
  The first matrix product, x · W1, as one pipelined region: twenty grid points, point t staging rows
  5000·t … 5000·t + 4999 of the left operand and the whole right operand, and writing back the 5000 × 128 block of
  products. Stated at a parameter `V`, the buffers' contents when the region is entered: what each window's
  block is, what the body leaves in the output's staging buffer (the product of the two staged blocks), the
  body's triple, the pipeline's proof data and the body obligation at every point.
-/
import proofs.«424487_j41961830482015_1_alg».proof.Proof.Gen.KernelIdeal.Launch
import proofs.«424487_j41961830482015_1_alg».proof.Proof.Gen.KernelIdeal.Skeleton
import proofs.«424487_j41961830482015_1_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0: the blocks of its windows -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of the left operand is in its staging buffer at every point (it is fetched at each). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right operand is in its staging buffer at every point: fetched once, its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the output's staging buffer -/

abbrev rX0 : Rect S5000x128 := Rect.unit (s := S5000x128) ![0, 0] S5000x128.size inb_S5000x128_S5000x128_0_0
abbrev rW0 : Rect S128x128 := Rect.unit (s := S128x128) ![0, 0] S128x128.size inb_S128x128_S128x128_0_0

/-- The output block after the body: its one store, of the product of the two staged blocks. -/
def out0_2 (x : Vec F S5000x128 .f32) (w : Vec F S128x128 .f32) : Vec F S5000x128 .f32 :=
  View.canon [⟨rX0, k0_pay1 (View.ld x rX0) (View.ld w rW0)⟩]

/-- That store covers the whole block. -/
theorem cover0_2 (p0 : Vec F S5000x128 .f32) (y : S5000x128.Idx) :
    ∃ pc ∈ ([⟨rX0, p0⟩] : List (View.Piece (Elt F) S5000x128 .f32)), y ∈ pc.1.set :=
  View.cover_of_tiled [⟨rX0, p0⟩] S5000x128.size (by rfl) y

/-! ## The body's triple -/

set_option maxHeartbeats 1000000 in
/-- On whole staging buffers, the inputs' at `x` and `w` and the output's at anything, the body runs to its end with
    the inputs as they were and the output at `out0_2 x w`. -/
theorem sound_kernel0 (c : Dev nD) (E : Set ℕ) (i : grid0.Coords) (arg1 : Memref sig .tc .vmem S5000x128 .f32) (harg1 : arg1.IsWhole)
    (arg2 : Memref sig .tc .vmem S128x128 .f32) (harg2 : arg2.IsWhole) (arg3 : Memref sig .tc .vmem S5000x128 .f32) (harg3 : arg3.IsWhole)
    (x : Vec F S5000x128 .f32) (w : Vec F S128x128 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w ∗ owns (c : Thread nD τ) arg3 fullShare (out0_2 x w)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- Region 0's proof data on core `c`: the arrays as the region finds them; after the body at point `t` each input's
    buffer at its block and the output's at the product of the two blocks; between points only the scratch-free rest
    and the generator register; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Reg

end
-- ==== Proof.KI.Reg1.lean ====
/-
  The second matrix product, h · W2 (h the first layer's output after its rectifier), as one pipelined region:
  twenty grid points, point t staging rows 5000·t … 5000·t + 4999 of the left operand and the whole right operand,
  and writing back the 5000 × 128 block of products. Stated at a parameter `V`, the buffers' contents when the
  region is entered: what each window's block is, what the body leaves in the output's staging buffer (the product
  of the two staged blocks), the body's triple, the pipeline's proof data and the body obligation at every point.
-/
import proofs.«424487_j41961830482015_1_alg».proof.Proof.Gen.KernelIdeal.Launch
import proofs.«424487_j41961830482015_1_alg».proof.Proof.Gen.KernelIdeal.Skeleton
import proofs.«424487_j41961830482015_1_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 1: the blocks of its windows -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row block of the left operand is in its staging buffer at every point (it is fetched at each). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The right operand is in its staging buffer at every point: fetched once, its block index never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in the output's staging buffer -/

abbrev rX1 : Rect S5000x128 := Rect.unit (s := S5000x128) ![0, 0] S5000x128.size inb_S5000x128_S5000x128_0_0
abbrev rW1 : Rect S128x128 := Rect.unit (s := S128x128) ![0, 0] S128x128.size inb_S128x128_S128x128_0_0

/-- The output block after the body: its one store, of the product of the two staged blocks. -/
def out1_2 (x : Vec F S5000x128 .f32) (w : Vec F S128x128 .f32) : Vec F S5000x128 .f32 :=
  View.canon [⟨rX1, k1_pay1 (View.ld x rX1) (View.ld w rW1)⟩]

/-- That store covers the whole block. -/
theorem cover1_2 (p0 : Vec F S5000x128 .f32) (y : S5000x128.Idx) :
    ∃ pc ∈ ([⟨rX1, p0⟩] : List (View.Piece (Elt F) S5000x128 .f32)), y ∈ pc.1.set :=
  View.cover_of_tiled [⟨rX1, p0⟩] S5000x128.size (by rfl) y

/-! ## The body's triple -/

set_option maxHeartbeats 1000000 in
/-- On whole staging buffers, the inputs' at `x` and `w` and the output's at anything, the body runs to its end with
    the inputs as they were and the output at `out1_2 x w`. -/
theorem sound_kernel1 (c : Dev nD) (E : Set ℕ) (i : grid1.Coords) (arg1 : Memref sig .tc .vmem S5000x128 .f32) (harg1 : arg1.IsWhole)
    (arg2 : Memref sig .tc .vmem S128x128 .f32) (harg2 : arg2.IsWhole) (arg3 : Memref sig .tc .vmem S5000x128 .f32) (harg3 : arg3.IsWhole)
    (x : Vec F S5000x128 .f32) (w : Vec F S128x128 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w ∗ owns (c : Thread nD τ) arg3 fullShare (out1_2 x w)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- Region 1's proof data on core `c`: the arrays as the region finds them; after the body at point `t` each input's
    buffer at its block and the output's at the product of the two blocks; between points only the scratch-free rest
    and the generator register; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.KernelIdeal.Reg

end
-- ==== Proof.KI.Reg2Defs.lean ====
/-
  The pooling region: twenty grid points, point t staging rows 5000·t … 5000·t + 4999 of the node features and of the
  graph ids, and (once) the four small operands of the two closing products. Two scratch buffers are carried from point
  to point: the 128 × 512 sums, per feature and graph, of the feature rows whose graph id is that graph, and the
  1 × 512 counts of rows per graph. Point 0 first clears both; every point adds its tile's one-hot product and its
  tile's counts; the last point divides the sums by the counts (at least one), applies the two small products with
  their biases and the rectifier between them, and stores the 1 × 512 result, the only store into the output's
  staging buffer. Stated at a parameter `V`, the buffers' contents when the region is entered: the windows' blocks,
  the scratch contents after each point, the pipeline's proof data.
-/
import proofs.«424487_j41961830482015_1_alg».proof.Proof.Gen.KernelIdeal.Launch
import proofs.«424487_j41961830482015_1_alg».proof.Proof.Gen.KernelIdeal.Skeleton
import proofs.«424487_j41961830482015_1_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks of the region's windows -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The two carried scratch buffers -/

/-- The sums scratch after the first `n` points: cleared, then each point's tile added. -/
def accUpTo (c : Dev nD) : (n : ℕ) → n ≤ cfg2.N → Vec F S128x512 .f32
  | 0, _ => k2_pay1
  | n + 1, h => k2_pay4 (iblk2 V c 1 ⟨n, h⟩) (iblk2 V c 0 ⟨n, h⟩) (accUpTo c n (Nat.le_of_succ_le h))

/-- The counts scratch after the first `n` points: cleared, then each point's tile counted. -/
def cntUpTo (c : Dev nD) : (n : ℕ) → n ≤ cfg2.N → Vec F S1x512 .f32
  | 0, _ => k2_pay2
  | n + 1, h => k2_pay5 (iblk2 V c 1 ⟨n, h⟩) (cntUpTo c n (Nat.le_of_succ_le h))

theorem accUpTo_zero (c : Dev nD) (h) : accUpTo V c 0 h = k2_pay1 := rfl
theorem accUpTo_succ (c : Dev nD) (n : ℕ) (h : n + 1 ≤ cfg2.N) :
    accUpTo V c (n + 1) h = k2_pay4 (iblk2 V c 1 ⟨n, h⟩) (iblk2 V c 0 ⟨n, h⟩) (accUpTo V c n (Nat.le_of_succ_le h)) := rfl
theorem cntUpTo_zero (c : Dev nD) (h) : cntUpTo V c 0 h = k2_pay2 := rfl
theorem cntUpTo_succ (c : Dev nD) (n : ℕ) (h : n + 1 ≤ cfg2.N) :
    cntUpTo V c (n + 1) h = k2_pay5 (iblk2 V c 1 ⟨n, h⟩) (cntUpTo V c n (Nat.le_of_succ_le h)) := rfl

/-! ## What the last point stores into the output's staging buffer -/

/-- The output block at point `t`, were the closing branch taken there: the closing arithmetic on the scratch contents
    after that point's tile and on the four small operands' blocks. Only the last point takes that branch. -/
def out2_6 (c : Dev nD) (t : Fin cfg2.N) : Vec F S1x512 .f32 :=
  k2_pay6 (cntUpTo V c (t.val + 1) t.isLt) (accUpTo V c (t.val + 1) t.isLt)
    (iblk2 V c 2 t) (iblk2 V c 3 t) (iblk2 V c 4 t) (iblk2 V c 5 t)

end Cert.KernelIdeal.Reg

end
-- ==== Proof.KI.Reg2.lean ====
/-
  The pooling region's frame half: the invariant carried between grid points (the generator register, the scoped
  buffers no window stages, and after the first point the two scratch buffers at the running sums and counts), the
  pipeline's proof data, and the body obligation at every point, by the three control cases (first point, a middle
  point, last point).
-/
import proofs.«424487_j41961830482015_1_alg».proof.Proof.KI.Reg2Defs
import Idealize.ShloMosaic.Lib.Pipeline.Value

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The invariant between points -/

/-- The two scratch buffers the body carries from point to point, as whole memrefs: the sums and the counts. -/
abbrev scA : Memref sig .tc .vmem S128x512 .f32 := Memref.whole cc2_scratch0
abbrev scC : Memref sig .tc .vmem S1x512 .f32 := Memref.whole cc2_scratch1

/-- The core's scoped buffers that are neither a staging buffer of this region's windows nor one of its two scratch
    buffers, each whole at some contents: the body never touches them. -/
def rest2 (c : Dev nD) : sProp 𝕄 :=
  Pipeline.scopedRestBut (Ix := Unit) (Name := ℕ) (U := UR sig nD τ) (Lvl := ℕ) (Val := Elt F) spec2 c [cc2_scratch0, cc2_scratch1]

/-- The class invariant with the two scratch buffers taken out of the scoped rest, each owned whole at some contents. -/
theorem PhiA2_eq (c : Dev nD) :
    (Pipeline.ΦA spec2 c : sProp 𝕄)
      = iprop((((∃ d, owns (c : Thread nD τ) scA fullShare d) ∗ (∃ d, owns (c : Thread nD τ) scC fullShare d)) ∗ rest2 (F := F) c) ∗ (∃ r, prngReg c r)) := by
  unfold Pipeline.ΦA rest2
  rw [Pipeline.scopedRest_split_of_list spec2 c [cc2_scratch0, cc2_scratch1] (by decide) (by decide)]
  simp only [scA, scC, owns_whole]; try rfl

/-- The invariant before position `n`: before the first point the class invariant (both scratch buffers at anything);
    afterwards the untouched rest, the sums scratch at `accUpTo V c n`, the counts scratch at `cntUpTo V c n`, and the
    generator register at some state. -/
def PhiS2 (c : Dev nD) : (n : ℕ) → n ≤ cfg2.N → sProp 𝕄
  | 0, _ => Pipeline.ΦA spec2 c
  | n + 1, h => iprop(rest2 (F := F) c ∗ owns (c : Thread nD τ) scA fullShare (accUpTo V c (n + 1) h)
      ∗ owns (c : Thread nD τ) scC fullShare (cntUpTo V c (n + 1) h) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (h : n + 1 ≤ cfg2.N) :
    PhiS2 V c (n + 1) h = iprop(rest2 (F := F) c ∗ owns (c : Thread nD τ) scA fullShare (accUpTo V c (n + 1) h)
      ∗ owns (c : Thread nD τ) scC fullShare (cntUpTo V c (n + 1) h) ∗ (∃ r, prngReg c r)) := rfl

/-- Between points the core holds the generator register and every scoped buffer no window stages; before point 0
    at any contents (the class invariant), after point `n` with the two scratch buffers at the running sums and
    counts `accUpTo V c n`, `cntUpTo V c n`. -/
def Φ2 (c : Dev nD) : Fin (cfg2.N + 1) → sProp 𝕄 := fun t => PhiS2 V c t.val (Nat.le_of_lt_succ t.isLt)

/-! ## The pipeline's proof data -/

/-- Region 2's proof data on core `c`: the arrays as the region finds them; after the body at point `t` each input's
    buffer at its block, the output's at the closing arithmetic on the scratch contents after that point (read only at
    the last point: elsewhere the window is idle); nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 V c t
  Φ := Φ2 V c
  q _ := fullShare
  owed _ := 0

theorem A_eq2 (c : Dev nD) (w : Fin cfg2.W) : (dat2 V c).A w = V c (Pipeline.arrRef spec2 w) := by
  dsimp only [dat2]

theorem after2_6 (c : Dev nD) (t : Fin cfg2.N) : (dat2 V c).after 6 t = out2_6 V c t := by dsimp only [dat2]

/-- Before the first point the invariant is the class invariant. -/
theorem Φ2_first (c : Dev nD) : (dat2 V c).Φ 0 = Pipeline.ΦA spec2 c := by
  show PhiS2 V c (0 : Fin (cfg2.N + 1)).val (Nat.le_of_lt_succ (0 : Fin (cfg2.N + 1)).isLt) = _
  exact PhiS2_zero V c _ _ (Fin.val_zero (cfg2.N + 1))

/-- After the last point the invariant gives the class invariant back (the scratch contents forgotten). -/
theorem Φ2_last (c : Dev nD) : (dat2 V c).Φ (Fin.last cfg2.N) ⊢ (Pipeline.ΦA spec2 c : sProp 𝕄) := by
  have hN : cfg2.N = 19 + 1 := N_2
  show PhiS2 V c (Fin.last cfg2.N).val _ ⊢ _
  have e : ∀ (n : ℕ) (h : n ≤ cfg2.N), n = 19 + 1 → (PhiS2 V c n h ⊢ (Pipeline.ΦA spec2 c : sProp 𝕄)) := by
    intro n h hn; subst hn
    rw [PhiS2_succ, PhiA2_eq]
    iintro ⟨Hr, HA, HC, Hg⟩
    isplitr [Hg]
    · isplitr [Hr]
      · isplitl [HA]
        · iexists _; iexact HA
        · iexists _; iexact HC
      · iexact Hr
    · iexact Hg
  exact e _ _ (by rw [Fin.val_last]; exact hN)

/-! ## The body's two branch conditions over the grid -/

/-- The first branch's condition (clear both scratch buffers), from the grid coordinate: the kernel's scalar chain. -/
abbrev cond2_0 (i : grid2.Coords) : Prop :=
  (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val = 0 :=
  (by decide +kernel : ∀ t : Fin grid2.N, cond2_0 (grid2.coords t) ↔ t.val = 0)
/-- The second branch's condition (the closing arithmetic and the output's store). -/
abbrev cond2_1 (i : grid2.Coords) : Prop := k2_cond2 i = 1#1
/-- It holds at the last point only. -/
theorem hcond2_1 : ∀ t : Fin cfg2.N, cond2_1 (grid2.coords t) ↔ t.val = 19 :=
  (by decide +kernel : ∀ t : Fin grid2.N, cond2_1 (grid2.coords t) ↔ t.val = 19)

/-- The output window is idle, and not written back, wherever the second branch is not taken; live where it is. -/
theorem idleAt2_6 : ∀ t : Fin cfg2.N, ¬cond2_1 (grid2.coords t) → cfg2.idle 6 (grid2.coords t) = true := by decide +kernel
theorem noFlush2_6 : ∀ t : Fin cfg2.N, ¬cond2_1 (grid2.coords t) → (cfg2.win 6).flush t = false := by decide +kernel
theorem liveAt2_6 : ∀ t : Fin cfg2.N, cond2_1 (grid2.coords t) → cfg2.idle 6 (grid2.coords t) = false := by decide +kernel

/-! ## The body's triples, case by case -/

theorem hz2 : (![0, 0] : Fin 2 → Nat) = fun _ => 0 := funext fun a => by fin_cases a <;> rfl

/-- A list of stores whose last is through the whole-shape rectangle at zero offsets covers the buffer. -/
theorem cover_unit2 {S : Shape} {e : EltTy} {off : Fin S.rank → Nat} {inb : ∀ a, off a + S.size a ≤ S.size a} (hz : off = fun _ => 0)
    (w : (Rect.unit off S.size inb).shape.Idx → Elt F e) (L : List (View.Piece (Elt F) S e)) (y : S.Idx) :
    ∃ pc ∈ ((⟨Rect.unit off S.size inb, w⟩ : View.Piece (Elt F) S e) :: L), y ∈ pc.1.set :=
  ⟨_, List.mem_cons_self, View.mem_set_unit_zero hz inb y⟩

set_option maxHeartbeats 1000000 in
/-- A middle point (neither branch): the tile's one-hot product is added to the sums, the tile's counts to the counts. -/
theorem sound_kernel2_mid (c : Dev nD) (E : Set ℕ) (i : grid2.Coords) (arg1 : Memref sig .tc .vmem S5000x128 .f32) (harg1 : arg1.IsWhole) (arg2 : Memref sig .tc .vmem S5000x1 .i32) (harg2 : arg2.IsWhole) (arg3 : Memref sig .tc .vmem S128x64 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S1x1 .f32) (harg6 : arg6.IsWhole) (arg7 : Memref sig .tc .vmem S1x512 .f32) (harg7 : arg7.IsWhole) (arg8 : Memref sig .tc .vmem S128x512 .f32) (harg8 : arg8.IsWhole) (arg9 : Memref sig .tc .vmem S1x512 .f32) (harg9 : arg9.IsWhole)
    (hc0 : ¬cond2_0 i) (hc1 : ¬cond2_1 i)
    (x : Vec F S5000x128 .f32) (g : Vec F S5000x1 .i32) (a : Vec F S128x512 .f32) (k : Vec F S1x512 .f32) (K : PUnit → sProp 𝕄) :
    iprop(owns (c : Thread nD τ) arg1 fullShare x ∗ owns (c : Thread nD τ) arg2 fullShare g ∗ owns (c : Thread nD τ) arg8 fullShare a ∗ owns (c : Thread nD τ) arg9 fullShare k
        ∗ (iprop(owns (c : Thread nD τ) arg1 fullShare x ∗ owns (c : Thread nD τ) arg2 fullShare g ∗ owns (c : Thread nD τ) arg8 fullShare (k2_pay4 g x a) ∗ owns (c : Thread nD τ) arg9 fullShare (k2_pay5 g k)) -∗ K ⟨⟩))
      ⊢ wp frame (wpE (defs₀ (F := F)) Variants.none c none) E (cc2__pool_mlp_kernel i arg1 harg1 arg2 harg2 arg3 harg3 arg4 harg4 arg5 harg5 arg6 harg6 arg7 harg7 arg8 harg8 arg9 harg9) K := by
  simp only [cc2__pool_mlp_kernel_eq_skeleton]; unfold cc2__pool_mlp_kernel_skel
  unfold owns
  iintro ⟨⟨%f1, %hf1, H1⟩, ⟨%f2, %hf2, H2⟩, ⟨%f8, %hf8, H8⟩, ⟨%f9, %hf9, H9⟩, Hk⟩
  subst hf1; subst hf2; subst hf8; subst hf9
  sl_exec
  sl_step
  iapply Hk
  isplitl [H1]
  · iexists f1; isplitr; · ipureintro; rfl
    iexact H1
  isplitl [H2]
  · iexists f2; isplitr; · ipureintro; rfl
    iexact H2
  isplitl [H8]
  · iexists _; isplitr
    swap; · iexact H8
    ipureintro
    sl_unfold_words
    rw [View.read_writes_eq_canon _ _ _ (cover_unit2 hz2 _ _), View.canon_unit_zero hz2]
    simp only [View.readAt_eq_ld, View.ld_unit_zero (S := S5000x1) hz2, View.ld_unit_zero (S := S5000x128) hz2, View.ld_unit_zero (S := S128x512) hz2, View.ld_unit_zero (S := S1x512) hz2, View.ld_unit_zero (S := S128x64) hz2, View.ld_unit_zero (S := S64x1) hz2, View.ld_unit_zero (S := S1x1) hz2]
  · iexists _; isplitr
    swap; · iexact H9
    ipureintro
    sl_unfold_words
    rw [View.read_writes_eq_canon _ _ _ (cover_unit2 hz2 _ _), View.canon_unit_zero hz2]
    simp only [View.readAt_eq_ld, View.ld_unit_zero (S := S5000x1) hz2, View.ld_unit_zero (S := S5000x128) hz2, View.ld_unit_zero (S := S128x512) hz2, View.ld_unit_zero (S := S1x512) hz2, View.ld_unit_zero (S := S128x64) hz2, View.ld_unit_zero (S := S64x1) hz2, View.ld_unit_zero (S := S1x1) hz2]

set_option maxHeartbeats 1000000 in
/-- The first point (first branch only): both scratch buffers are cleared, then the tile's one-hot product is added to
    the cleared sums and the tile's counts to the cleared counts. -/
theorem sound_kernel2_first (c : Dev nD) (E : Set ℕ) (i : grid2.Coords) (arg1 : Memref sig .tc .vmem S5000x128 .f32) (harg1 : arg1.IsWhole) (arg2 : Memref sig .tc .vmem S5000x1 .i32) (harg2 : arg2.IsWhole) (arg3 : Memref sig .tc .vmem S128x64 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S1x1 .f32) (harg6 : arg6.IsWhole) (arg7 : Memref sig .tc .vmem S1x512 .f32) (harg7 : arg7.IsWhole) (arg8 : Memref sig .tc .vmem S128x512 .f32) (harg8 : arg8.IsWhole) (arg9 : Memref sig .tc .vmem S1x512 .f32) (harg9 : arg9.IsWhole)
    (hc0 : cond2_0 i) (hc1 : ¬cond2_1 i)
    (x : Vec F S5000x128 .f32) (g : Vec F S5000x1 .i32) (K : PUnit → sProp 𝕄) :
    iprop(owns (c : Thread nD τ) arg1 fullShare x ∗ owns (c : Thread nD τ) arg2 fullShare g ∗ (∃ d, owns (c : Thread nD τ) arg8 fullShare d) ∗ (∃ d, owns (c : Thread nD τ) arg9 fullShare d)
        ∗ (iprop(owns (c : Thread nD τ) arg1 fullShare x ∗ owns (c : Thread nD τ) arg2 fullShare g ∗ owns (c : Thread nD τ) arg8 fullShare (k2_pay4 g x k2_pay1) ∗ owns (c : Thread nD τ) arg9 fullShare (k2_pay5 g k2_pay2)) -∗ K ⟨⟩))
      ⊢ wp frame (wpE (defs₀ (F := F)) Variants.none c none) E (cc2__pool_mlp_kernel i arg1 harg1 arg2 harg2 arg3 harg3 arg4 harg4 arg5 harg5 arg6 harg6 arg7 harg7 arg8 harg8 arg9 harg9) K := by
  simp only [cc2__pool_mlp_kernel_eq_skeleton]; unfold cc2__pool_mlp_kernel_skel
  unfold owns
  iintro ⟨⟨%f1, %hf1, H1⟩, ⟨%f2, %hf2, H2⟩, ⟨%d8, %f8, -, H8⟩, ⟨%d9, %f9, -, H9⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  isplitl [H8]
  · iexists _; isplitr
    swap; · iexact H8
    ipureintro
    sl_unfold_words
    rw [View.read_writes_eq_canon _ _ _ (cover_unit2 hz2 _ _), View.canon_cons_unit_zero (S := S128x512) hz2]
    simp only [View.readAt_eq_ld, View.ld_unit_zero (S := S5000x1) hz2, View.ld_unit_zero (S := S5000x128) hz2, View.ld_unit_zero (S := S128x512) hz2, View.ld_unit_zero (S := S1x512) hz2, View.ld_unit_zero (S := S128x64) hz2, View.ld_unit_zero (S := S64x1) hz2, View.ld_unit_zero (S := S1x1) hz2, View.readCov_unit_zero (S := S128x512) _ hz2]
  · iexists _; isplitr
    swap; · iexact H9
    ipureintro
    sl_unfold_words
    rw [View.read_writes_eq_canon _ _ _ (cover_unit2 hz2 _ _), View.canon_cons_unit_zero (S := S1x512) hz2]
    simp only [View.readAt_eq_ld, View.ld_unit_zero (S := S5000x1) hz2, View.ld_unit_zero (S := S5000x128) hz2, View.ld_unit_zero (S := S128x512) hz2, View.ld_unit_zero (S := S1x512) hz2, View.ld_unit_zero (S := S128x64) hz2, View.ld_unit_zero (S := S64x1) hz2, View.ld_unit_zero (S := S1x1) hz2, View.readCov_unit_zero (S := S1x512) _ hz2]

set_option maxHeartbeats 1000000 in
/-- The last point (second branch only): the tile is added as at a middle point; then the sums are divided by the counts
    (at least one), the two small products with their biases and the rectifier between them are applied, and the
    result is stored into the output's staging buffer. -/
theorem sound_kernel2_last (c : Dev nD) (E : Set ℕ) (i : grid2.Coords) (arg1 : Memref sig .tc .vmem S5000x128 .f32) (harg1 : arg1.IsWhole) (arg2 : Memref sig .tc .vmem S5000x1 .i32) (harg2 : arg2.IsWhole) (arg3 : Memref sig .tc .vmem S128x64 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S1x1 .f32) (harg6 : arg6.IsWhole) (arg7 : Memref sig .tc .vmem S1x512 .f32) (harg7 : arg7.IsWhole) (arg8 : Memref sig .tc .vmem S128x512 .f32) (harg8 : arg8.IsWhole) (arg9 : Memref sig .tc .vmem S1x512 .f32) (harg9 : arg9.IsWhole)
    (hc0 : ¬cond2_0 i) (hc1 : cond2_1 i)
    (x : Vec F S5000x128 .f32) (g : Vec F S5000x1 .i32) (w1 : Vec F S128x64 .f32) (b1 : Vec F S64x1 .f32) (w2 : Vec F S64x1 .f32) (b2 : Vec F S1x1 .f32)
    (a : Vec F S128x512 .f32) (k : Vec F S1x512 .f32) (K : PUnit → sProp 𝕄) :
    iprop(owns (c : Thread nD τ) arg1 fullShare x ∗ owns (c : Thread nD τ) arg2 fullShare g ∗ owns (c : Thread nD τ) arg3 fullShare w1 ∗ owns (c : Thread nD τ) arg4 fullShare b1
        ∗ owns (c : Thread nD τ) arg5 fullShare w2 ∗ owns (c : Thread nD τ) arg6 fullShare b2 ∗ (∃ d, owns (c : Thread nD τ) arg7 fullShare d)
        ∗ owns (c : Thread nD τ) arg8 fullShare a ∗ owns (c : Thread nD τ) arg9 fullShare k
        ∗ (iprop(owns (c : Thread nD τ) arg1 fullShare x ∗ owns (c : Thread nD τ) arg2 fullShare g ∗ owns (c : Thread nD τ) arg3 fullShare w1 ∗ owns (c : Thread nD τ) arg4 fullShare b1
            ∗ owns (c : Thread nD τ) arg5 fullShare w2 ∗ owns (c : Thread nD τ) arg6 fullShare b2
            ∗ owns (c : Thread nD τ) arg7 fullShare (k2_pay6 (k2_pay5 g k) (k2_pay4 g x a) w1 b1 w2 b2)
            ∗ owns (c : Thread nD τ) arg8 fullShare (k2_pay4 g x a) ∗ owns (c : Thread nD τ) arg9 fullShare (k2_pay5 g k)) -∗ K ⟨⟩))
      ⊢ wp frame (wpE (defs₀ (F := F)) Variants.none c none) E (cc2__pool_mlp_kernel i arg1 harg1 arg2 harg2 arg3 harg3 arg4 harg4 arg5 harg5 arg6 harg6 arg7 harg7 arg8 harg8 arg9 harg9) K := by
  simp only [cc2__pool_mlp_kernel_eq_skeleton]; unfold cc2__pool_mlp_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, Hk⟩
  subst hf1; subst hf2; subst hf3; subst hf4; subst hf5; subst hf6; subst hf8; subst hf9
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    sl_unfold_words
    rw [View.read_writes_eq_canon _ _ _ (cover_unit2 hz2 _ _), View.canon_unit_zero hz2]
    simp only [View.readAt_eq_ld, View.ld_unit_zero (S := S5000x1) hz2, View.ld_unit_zero (S := S5000x128) hz2, View.ld_unit_zero (S := S128x512) hz2, View.ld_unit_zero (S := S1x512) hz2, View.ld_unit_zero (S := S128x64) hz2, View.ld_unit_zero (S := S64x1) hz2, View.ld_unit_zero (S := S1x1) hz2, View.readCov_unit_zero (S := S128x512) _ hz2, View.readCov_unit_zero (S := S1x512) _ hz2]
  isplitl [H8]
  · iexists _; isplitr
    swap; · iexact H8
    ipureintro
    sl_unfold_words
    rw [View.read_writes_eq_canon _ _ _ (cover_unit2 hz2 _ _), View.canon_unit_zero hz2]
    simp only [View.readAt_eq_ld, View.ld_unit_zero (S := S5000x1) hz2, View.ld_unit_zero (S := S5000x128) hz2, View.ld_unit_zero (S := S128x512) hz2, View.ld_unit_zero (S := S1x512) hz2, View.ld_unit_zero (S := S128x64) hz2, View.ld_unit_zero (S := S64x1) hz2, View.ld_unit_zero (S := S1x1) hz2]
  · iexists _; isplitr
    swap; · iexact H9
    ipureintro
    sl_unfold_words
    rw [View.read_writes_eq_canon _ _ _ (cover_unit2 hz2 _ _), View.canon_unit_zero hz2]
    simp only [View.readAt_eq_ld, View.ld_unit_zero (S := S5000x1) hz2, View.ld_unit_zero (S := S5000x128) hz2, View.ld_unit_zero (S := S128x512) hz2, View.ld_unit_zero (S := S1x512) hz2, View.ld_unit_zero (S := S128x64) hz2, View.ld_unit_zero (S := S64x1) hz2, View.ld_unit_zero (S := S1x1) hz2]

/-! ## What the inputs' staging buffers hold -/

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]

/-- Each input's current staging buffer holds its block at every point, fetched there or not (an unfetched window's
    block index has not moved). -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A_eq2]; try rfl) t d).trans
    (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (fun _ => rfl) (fun _ _ _ => rfl) (fun t => by rw [after2_5]; unfold Dat.blockOf iblk2; rw [A_eq2]; try rfl) t d).trans
    (by unfold Dat.fetched Dat.blockOf iblk2; rw [A_eq2]; try rfl)

/-- The inputs are never idle: the body leaves each at its block. -/
theorem leaves2_0 (c : Dev nD) (t : Fin cfg2.N) :
    (dat2 V c).leavesExact 0 t = owns (c : Thread nD τ) (st2_0 t) fullShare (iblk2 V c 0 t) := by
  unfold Dat.leavesExact; rw [show cfg2.idle 0 (cfg2.grid.coords t) = false from rfl, after2_0]
theorem leaves2_1 (c : Dev nD) (t : Fin cfg2.N) :
    (dat2 V c).leavesExact 1 t = owns (c : Thread nD τ) (st2_1 t) fullShare (iblk2 V c 1 t) := by
  unfold Dat.leavesExact; rw [show cfg2.idle 1 (cfg2.grid.coords t) = false from rfl, after2_1]
theorem leaves2_2 (c : Dev nD) (t : Fin cfg2.N) :
    (dat2 V c).leavesExact 2 t = owns (c : Thread nD τ) (st2_2 t) fullShare (iblk2 V c 2 t) := by
  unfold Dat.leavesExact; rw [show cfg2.idle 2 (cfg2.grid.coords t) = false from rfl, after2_2]
theorem leaves2_3 (c : Dev nD) (t : Fin cfg2.N) :
    (dat2 V c).leavesExact 3 t = owns (c : Thread nD τ) (st2_3 t) fullShare (iblk2 V c 3 t) := by
  unfold Dat.leavesExact; rw [show cfg2.idle 3 (cfg2.grid.coords t) = false from rfl, after2_3]
theorem leaves2_4 (c : Dev nD) (t : Fin cfg2.N) :
    (dat2 V c).leavesExact 4 t = owns (c : Thread nD τ) (st2_4 t) fullShare (iblk2 V c 4 t) := by
  unfold Dat.leavesExact; rw [show cfg2.idle 4 (cfg2.grid.coords t) = false from rfl, after2_4]
theorem leaves2_5 (c : Dev nD) (t : Fin cfg2.N) :
    (dat2 V c).leavesExact 5 t = owns (c : Thread nD τ) (st2_5 t) fullShare (iblk2 V c 5 t) := by
  unfold Dat.leavesExact; rw [show cfg2.idle 5 (cfg2.grid.coords t) = false from rfl, after2_5]

/-! ## The scratch contents at a point -/

theorem accUpTo_of_zero (c : Dev nD) (n : ℕ) (h : n ≤ cfg2.N) (hz : n = 0) : accUpTo V c n h = k2_pay1 := by subst hz; rfl
theorem cntUpTo_of_zero (c : Dev nD) (n : ℕ) (h : n ≤ cfg2.N) (hz : n = 0) : cntUpTo V c n h = k2_pay2 := by subst hz; rfl

/-- After point `t` the sums are point `t`'s tile added to what they were before it; likewise the counts. -/
theorem accUpTo_at (c : Dev nD) (t : Fin cfg2.N) :
    accUpTo V c (t.val + 1) t.isLt = k2_pay4 (iblk2 V c 1 t) (iblk2 V c 0 t) (accUpTo V c t.val (Nat.le_of_lt t.isLt)) := rfl
theorem cntUpTo_at (c : Dev nD) (t : Fin cfg2.N) :
    cntUpTo V c (t.val + 1) t.isLt = k2_pay5 (iblk2 V c 1 t) (cntUpTo V c t.val (Nat.le_of_lt t.isLt)) := rfl

/-- Before a point that is not the first the two scratch buffers hold the running sums and counts. -/
theorem PhiS2_pos (c : Dev nD) (n : ℕ) (h : n ≤ cfg2.N) (hz : n ≠ 0) :
    PhiS2 V c n h = iprop(rest2 (F := F) c ∗ owns (c : Thread nD τ) scA fullShare (accUpTo V c n h)
      ∗ owns (c : Thread nD τ) scC fullShare (cntUpTo V c n h) ∗ (∃ r, prngReg c r)) := by
  cases n with
  | zero => exact absurd rfl hz
  | succ n => rfl

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 4000000 in
/-- The body at any point, by the three control cases. The inputs' buffers hold their blocks; the invariant hands the
    body the two scratch buffers (at anything before the first point, at the running sums and counts afterwards) and
    takes them back with this point's tile added; the output's buffer is handed back as found except at the last
    point, where it receives the closing arithmetic; the untouched rest, the generator register and what the core
    owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl,
    show (dat2 V c).Φ t.succ = PhiS2 V c (t.val + 1) t.isLt from rfl, PhiS2_succ,
    show (dat2 V c).Φ t.castSucc = PhiS2 V c t.val (Nat.le_of_lt t.isLt) from rfl,
    leaves2_0, leaves2_1, leaves2_2, leaves2_3, leaves2_4, leaves2_5, accUpTo_at, cntUpTo_at]
  have hN : t.val < 20 := lt_of_lt_of_eq t.isLt N_2
  by_cases h0 : t.val = 0
  · have hc0 : cond2_0 (grid2.coords t) := (hcond2_0 t).mpr h0
    have hc1 : ¬cond2_1 (grid2.coords t) := fun h => by have := (hcond2_1 t).mp h; omega
    rw [Dat.leavesExact_idle (dat2 V c) 6 t (idleAt2_6 t hc1) (noFlush2_6 t hc1),
      PhiS2_zero V c _ _ h0, PhiA2_eq, accUpTo_of_zero V c _ _ h0, cntUpTo_of_zero V c _ _ h0]
    iintro ⟨⟨⟨⟨⟨%dA, HA⟩, ⟨%dC, HC⟩⟩, Hr⟩, Hg⟩, Ho, ⟨%d0, H0⟩, ⟨%d1, H1⟩, ⟨%d2, H2⟩, ⟨%d3, H3⟩, ⟨%d4, H4⟩, ⟨%d5, H5⟩, H6⟩
    iapply (sound_kernel2_first c Set.univ _ _ _ _ _ _ _ _ _ _ _ _ _ _ _ _ _ _ _ hc0 hc1 (iblk2 V c 0 t) (iblk2 V c 1 t) _)
    isplitl [H0]; · iexact H0
    isplitl [H1]; · iexact H1
    isplitl [HA]; · iexists _; iexact HA
    isplitl [HC]; · iexists _; iexact HC
    iintro ⟨H0, H1, HA, HC⟩
    isplitl [Hr HA HC Hg]
    · isplitl [Hr]; · iexact Hr
      isplitl [HA]; · iexact HA
      isplitl [HC]; · iexact HC
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [PhiS2_pos V c _ _ h0]
    by_cases h1 : t.val = 19
    · have hc0 : ¬cond2_0 (grid2.coords t) := fun h => h0 ((hcond2_0 t).mp h)
      have hc1 : cond2_1 (grid2.coords t) := (hcond2_1 t).mpr h1
      rw [show (dat2 V c).leavesExact 6 t = owns (c : Thread nD τ) (st2_6 t) fullShare (out2_6 V c t) from by
        unfold Dat.leavesExact; rw [liveAt2_6 t hc1, after2_6]]
      unfold out2_6; rw [accUpTo_at, cntUpTo_at]
      iintro ⟨⟨Hr, HA, HC, Hg⟩, Ho, ⟨%d0, H0⟩, ⟨%d1, H1⟩, ⟨%d2, H2⟩, ⟨%d3, H3⟩, ⟨%d4, H4⟩, ⟨%d5, H5⟩, ⟨%d6, H6⟩⟩
      iapply (sound_kernel2_last c Set.univ _ _ _ _ _ _ _ _ _ _ _ _ _ _ _ _ _ _ _ hc0 hc1 (iblk2 V c 0 t) (iblk2 V c 1 t) (iblk2 V c 2 t) (iblk2 V c 3 t) (iblk2 V c 4 t) (iblk2 V c 5 t)
        (accUpTo V c t.val (Nat.le_of_lt t.isLt)) (cntUpTo V c t.val (Nat.le_of_lt t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HA]; · iexact HA
      isplitl [HC]; · iexact HC
      iintro ⟨H0, H1, H2, H3, H4, H5, H6, HA, HC⟩
      isplitl [Hr HA HC Hg]
      · isplitl [Hr]; · iexact Hr
        isplitl [HA]; · iexact HA
        isplitl [HC]; · iexact HC
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc0 : ¬cond2_0 (grid2.coords t) := fun h => h0 ((hcond2_0 t).mp h)
      have hc1 : ¬cond2_1 (grid2.coords t) := fun h => h1 ((hcond2_1 t).mp h)
      rw [Dat.leavesExact_idle (dat2 V c) 6 t (idleAt2_6 t hc1) (noFlush2_6 t hc1)]
      iintro ⟨⟨Hr, HA, HC, Hg⟩, Ho, ⟨%d0, H0⟩, ⟨%d1, H1⟩, ⟨%d2, H2⟩, ⟨%d3, H3⟩, ⟨%d4, H4⟩, ⟨%d5, H5⟩, H6⟩
      iapply (sound_kernel2_mid c Set.univ _ _ _ _ _ _ _ _ _ _ _ _ _ _ _ _ _ _ _ hc0 hc1 (iblk2 V c 0 t) (iblk2 V c 1 t)
        (accUpTo V c t.val (Nat.le_of_lt t.isLt)) (cntUpTo V c t.val (Nat.le_of_lt t.isLt)) _)
      isplitl [H0]; · iexact H0
      isplitl [H1]; · iexact H1
      isplitl [HA]; · iexact HA
      isplitl [HC]; · iexact HC
      iintro ⟨H0, H1, HA, HC⟩
      isplitl [Hr HA HC Hg]
      · isplitl [Hr]; · iexact Hr
        isplitl [HA]; · iexact HA
        isplitl [HC]; · iexact HC
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

theorem body_obligation2 (c : Dev nD) : BodyObligation (dat2 (F := F) V c) (defs₀ (F := F)) Variants.none () Set.univ := fun t => by
  rw [bigSep_W2, bigSep_W2]
  exact sound_body2 V c t

end Cert.KernelIdeal.Reg

end
-- ==== Proof.KI.Run.lean ====
/-
  The run of the program's three kernel regions, frame side. What each region leaves in its output array is named
  (`outs`): the first product's array after region 0, the second product's after region 1, the pooled and classified
  row after region 2, each read off that region's proof data at the last grid point, the data of a later region being
  taken at the buffers' contents the earlier ones leave. Every pipeline's proof data at its region's entry contents
  (`pdats`), the three regions as segments between the host stretches (`reg0`, `reg1`, `reg2`: a region's arrays are
  split out of the core's unscoped buffers on entry and put back on exit, the output's array at what the region
  leaves, every other buffer as it was), and the frame: every argument array ends as launched.
-/
import proofs.«424487_j41961830482015_1_alg».proof.Proof.KI.Reg0
import proofs.«424487_j41961830482015_1_alg».proof.Proof.KI.Reg1
import proofs.«424487_j41961830482015_1_alg».proof.Proof.KI.Reg2
import proofs.«424487_j41961830482015_1_alg».proof.Proof.Gen.KernelIdeal.Regions
import Idealize.ShloMosaic.Lib.Pipeline.RegionsLoop

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the regions leave in their output arrays -/

/-- After region 0: the first product's array at what the region's write-backs leave, whatever the item number. -/
def o4 : Gen.Outs (F := F) := fun _ r c =>
  if h : r = main_v32 then
    h ▸ ((dat0 (fun c b => Gen.V3 m c b) c).arrAt 2 cfg0.N : Buf (Elt F) ((c : Thread nD τ).loc main_v32))
  else Gen.V3 m c r

/-- After region 1: as before at item 4; else the second product's array at what region 1 leaves, its data taken at
    the contents region 0 and the host stretches after it leave. -/
def o7 : Gen.Outs (F := F) := fun J r c =>
  if J = 4 then o4 m J r c
  else if h : r = main_v49 then
    h ▸ ((dat1 (fun c b => Gen.V6 m (o4 m) c b) c).arrAt 2 cfg1.N : Buf (Elt F) ((c : Thread nD τ).loc main_v49))
  else Gen.V3 m c r

/-- After region 2: at item 9 the result row's array at what region 2 leaves, its data taken at the contents the two
    earlier regions and the host stretches leave; else as before. -/
def outs : Gen.Outs (F := F) := fun J r c =>
  if J = 9 then
    (if h : r = main_v68 then
      h ▸ ((dat2 (fun c b => Gen.V8 m (o7 m) c b) c).arrAt 6 cfg2.N : Buf (Elt F) ((c : Thread nD τ).loc main_v68))
    else Gen.V3 m c r)
  else o7 m J r c

theorem o7_4 (r : Ref sig .tc) (c : Dev nD) : o7 m 4 r c = o4 m 4 r c := if_pos rfl
theorem outs_o7_4 (r : Ref sig .tc) (c : Dev nD) : outs m 4 r c = o7 m 4 r c := if_neg (by decide)
theorem outs_o7_7 (r : Ref sig .tc) (c : Dev nD) : outs m 7 r c = o7 m 7 r c := if_neg (by decide)

/-- The contents before region 1 read region 0's output only. -/
theorem V6_congr {o o' : Gen.Outs (F := F)} (h4 : ∀ c, o 4 main_v32 c = o' 4 main_v32 c) (c : Dev nD) :
    Gen.V6 m o c = Gen.V6 m o' c := by
  show StableHlo.after hostOps1_1 (StableHlo.after hostOps1 (Function.update (Gen.V3 m c) main_v32 (o 4 main_v32 c))) = _
  rw [h4]

/-- The contents before region 2 read the two earlier regions' outputs only. -/
theorem V8_congr {o o' : Gen.Outs (F := F)} (h4 : ∀ c, o 4 main_v32 c = o' 4 main_v32 c) (h7 : ∀ c, o 7 main_v49 c = o' 7 main_v49 c)
    (c : Dev nD) : Gen.V8 m o c = Gen.V8 m o' c := by
  show StableHlo.after hostOps2 (Function.update (Gen.V6 m o c) main_v49 (o 7 main_v49 c)) = _
  rw [V6_congr m h4 c, h7]

theorem V6_outs (c : Dev nD) : Gen.V6 m (outs m) c = Gen.V6 m (o4 m) c :=
  V6_congr m (fun c => (outs_o7_4 m _ c).trans (o7_4 m _ c)) c
theorem V8_outs (c : Dev nD) : Gen.V8 m (outs m) c = Gen.V8 m (o7 m) c :=
  V8_congr m (fun c => outs_o7_4 m _ c) (fun c => outs_o7_7 m _ c) c

/-- Region 0 leaves in the first product's array what its proof data says, at the contents the host stretches before
    it leave. -/
theorem outs_4 (c : Dev nD) : outs m 4 main_v32 c = (dat0 (fun c b => Gen.V3 m c b) c).arrAt 2 cfg0.N :=
  (outs_o7_4 m _ c).trans ((o7_4 m _ c).trans (dif_pos rfl))

/-- Region 1 leaves in the second product's array what its proof data says, at the contents before it. -/
theorem outs_7 (c : Dev nD) : outs m 7 main_v49 c = (dat1 (fun c b => Gen.V6 m (outs m) c b) c).arrAt 2 cfg1.N := by
  rw [show (fun (c : Dev nD) (b : Ref sig .tc) => Gen.V6 m (outs m) c b) = fun (c : Dev nD) (b : Ref sig .tc) => Gen.V6 m (o4 m) c b from
    funext fun c => by rw [V6_outs m c]]
  exact (outs_o7_7 m _ c).trans ((if_neg (by decide)).trans (dif_pos rfl))

/-- Region 2 leaves in the result row's array what its proof data says, at the contents before it. -/
theorem outs_9 (c : Dev nD) : outs m 9 main_v68 c = (dat2 (fun c b => Gen.V8 m (outs m) c b) c).arrAt 6 cfg2.N := by
  rw [show (fun (c : Dev nD) (b : Ref sig .tc) => Gen.V8 m (outs m) c b) = fun (c : Dev nD) (b : Ref sig .tc) => Gen.V8 m (o7 m) c b from
    funext fun c => by rw [V8_outs m c]]
  exact (if_pos rfl).trans (dif_pos rfl)

/-! ## The proof data family and what rides beside the buffers -/

/-- Every pipeline's proof data, each at its region's entry contents: a literal match, so that the family at a numeral
    reduces to that region's data. -/
def pdats : (p : Fin 3) → (c : Dev nD) → Dat τ (Elt F) Unit ℕ (UR sig nD τ) ℕ (cfgs p) c
  | ⟨0, _⟩ => fun c => dat0 (fun c b => Gen.V3 m c b) c
  | ⟨1, _⟩ => fun c => dat1 (fun c b => Gen.V6 m (outs m) c b) c
  | ⟨2, _⟩ => fun c => dat2 (fun c b => Gen.V8 m (outs m) c b) c

/-- No core owes another anything: no level is assigned. -/
abbrev L0 : GSem nD τ sig → Finset Unit := fun _ => ∅
abbrev lv0 : GSem nD τ sig → Unit → ℕ := fun _ _ => 0

/-- What rides beside the buffers through every segment: the core's generator register at some state and the core
    owing nothing. -/
abbrev R (c : Dev nD) : sProp 𝕄 := iprop((∃ r, prngReg c r) ∗ ∃ W, owes (c : Thread nD τ) (0 : CellTallies nD τ sig Unit) W)

/-! ## Region 0 over the thread state -/

/-- At region 0's exit the output's array holds what `outs` names for it, -/
theorem hF0_2 (c : Dev nD) :
    (dat0 (fun c b => Gen.V3 m c b) c).arrAt 2 cfg0.N = (fun b : Ref sig .tc => Gen.V4 m (outs m) c b) main_v32 := by
  show _ = Function.update (Gen.V3 m c) (Proc.devRef .tc main_v32) (outs m 4 main_v32 c) (Proc.devRef .tc main_v32)
  rw [Function.update_self, outs_4]

/-- and each input's array what it held at entry: the pipeline writes no input back, and the exit contents differ
    from the entry contents at the output's array only. -/
theorem hF0_0 (c : Dev nD) :
    (dat0 (fun c b => Gen.V3 m c b) c).arrAt 0 cfg0.N = (fun b : Ref sig .tc => Gen.V4 m (outs m) c b) main_arg0 := by
  show _ = Gen.V4 m (outs m) c main_arg0
  rw [Gen.V4_of m (outs m) c main_arg0 (by decide)]
  exact ((dat0 (fun c b => Gen.V3 m c b) c).arrAt_in 0 rfl _).trans (A_eq0 (fun c b => Gen.V3 m c b) c 0)

theorem hF0_1 (c : Dev nD) :
    (dat0 (fun c b => Gen.V3 m c b) c).arrAt 1 cfg0.N = (fun b : Ref sig .tc => Gen.V4 m (outs m) c b) main_arg3 := by
  show _ = Gen.V4 m (outs m) c main_arg3
  rw [Gen.V4_of m (outs m) c main_arg3 (by decide)]
  exact ((dat0 (fun c b => Gen.V3 m c b) c).arrAt_in 1 rfl _).trans (A_eq0 (fun c b => Gen.V3 m c b) c 1)

theorem hF0 (c : Dev nD) : ∀ w : Fin cfg0.W,
    (pdats m 0 c).arrAt w cfg0.N = (fun b : Ref sig .tc => Gen.V4 m (outs m) c b) (Pipeline.arrRef spec0 w)
  | ⟨0, _⟩ => hF0_0 m c
  | ⟨1, _⟩ => hF0_1 m c
  | ⟨2, _⟩ => hF0_2 m c

/-- Every unscoped buffer that is no array of region 0 is as at entry. -/
theorem hrest0 (c : Dev nD) : ∀ b : Ref sig .tc, b ∉ Finset.univ.image (Pipeline.arrRef spec0) →
    (fun b : Ref sig .tc => Gen.V4 m (outs m) c b) b = (fun b : Ref sig .tc => Gen.V3 m c b) b :=
  fun b hb => Gen.V4_of m (outs m) c b fun h =>
    hb (Finset.mem_image.mpr ⟨2, Finset.mem_univ _, (List.mem_singleton.mp h).symm⟩)

-- a library lemma stated over the pinned configuration unifies with the printed one only when unification may unfold
-- plain definitions in a metavariable's type
set_option backward.isDefEq.respectTransparency.types false in
/-- Region 0 as a segment: entered from every unscoped buffer at the contents the first host stretches leave, left at
    those contents with the first product's array replaced. Its arrays are split out of the unscoped buffers and put
    back at the exit contents; the generator register goes into the pipeline's invariant and comes out; nothing is
    owed; the kernel has no semaphore of its own. -/
def reg0 : Pipeline.RegionSeg (pcfgs (F := F)) Gen.adm (pdats m) () defs₀ Variants.none (fun _ => ∅) (fun _ _ => 0) 0 where
  win := launch0.win.to₀
  block_pos := launch0.block_pos
  stage_whole := launch0.stage_whole
  K := PEmpty
  osem k := k.elim
  ho := Pipeline.OwnSemFacts.none _
  hbody c := (body_obligation0 (fun c b => Gen.V3 m c b) c).loose
  hwaits := Pipeline.hwaits_of_owed_zero _ _ _ _ L0 lv0 0 fun _ _ => rfl
  pre c := iprop(StableHlo.held (c : Thread nD τ) (Pipeline.ucRefs τ sig) (Gen.V3 m c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := UR sig nD τ) (Lvl := ℕ) spec0 c (fun b : Ref sig .tc => Gen.V3 m c b)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (fun b : Ref sig .tc => Gen.V3 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (fun b : Ref sig .tc => Gen.V3 m c b) (fun b : Ref sig .tc => Gen.V4 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 over the thread state -/

/-- At region 1's exit the output's array holds what `outs` names for it, -/
theorem hF1_2 (c : Dev nD) :
    (dat1 (fun c b => Gen.V6 m (outs m) c b) c).arrAt 2 cfg1.N = (fun b : Ref sig .tc => Gen.V7 m (outs m) c b) main_v49 := by
  show _ = Function.update (Gen.V6 m (outs m) c) (Proc.devRef .tc main_v49) (outs m 7 main_v49 c) (Proc.devRef .tc main_v49)
  rw [Function.update_self, outs_7]

/-- and each input's array what it held at entry. -/
theorem hF1_0 (c : Dev nD) :
    (dat1 (fun c b => Gen.V6 m (outs m) c b) c).arrAt 0 cfg1.N = (fun b : Ref sig .tc => Gen.V7 m (outs m) c b) main_v48 := by
  show _ = Gen.V7 m (outs m) c main_v48
  rw [Gen.V7_of m (outs m) c main_v48 (by decide)]
  exact ((dat1 (fun c b => Gen.V6 m (outs m) c b) c).arrAt_in 0 rfl _).trans (A_eq1 (fun c b => Gen.V6 m (outs m) c b) c 0)

theorem hF1_1 (c : Dev nD) :
    (dat1 (fun c b => Gen.V6 m (outs m) c b) c).arrAt 1 cfg1.N = (fun b : Ref sig .tc => Gen.V7 m (outs m) c b) main_arg5 := by
  show _ = Gen.V7 m (outs m) c main_arg5
  rw [Gen.V7_of m (outs m) c main_arg5 (by decide)]
  exact ((dat1 (fun c b => Gen.V6 m (outs m) c b) c).arrAt_in 1 rfl _).trans (A_eq1 (fun c b => Gen.V6 m (outs m) c b) c 1)

theorem hF1 (c : Dev nD) : ∀ w : Fin cfg1.W,
    (pdats m 1 c).arrAt w cfg1.N = (fun b : Ref sig .tc => Gen.V7 m (outs m) c b) (Pipeline.arrRef spec1 w)
  | ⟨0, _⟩ => hF1_0 m c
  | ⟨1, _⟩ => hF1_1 m c
  | ⟨2, _⟩ => hF1_2 m c

/-- Every unscoped buffer that is no array of region 1 is as at entry. -/
theorem hrest1 (c : Dev nD) : ∀ b : Ref sig .tc, b ∉ Finset.univ.image (Pipeline.arrRef spec1) →
    (fun b : Ref sig .tc => Gen.V7 m (outs m) c b) b = (fun b : Ref sig .tc => Gen.V6 m (outs m) c b) b :=
  fun b hb => Gen.V7_of m (outs m) c b fun h =>
    hb (Finset.mem_image.mpr ⟨2, Finset.mem_univ _, (List.mem_singleton.mp h).symm⟩)

-- as for region 0
set_option backward.isDefEq.respectTransparency.types false in
/-- Region 1 as a segment: entered from every unscoped buffer at the contents the host stretches after region 0
    leave, left at those contents with the second product's array replaced; the rest as for region 0. -/
def reg1 : Pipeline.RegionSeg (pcfgs (F := F)) Gen.adm (pdats m) () defs₀ Variants.none (fun _ => ∅) (fun _ _ => 0) 1 where
  win := launch1.win.to₀
  block_pos := launch1.block_pos
  stage_whole := launch1.stage_whole
  K := PEmpty
  osem k := k.elim
  ho := Pipeline.OwnSemFacts.none _
  hbody c := (body_obligation1 (fun c b => Gen.V6 m (outs m) c b) c).loose
  hwaits := Pipeline.hwaits_of_owed_zero _ _ _ _ L0 lv0 1 fun _ _ => rfl
  pre c := iprop(StableHlo.held (c : Thread nD τ) (Pipeline.ucRefs τ sig) (Gen.V6 m (outs m) c) ∗ R c)
  post c := iprop(StableHlo.held (c : Thread nD τ) (Pipeline.ucRefs τ sig) (Gen.V7 m (outs m) c) ∗ R c)
  X c := iprop(∃ r, prngReg c r)
  Y c := iprop(∃ r, prngReg c r)
  Z c := Pipeline.unscopedRest (Ix := Unit) (Name := ℕ) (U := UR sig nD τ) (Lvl := ℕ) spec1 c (fun b : Ref sig .tc => Gen.V6 m (outs m) c b)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (fun b : Ref sig .tc => Gen.V6 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (fun b : Ref sig .tc => Gen.V6 m (outs m) c b) (fun b : Ref sig .tc => Gen.V7 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 over the thread state -/

/-- At region 2's exit the output's array holds what `outs` names for it, -/
theorem hF2_6 (c : Dev nD) :
    (dat2 (fun c b => Gen.V8 m (outs m) c b) c).arrAt 6 cfg2.N = (fun b : Ref sig .tc => Gen.V9 m (outs m) c b) main_v68 := by
  show _ = Function.update (Gen.V8 m (outs m) c) (Proc.devRef .tc main_v68) (outs m 9 main_v68 c) (Proc.devRef .tc main_v68)
  rw [Function.update_self, outs_9]

/-- and each of the six inputs' arrays what it held at entry. -/
theorem hF2_0 (c : Dev nD) :
    (dat2 (fun c b => Gen.V8 m (outs m) c b) c).arrAt 0 cfg2.N = (fun b : Ref sig .tc => Gen.V9 m (outs m) c b) main_v64 := by
  show _ = Gen.V9 m (outs m) c main_v64
  rw [Gen.V9_of m (outs m) c main_v64 (by decide)]
  exact ((dat2 (fun c b => Gen.V8 m (outs m) c b) c).arrAt_in 0 rfl _).trans (A_eq2 (fun c b => Gen.V8 m (outs m) c b) c 0)

theorem hF2_1 (c : Dev nD) :
    (dat2 (fun c b => Gen.V8 m (outs m) c b) c).arrAt 1 cfg2.N = (fun b : Ref sig .tc => Gen.V9 m (outs m) c b) main_v65 := by
  show _ = Gen.V9 m (outs m) c main_v65
  rw [Gen.V9_of m (outs m) c main_v65 (by decide)]
  exact ((dat2 (fun c b => Gen.V8 m (outs m) c b) c).arrAt_in 1 rfl _).trans (A_eq2 (fun c b => Gen.V8 m (outs m) c b) c 1)

theorem hF2_2 (c : Dev nD) :
    (dat2 (fun c b => Gen.V8 m (outs m) c b) c).arrAt 2 cfg2.N = (fun b : Ref sig .tc => Gen.V9 m (outs m) c b) main_arg7 := by
  show _ = Gen.V9 m (outs m) c main_arg7
  rw [Gen.V9_of m (outs m) c main_arg7 (by decide)]
  exact ((dat2 (fun c b => Gen.V8 m (outs m) c b) c).arrAt_in 2 rfl _).trans (A_eq2 (fun c b => Gen.V8 m (outs m) c b) c 2)

theorem hF2_3 (c : Dev nD) :
    (dat2 (fun c b => Gen.V8 m (outs m) c b) c).arrAt 3 cfg2.N = (fun b : Ref sig .tc => Gen.V9 m (outs m) c b) main_v66 := by
  show _ = Gen.V9 m (outs m) c main_v66
  rw [Gen.V9_of m (outs m) c main_v66 (by decide)]
  exact ((dat2 (fun c b => Gen.V8 m (outs m) c b) c).arrAt_in 3 rfl _).trans (A_eq2 (fun c b => Gen.V8 m (outs m) c b) c 3)

theorem hF2_4 (c : Dev nD) :
    (dat2 (fun c b => Gen.V8 m (outs m) c b) c).arrAt 4 cfg2.N = (fun b : Ref sig .tc => Gen.V9 m (outs m) c b) main_arg9 := by
  show _ = Gen.V9 m (outs m) c main_arg9
  rw [Gen.V9_of m (outs m) c main_arg9 (by decide)]
  exact ((dat2 (fun c b => Gen.V8 m (outs m) c b) c).arrAt_in 4 rfl _).trans (A_eq2 (fun c b => Gen.V8 m (outs m) c b) c 4)

theorem hF2_5 (c : Dev nD) :
    (dat2 (fun c b => Gen.V8 m (outs m) c b) c).arrAt 5 cfg2.N = (fun b : Ref sig .tc => Gen.V9 m (outs m) c b) main_v67 := by
  show _ = Gen.V9 m (outs m) c main_v67
  rw [Gen.V9_of m (outs m) c main_v67 (by decide)]
  exact ((dat2 (fun c b => Gen.V8 m (outs m) c b) c).arrAt_in 5 rfl _).trans (A_eq2 (fun c b => Gen.V8 m (outs m) c b) c 5)

theorem hF2 (c : Dev nD) : ∀ w : Fin cfg2.W,
    (pdats m 2 c).arrAt w cfg2.N = (fun b : Ref sig .tc => Gen.V9 m (outs m) c b) (Pipeline.arrRef spec2 w)
  | ⟨0, _⟩ => hF2_0 m c
  | ⟨1, _⟩ => hF2_1 m c
  | ⟨2, _⟩ => hF2_2 m c
  | ⟨3, _⟩ => hF2_3 m c
  | ⟨4, _⟩ => hF2_4 m c
  | ⟨5, _⟩ => hF2_5 m c
  | ⟨6, _⟩ => hF2_6 m c

/-- Every unscoped buffer that is no array of region 2 is as at entry. -/
theorem hrest2 (c : Dev nD) : ∀ b : Ref sig .tc, b ∉ Finset.univ.image (Pipeline.arrRef spec2) →
    (fun b : Ref sig .tc => Gen.V9 m (outs m) c b) b = (fun b : Ref sig .tc => Gen.V8 m (outs m) c b) b :=
  fun b hb => Gen.V9_of m (outs m) c b fun h =>
    hb (Finset.mem_image.mpr ⟨6, Finset.mem_univ _, (List.mem_singleton.mp h).symm⟩)

-- as for region 0
set_option backward.isDefEq.respectTransparency.types false in
/-- Region 2 as a segment: entered from every unscoped buffer at the contents the host stretches after region 1
    leave, left at those contents with the result row's array replaced. Its invariant between points carries the two
    scratch buffers besides the class invariant: it is the class invariant before the first point and gives it back
    after the last. -/
def reg2 : Pipeline.RegionSeg (pcfgs (F := F)) Gen.adm (pdats m) () defs₀ Variants.none (fun _ => ∅) (fun _ _ => 0) 2 where
  win := launch2.win.to₀
  block_pos := launch2.block_pos
  stage_whole := launch2.stage_whole
  K := PEmpty
  osem k := k.elim
  ho := Pipeline.OwnSemFacts.none _
  hbody c := (body_obligation2 (fun c b => Gen.V8 m (outs m) c b) c).loose
  hwaits := Pipeline.hwaits_of_owed_zero _ _ _ _ L0 lv0 2 fun _ _ => rfl
  pre c := iprop(StableHlo.held (c : Thread nD τ) (Pipeline.ucRefs τ sig) (Gen.V8 m (outs m) c) ∗ R c)
  post c := iprop(StableHlo.held (c : Thread nD τ) (Pipeline.ucRefs τ sig) (Gen.V9 m (outs m) c) ∗ R c)
  X c := iprop(∃ r, prngReg c r)
  Y c := iprop(∃ r, prngReg c r)
  Z c := Pipeline.unscopedRest (Ix := Unit) (Name := ℕ) (U := UR sig nD τ) (Lvl := ℕ) spec2 c (fun b : Ref sig .tc => Gen.V8 m (outs m) c b)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (fun b : Ref sig .tc => Gen.V8 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from Φ2_first (fun c b => Gen.V8 m (outs m) c b) c]; unfold Pipeline.ΦA
    iintro ⟨Hp, -, Hr⟩
    isplitl [Hr]; · iexact Hr
    iexact Hp
  hout c := by
    rw [Pipeline.ownSems0_none]
    refine (show (pdats m 2 c).Φ (Fin.last _) ⊢ (Pipeline.ΦA spec2 c : sProp 𝕄) from Φ2_last (fun c b => Gen.V8 m (outs m) c b) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (fun b : Ref sig .tc => Gen.V8 m (outs m) c b) (fun b : Ref sig .tc => Gen.V9 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

-- the conditional frame's implicit arguments are found by unifying its hypotheses with the records' fields, which takes
-- unfolding plain definitions in a metavariable's type
set_option backward.isDefEq.respectTransparency.types false in
/-- THE FRAME, at any `F`: from any memory with zero counters, every weakly fair execution of the program on the
    TensorCores terminates and every final memory holds each argument array as launched. The conditional frame over the
    three records: the launch deals every core its generator register and nothing owed; the records' thread states are
    spelt as the conditional frame's, so they chain as they stand. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Gen.frame_cond m (EP := emb₁) (ι := ()) (𝒱₀ := Variants.none) (L := L0) (lv := lv0) (hL := fun _ _ => rfl) (ρ := ρ) (outs := outs m)
    (pdats := pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L0 lv0 fun c => ?_
      iintro ⟨⟨-, HO, -, Hp, -⟩, -⟩
      imodintro
      isplitl [Hp]; · iexists _; iexact Hp
      iexists ∅; iexact HO)
    (hE3 := fun c => by iintro ⟨-, HO⟩; iexact HO)
    (R0 := reg0 m) (hpre0 := fun _ => .rfl) (hpost0 := fun _ => .rfl)
    (R1 := reg1 m) (hpre1 := fun _ => .rfl) (hpost1 := fun _ => .rfl)
    (R2 := reg2 m) (hpre2 := fun _ => .rfl) (hpost2 := fun _ => .rfl)

end Cert.KernelIdeal.Reg

end
-- ==== Proof.KI.RunV.lean ====
/-
  The run of the program's three kernel regions with its result named: every weakly fair execution of the program
  terminates, and every final memory holds the result array at the last valuation of the core's unscoped buffers (the
  launch contents, then each host stretch's operations and each region's output array at what the region leaves) and
  every argument array as launched.
-/
import proofs.«424487_j41961830482015_1_alg».proof.Proof.KI.Run
import proofs.«424487_j41961830482015_1_alg».proof.Proof.KI.RegionsV

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- the conditional run's implicit arguments are found by unifying its hypotheses with the records' fields, which takes
-- unfolding plain definitions in a metavariable's type
set_option backward.isDefEq.respectTransparency.types false in
/-- The run with the result named: the result array ends at the last valuation, every argument array as launched. -/
theorem run (ρ : Dev nD → PrngReg) : θ_run defs (onTc (τ := τ) (main (F := F))) ⟨m, fun _ => 0, ρ⟩ (fun r => ∀ c : Dev nD,
      r.2.mem ((c.tc : Thread nD τ).loc main_v69) = Gen.V10 m (outs m) c main_v69
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Gen.run_cond m (EP := emb₁) (ι := ()) (𝒱₀ := Variants.none) (L := L0) (lv := lv0) (hL := fun _ _ => rfl) (ρ := ρ) (outs := outs m)
    (pdats := pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L0 lv0 fun c => ?_
      iintro ⟨⟨-, HO, -, Hp, -⟩, -⟩
      imodintro
      isplitl [Hp]; · iexists _; iexact Hp
      iexists ∅; iexact HO)
    (hE3 := fun c => by iintro ⟨-, HO⟩; iexact HO)
    (R0 := reg0 m) (hpre0 := fun _ => .rfl) (hpost0 := fun _ => .rfl)
    (R1 := reg1 m) (hpre1 := fun _ => .rfl) (hpost1 := fun _ => .rfl)
    (R2 := reg2 m) (hpre2 := fun _ => .rfl) (hpost2 := fun _ => .rfl)

end Cert.KernelIdeal.Reg

end
-- ==== Proof.KI.ValMM.lean ====
/-
  The two matrix-product regions' values on the extended reals. Each region's body multiplies the staged 5000 × 128
  row block by the staged 128 × 128 weight matrix into a zero accumulator; read at an index that is the sum over the
  contracted coordinate of the block's entry times the weight's. The row block at point t is rows 5000·t … 5000·t + 4999
  of the left operand, the staged weights are the whole right operand, and what point t writes back is rows
  5000·t … 5000·t + 4999 of the output: so every write-back is its block of ONE whole-array function, the contraction of
  the two operand arrays over their shared axis, and the twenty blocks cover the output array.
-/
import proofs.«424487_j41961830482015_1_alg».proof.Proof.KI.Reg0
import proofs.«424487_j41961830482015_1_alg».proof.Proof.KI.Reg1
import proofs.«424487_j41961830482015_1_alg».proof.Proof.Gen.ReferenceIdeal
import proofs.«424487_j41961830482015_1_alg».proof.Proof.RefRead
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL.Sem
open Idealize.ShloMosaic.Pipeline (Dat Cfg Window)

variable (V : (c : Dev nD) → (b : Ref sig .tc) → Buf (Elt Ideal) ((c : Thread nD τ).loc b))

/-! ## A block product at an index -/

theorem zero_offsets : (![0, 0] : Fin 2 → Nat) = fun _ => 0 := funext fun a => by fin_cases a <;> rfl

/-- The left factor's index in the row block, for output index `j` and contracted coordinate `k`: row of `j`, column `k`. -/
abbrev lix (j : S5000x128.Idx) (k : Fin 128) : S5000x128.Idx := fun a => match a with
  | ⟨0, _⟩ => ⟨(j 0).val, (j 0).isLt⟩
  | ⟨1, _⟩ => ⟨k.val, k.isLt⟩
/-- The right factor's index in the weight matrix: row `k`, column of `j`. -/
abbrev rix (j : S5000x128.Idx) (k : Fin 128) : S128x128.Idx := fun a => match a with
  | ⟨0, _⟩ => ⟨k.val, k.isLt⟩
  | ⟨1, _⟩ => ⟨(j 1).val, (j 1).isLt⟩

theorem blk_lhs_0 (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem blk_lhs_1 (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q
theorem blk_rhs_0 (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q
theorem blk_rhs_1 (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block product into the zero accumulator, read at an index: the sum over the contracted coordinate of the row
    block's entry times the weight's (the narrowing of both operands is the identity on the extended reals). -/
theorem blockProduct_apply (X : FVec Ideal S5000x128 .f32) (W : FVec Ideal S128x128 .f32) (j : S5000x128.Idx) :
    matmul dot_S5000x128_S128x128_S5000x128_1_0_0_1_n_n none (truncf .bf16 X bitsLt_bf16_f32) (truncf .bf16 W bitsLt_bf16_f32) (constant S5000x128 .f32 0x00000000#32) j
      = ∑ k : Fin 128, X (lix j k) * W (rix j k) := by
  show FloatOps.matmul dot_S5000x128_S128x128_S5000x128_1_0_0_1_n_n none X W (constant S5000x128 .f32 0x00000000#32) j = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = lix j k := funext fun a => Fin.ext (by
    match a with
    | ⟨0, _⟩ => exact blk_lhs_0 _ _
    | ⟨1, _⟩ => exact (blk_lhs_1 _ _).trans hk)
  have er : dot_S5000x128_S128x128_S5000x128_1_0_0_1_n_n.rhsIdx j ((ValueIdx.contrEquiv1 dot_S5000x128_S128x128_S5000x128_1_0_0_1_n_n 128 rfl rfl).symm k) = rix j k := funext fun a => Fin.ext (by
    match a with
    | ⟨0, _⟩ => exact (blk_rhs_0 _ _).trans hk
    | ⟨1, _⟩ => exact blk_rhs_1 _ _)
  rw [el, er]

/-- The first region's stored value is that block product. -/
theorem k0_pay1_apply (X : FVec Ideal S5000x128 .f32) (W : FVec Ideal S128x128 .f32) (j : S5000x128.Idx) :
    k0_pay1 X W j = ∑ k : Fin 128, X (lix j k) * W (rix j k) := blockProduct_apply X W j

/-- So is the second region's: its cast of the row block to its own shape changes nothing. -/
theorem k1_pay1_apply (X : FVec Ideal S5000x128 .f32) (W : FVec Ideal S128x128 .f32) (j : S5000x128.Idx) :
    k1_pay1 X W j = ∑ k : Fin 128, X (lix j k) * W (rix j k) := by
  unfold k1_pay1
  simp only [shapeCast_self]
  exact blockProduct_apply X W j

/-! ## The whole product at an index -/

/-- The reference's contraction of a 100000 × 128 array with a 128 × 128 one over their shared axis. -/
abbrev wholeProduct (A : (⟨S100000x128, .f32⟩ : BufTy).Contents (Elt Ideal)) (B : (⟨S128x128, .f32⟩ : BufTy).Contents (Elt Ideal)) :
    (⟨S100000x128, .f32⟩ : BufTy).Contents (Elt Ideal) :=
  Host.dotGeneral (F := Ideal) (φ₁ := .f32) (φ₂ := .f32) Cert.ReferenceIdeal.dot_S100000x128_S128x128_S100000x128_1_0_0_1_n_n none A B

/-- Read at an index it is the same sum over the contracted coordinate, of whole-array entries. -/
theorem wholeProduct_apply (A : (⟨S100000x128, .f32⟩ : BufTy).Contents (Elt Ideal)) (B : (⟨S128x128, .f32⟩ : BufTy).Contents (Elt Ideal)) (i : S100000x128.Idx) :
    wholeProduct A B i = ∑ k : Fin 128, A (Cert.ReferenceIdeal.ReadP.lidx_main_v7 i k) * B (Cert.ReferenceIdeal.ReadP.ridx_main_v7 i k) :=
  Cert.ReferenceIdeal.ReadP.val_main_v7_apply A B i

/-! ## Region 0: from its blocks to the array -/

/-- The printed index maps over the grid: a row block's index is the point, every other block index is zero. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The row block at point `t`, read at `x`, is the left operand at row `5000·t + x₀`, column `x₁`. -/
theorem rowBlock0_apply (c : Dev nD) (t : Fin cfg0.N) (x : S5000x128.Idx) (i : S100000x128.Idx)
    (h0 : (i 0).val = 5000 * t.val + (x 0).val) (h1 : (i 1).val = (x 1).val) :
    (Reg.iblk0 V c 0 t : FVec Ideal S5000x128 .f32) x = (V c main_arg0 : FVec Ideal S100000x128 .f32) i := by
  obtain ⟨e0, e1, -⟩ := idx_facts0 t
  unfold Reg.iblk0
  rw [View.read_apply]
  show V c main_arg0 _ = V c main_arg0 _
  congr 1
  funext a
  apply Fin.ext
  match a with
  | ⟨0, _⟩ => show win0_0.index t (0 : Fin 2) * 5000 + 1 * (x 0).val = (i 0).val; rw [e0, h0]; omega
  | ⟨1, _⟩ => show win0_0.index t (1 : Fin 2) * 128 + 1 * (x 1).val = (i 1).val; rw [e1, h1]; omega

/-- The staged weight matrix at any point is the whole right operand. -/
theorem weight0_apply (c : Dev nD) (t : Fin cfg0.N) (x : S128x128.Idx) (i : S128x128.Idx)
    (h0 : (i 0).val = (x 0).val) (h1 : (i 1).val = (x 1).val) :
    (Reg.iblk0 V c 1 t : FVec Ideal S128x128 .f32) x = (V c main_arg3 : FVec Ideal S128x128 .f32) i := by
  obtain ⟨-, -, e2, e3, -⟩ := idx_facts0 t
  unfold Reg.iblk0
  rw [View.read_apply]
  show V c main_arg3 _ = V c main_arg3 _
  congr 1
  funext a
  apply Fin.ext
  match a with
  | ⟨0, _⟩ => show win0_1.index t (0 : Fin 2) * 128 + 1 * (x 0).val = (i 0).val; rw [e2, h0]; omega
  | ⟨1, _⟩ => show win0_1.index t (1 : Fin 2) * 128 + 1 * (x 1).val = (i 1).val; rw [e3, h1]; omega

/-- What point `t` writes back is block `t` of the whole product of the two operand arrays as the region finds them. -/
theorem flushed0_eq (c : Dev nD) (t : Fin cfg0.N) :
    (Reg.dat0 (F := Ideal) V c).flushed 2 t = ((cfg0.win 2).blk t).view.read (Elt Ideal) (wholeProduct (V c main_arg0) (V c main_arg3)) := by
  show (cfg0.win 2).cut (grid0.coords t) ((Reg.dat0 (F := Ideal) V c).after 2 t) = _
  rw [Reg.after0_2]
  unfold Reg.out0_2
  rw [View.canon_unit_zero zero_offsets]
  simp only [View.ld_unit_zero (S := S5000x128) zero_offsets, View.ld_unit_zero (S := S128x128) zero_offsets]
  obtain ⟨-, -, -, -, e4, e5⟩ := idx_facts0 t
  funext j
  show k0_pay1 (Reg.iblk0 V c 0 t) (Reg.iblk0 V c 1 t) j = wholeProduct (V c main_arg0) (V c main_arg3) (((cfg0.win 2).blk t).view.emb j)
  have hr0 : ((((cfg0.win 2).blk t).view.emb j) 0).val = win0_2.index t (0 : Fin 2) * 5000 + 1 * (j 0).val := rfl
  have hr1 : ((((cfg0.win 2).blk t).view.emb j) 1).val = win0_2.index t (1 : Fin 2) * 128 + 1 * (j 1).val := rfl
  rw [k0_pay1_apply]
  refine (Finset.sum_congr rfl fun k _ => ?_).trans (wholeProduct_apply (V c main_arg0) (V c main_arg3) (((cfg0.win 2).blk t).view.emb j)).symm
  congr 1
  · exact rowBlock0_apply V c t (lix j k) _ (by show ((((cfg0.win 2).blk t).view.emb j) 0).val = 5000 * t.val + (j 0).val; rw [hr0, e4]; omega) rfl
  · exact weight0_apply V c t (rix j k) _ rfl (by show ((((cfg0.win 2).blk t).view.emb j) 1).val = (j 1).val; rw [hr1, e5]; omega)

/-- An index of the output array is in point `t`'s block iff each coordinate is in the block's range on its axis. -/
theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v32).slice (win0_2.rect t)).set ↔ _
  rw [View.set_slice_whole, Rect.mem_set_unit]
  exact Iff.rfl

/-- Row `r` of the output array is written back by point `r / 5000`. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ : ∃ t : Fin cfg0.N, t.val = (i 0).val / 5000 := ⟨⟨(i 0).val / 5000, by show (i 0).val / 5000 < 20; omega⟩, rfl⟩
  obtain ⟨-, -, -, -, e4, e5⟩ := idx_facts0 t
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; rw [e4, ht]; omega
  | ⟨1, _⟩ => show win0_2.index t (1 : Fin 2) * 128 ≤ (i 1).val ∧ (i 1).val < win0_2.index t (1 : Fin 2) * 128 + 128; rw [e5]; omega

/-- Region 0's output array after the run is the reference's product of the two operand arrays as the region finds them. -/
theorem region0_value (c : Dev nD) :
    (Reg.dat0 (F := Ideal) V c).arrAt 2 cfg0.N
      = Host.dotGeneral (F := Ideal) (φ₁ := .f32) (φ₂ := .f32) Cert.ReferenceIdeal.dot_S100000x128_S128x128_S100000x128_1_0_0_1_n_n none
          (V c main_arg0) (V c main_arg3) :=
  (Reg.dat0 (F := Ideal) V c).arrAt_eq_of_cover 2 (wholeProduct (V c main_arg0) (V c main_arg3)) (fun t _ => flushed0_eq V c t) cover0

/-! ## Region 1: from its blocks to the array -/

/-- The printed index maps over the grid: a row block's index is the point, every other block index is zero. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The row block at point `t`, read at `x`, is the left operand at row `5000·t + x₀`, column `x₁`. -/
theorem rowBlock1_apply (c : Dev nD) (t : Fin cfg1.N) (x : S5000x128.Idx) (i : S100000x128.Idx)
    (h0 : (i 0).val = 5000 * t.val + (x 0).val) (h1 : (i 1).val = (x 1).val) :
    (Reg.iblk1 V c 0 t : FVec Ideal S5000x128 .f32) x = (V c main_v48 : FVec Ideal S100000x128 .f32) i := by
  obtain ⟨e0, e1, -⟩ := idx_facts1 t
  unfold Reg.iblk1
  rw [View.read_apply]
  show V c main_v48 _ = V c main_v48 _
  congr 1
  funext a
  apply Fin.ext
  match a with
  | ⟨0, _⟩ => show win1_0.index t (0 : Fin 2) * 5000 + 1 * (x 0).val = (i 0).val; rw [e0, h0]; omega
  | ⟨1, _⟩ => show win1_0.index t (1 : Fin 2) * 128 + 1 * (x 1).val = (i 1).val; rw [e1, h1]; omega

/-- The staged weight matrix at any point is the whole right operand. -/
theorem weight1_apply (c : Dev nD) (t : Fin cfg1.N) (x : S128x128.Idx) (i : S128x128.Idx)
    (h0 : (i 0).val = (x 0).val) (h1 : (i 1).val = (x 1).val) :
    (Reg.iblk1 V c 1 t : FVec Ideal S128x128 .f32) x = (V c main_arg5 : FVec Ideal S128x128 .f32) i := by
  obtain ⟨-, -, e2, e3, -⟩ := idx_facts1 t
  unfold Reg.iblk1
  rw [View.read_apply]
  show V c main_arg5 _ = V c main_arg5 _
  congr 1
  funext a
  apply Fin.ext
  match a with
  | ⟨0, _⟩ => show win1_1.index t (0 : Fin 2) * 128 + 1 * (x 0).val = (i 0).val; rw [e2, h0]; omega
  | ⟨1, _⟩ => show win1_1.index t (1 : Fin 2) * 128 + 1 * (x 1).val = (i 1).val; rw [e3, h1]; omega

/-- What point `t` writes back is block `t` of the whole product of the two operand arrays as the region finds them. -/
theorem flushed1_eq (c : Dev nD) (t : Fin cfg1.N) :
    (Reg.dat1 (F := Ideal) V c).flushed 2 t = ((cfg1.win 2).blk t).view.read (Elt Ideal) (wholeProduct (V c main_v48) (V c main_arg5)) := by
  show (cfg1.win 2).cut (grid1.coords t) ((Reg.dat1 (F := Ideal) V c).after 2 t) = _
  rw [Reg.after1_2]
  unfold Reg.out1_2
  rw [View.canon_unit_zero zero_offsets]
  simp only [View.ld_unit_zero (S := S5000x128) zero_offsets, View.ld_unit_zero (S := S128x128) zero_offsets]
  obtain ⟨-, -, -, -, e4, e5⟩ := idx_facts1 t
  funext j
  show k1_pay1 (Reg.iblk1 V c 0 t) (Reg.iblk1 V c 1 t) j = wholeProduct (V c main_v48) (V c main_arg5) (((cfg1.win 2).blk t).view.emb j)
  have hr0 : ((((cfg1.win 2).blk t).view.emb j) 0).val = win1_2.index t (0 : Fin 2) * 5000 + 1 * (j 0).val := rfl
  have hr1 : ((((cfg1.win 2).blk t).view.emb j) 1).val = win1_2.index t (1 : Fin 2) * 128 + 1 * (j 1).val := rfl
  rw [k1_pay1_apply]
  refine (Finset.sum_congr rfl fun k _ => ?_).trans (wholeProduct_apply (V c main_v48) (V c main_arg5) (((cfg1.win 2).blk t).view.emb j)).symm
  congr 1
  · exact rowBlock1_apply V c t (lix j k) _ (by show ((((cfg1.win 2).blk t).view.emb j) 0).val = 5000 * t.val + (j 0).val; rw [hr0, e4]; omega) rfl
  · exact weight1_apply V c t (rix j k) _ rfl (by show ((((cfg1.win 2).blk t).view.emb j) 1).val = (j 1).val; rw [hr1, e5]; omega)

/-- An index of the output array is in point `t`'s block iff each coordinate is in the block's range on its axis. -/
theorem mem_blk1 (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v49).slice (win1_2.rect t)).set ↔ _
  rw [View.set_slice_whole, Rect.mem_set_unit]
  exact Iff.rfl

/-- Row `r` of the output array is written back by point `r / 5000`. -/
theorem cover1 (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ : ∃ t : Fin cfg1.N, t.val = (i 0).val / 5000 := ⟨⟨(i 0).val / 5000, by show (i 0).val / 5000 < 20; omega⟩, rfl⟩
  obtain ⟨-, -, -, -, e4, e5⟩ := idx_facts1 t
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; rw [e4, ht]; omega
  | ⟨1, _⟩ => show win1_2.index t (1 : Fin 2) * 128 ≤ (i 1).val ∧ (i 1).val < win1_2.index t (1 : Fin 2) * 128 + 128; rw [e5]; omega

/-- Region 1's output array after the run is the reference's product of the two operand arrays as the region finds them. -/
theorem region1_value (c : Dev nD) :
    (Reg.dat1 (F := Ideal) V c).arrAt 2 cfg1.N
      = Host.dotGeneral (F := Ideal) (φ₁ := .f32) (φ₂ := .f32) Cert.ReferenceIdeal.dot_S100000x128_S128x128_S100000x128_1_0_0_1_n_n none
          (V c main_v48) (V c main_arg5) :=
  (Reg.dat1 (F := Ideal) V c).arrAt_eq_of_cover 2 (wholeProduct (V c main_v48) (V c main_arg5)) (fun t _ => flushed1_eq V c t) cover1

end Cert.KernelIdeal.Val

end
-- ==== Proof.KI.ValPool.lean ====
/-
  The pooling region's value at the ideal instance: after the region, the 1 × 512 output array is the pooled perceptron
  of the six arrays the region reads (the specification's `poolOut`). Three steps. (i) By induction over the grid
  points, the sums scratch after `n` points holds, per feature and graph, the sum over the first `n` tiles of each
  tile's features weighted by the rows' 0/1 graph weights, and the counts scratch the same sums of the weights alone; a
  tile's row `r` at point `t` is row `5000 t + r` of the arrays, and twenty tiles of five thousand rows are all
  hundred thousand rows, so after the last point the two buffers hold the specification's sums and counts. (ii) The
  closing arithmetic on those, read at a graph, is the specification's output for that graph: each of the three
  products contracts the leading axis of both operands and is read as a sum over that axis; the layout operations are
  read at an index. (iii) Only the last point writes the output window back, its block is the whole array, so the
  array after the region is what that point stored.
-/
import proofs.«424487_j41961830482015_1_alg».proof.Proof.KI.Reg2
import proofs.«424487_j41961830482015_1_alg».proof.Proof.KI.PoolSpec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KernelIdeal.Val

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! ## A column broadcast over many columns -/

/-- An `[a, 1]` array broadcast to `[a, b]` reads, at `(p, q)`, the operand's one column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! ## The three products, each contracting the leading axis of both operands -/

/-! ### A tile's features against its row weights: rows contracted -/

theorem lhs_acc_0 (i : S128x512.Idx) (q : dot_S5000x128_S5000x512_S128x512_0_0_1_1_n_n.contr.Idx) :
    (dot_S5000x128_S5000x512_S128x512_0_0_1_1_n_n.lhsIdx i q 0).val = (q ⟨0, by decide⟩).val :=
  dot_S5000x128_S5000x512_S128x512_0_0_1_1_n_n.lhsIdx_val_of_single rfl i q
theorem lhs_acc_1 (i : S128x512.Idx) (q : dot_S5000x128_S5000x512_S128x512_0_0_1_1_n_n.contr.Idx) :
    (dot_S5000x128_S5000x512_S128x512_0_0_1_1_n_n.lhsIdx i q 1).val = (i 0).val := by
  unfold DotDims.lhsIdx
  rw [dif_neg (show ¬(1 : Fin S5000x128.rank) ∈ dot_S5000x128_S5000x512_S128x512_0_0_1_1_n_n.lhsBatch by decide), dif_pos (show (1 : Fin S5000x128.rank) ∈ dot_S5000x128_S5000x512_S128x512_0_0_1_1_n_n.lhsNonContracting by decide)]
  rfl
theorem rhs_acc_0 (i : S128x512.Idx) (q : dot_S5000x128_S5000x512_S128x512_0_0_1_1_n_n.contr.Idx) :
    (dot_S5000x128_S5000x512_S128x512_0_0_1_1_n_n.rhsIdx i q 0).val = (q ⟨0, by decide⟩).val :=
  dot_S5000x128_S5000x512_S128x512_0_0_1_1_n_n.rhsIdx_val_of_single rfl i q
theorem rhs_acc_1 (i : S128x512.Idx) (q : dot_S5000x128_S5000x512_S128x512_0_0_1_1_n_n.contr.Idx) :
    (dot_S5000x128_S5000x512_S128x512_0_0_1_1_n_n.rhsIdx i q 1).val = (i 1).val := by
  unfold DotDims.rhsIdx
  rw [dif_neg (show ¬(1 : Fin S5000x512.rank) ∈ dot_S5000x128_S5000x512_S128x512_0_0_1_1_n_n.rhsBatch by decide), dif_pos (show (1 : Fin S5000x512.rank) ∈ dot_S5000x128_S5000x512_S128x512_0_0_1_1_n_n.rhsNonContracting by decide)]
  rfl

/-- The product into a zero accumulator, read at `(p, q)`: the sum over the shared leading axis. -/
theorem matmul_acc_apply {φ₁ φ₂ : FTy} (l : FVec Ideal S5000x128 φ₁) (r : FVec Ideal S5000x512 φ₂) (p : Fin 128) (q : Fin 512) :
    matmul dot_S5000x128_S5000x512_S128x512_0_0_1_1_n_n none l r (constant (F := Ideal) S128x512 .f32 0x00000000#32) (ix2 p q)
      = ∑ k : Fin 5000, l (ix2 k p) * r (ix2 k q) := by
  simp only [matmul]
  rw [Ideal.matmul_constant_zero_apply, ← Equiv.sum_comp (contrEquiv1 dot_S5000x128_S5000x512_S128x512_0_0_1_1_n_n 5000 rfl rfl).symm]
  refine Finset.sum_congr rfl fun k _ => ?_
  have hk := contrEquiv1_symm_val dot_S5000x128_S5000x512_S128x512_0_0_1_1_n_n 5000 rfl rfl k
  have el : dot_S5000x128_S5000x512_S128x512_0_0_1_1_n_n.lhsIdx (ix2 p q) ((contrEquiv1 dot_S5000x128_S5000x512_S128x512_0_0_1_1_n_n 5000 rfl rfl).symm k) = ix2 k p := funext fun a => Fin.ext (by
    match a with
    | ⟨0, _⟩ => exact (lhs_acc_0 _ _).trans hk
    | ⟨1, _⟩ => exact lhs_acc_1 _ _)
  have er : dot_S5000x128_S5000x512_S128x512_0_0_1_1_n_n.rhsIdx (ix2 p q) ((contrEquiv1 dot_S5000x128_S5000x512_S128x512_0_0_1_1_n_n 5000 rfl rfl).symm k) = ix2 k q := funext fun a => Fin.ext (by
    match a with
    | ⟨0, _⟩ => exact (rhs_acc_0 _ _).trans hk
    | ⟨1, _⟩ => exact rhs_acc_1 _ _)
  rw [el, er]

/-! ### The first dense layer: features contracted -/

theorem lhs_hid_0 (i : S64x512.Idx) (q : dot_S128x64_S128x512_S64x512_0_0_1_1_n_n.contr.Idx) :
    (dot_S128x64_S128x512_S64x512_0_0_1_1_n_n.lhsIdx i q 0).val = (q ⟨0, by decide⟩).val :=
  dot_S128x64_S128x512_S64x512_0_0_1_1_n_n.lhsIdx_val_of_single rfl i q
theorem lhs_hid_1 (i : S64x512.Idx) (q : dot_S128x64_S128x512_S64x512_0_0_1_1_n_n.contr.Idx) :
    (dot_S128x64_S128x512_S64x512_0_0_1_1_n_n.lhsIdx i q 1).val = (i 0).val := by
  unfold DotDims.lhsIdx
  rw [dif_neg (show ¬(1 : Fin S128x64.rank) ∈ dot_S128x64_S128x512_S64x512_0_0_1_1_n_n.lhsBatch by decide), dif_pos (show (1 : Fin S128x64.rank) ∈ dot_S128x64_S128x512_S64x512_0_0_1_1_n_n.lhsNonContracting by decide)]
  rfl
theorem rhs_hid_0 (i : S64x512.Idx) (q : dot_S128x64_S128x512_S64x512_0_0_1_1_n_n.contr.Idx) :
    (dot_S128x64_S128x512_S64x512_0_0_1_1_n_n.rhsIdx i q 0).val = (q ⟨0, by decide⟩).val :=
  dot_S128x64_S128x512_S64x512_0_0_1_1_n_n.rhsIdx_val_of_single rfl i q
theorem rhs_hid_1 (i : S64x512.Idx) (q : dot_S128x64_S128x512_S64x512_0_0_1_1_n_n.contr.Idx) :
    (dot_S128x64_S128x512_S64x512_0_0_1_1_n_n.rhsIdx i q 1).val = (i 1).val := by
  unfold DotDims.rhsIdx
  rw [dif_neg (show ¬(1 : Fin S128x512.rank) ∈ dot_S128x64_S128x512_S64x512_0_0_1_1_n_n.rhsBatch by decide), dif_pos (show (1 : Fin S128x512.rank) ∈ dot_S128x64_S128x512_S64x512_0_0_1_1_n_n.rhsNonContracting by decide)]
  rfl

/-- The product into a zero accumulator, read at `(p, q)`: the sum over the shared leading axis. -/
theorem matmul_hid_apply {φ₁ φ₂ : FTy} (l : FVec Ideal S128x64 φ₁) (r : FVec Ideal S128x512 φ₂) (p : Fin 64) (q : Fin 512) :
    matmul dot_S128x64_S128x512_S64x512_0_0_1_1_n_n none l r (constant (F := Ideal) S64x512 .f32 0x00000000#32) (ix2 p q)
      = ∑ k : Fin 128, l (ix2 k p) * r (ix2 k q) := by
  simp only [matmul]
  rw [Ideal.matmul_constant_zero_apply, ← Equiv.sum_comp (contrEquiv1 dot_S128x64_S128x512_S64x512_0_0_1_1_n_n 128 rfl rfl).symm]
  refine Finset.sum_congr rfl fun k _ => ?_
  have hk := contrEquiv1_symm_val dot_S128x64_S128x512_S64x512_0_0_1_1_n_n 128 rfl rfl k
  have el : dot_S128x64_S128x512_S64x512_0_0_1_1_n_n.lhsIdx (ix2 p q) ((contrEquiv1 dot_S128x64_S128x512_S64x512_0_0_1_1_n_n 128 rfl rfl).symm k) = ix2 k p := funext fun a => Fin.ext (by
    match a with
    | ⟨0, _⟩ => exact (lhs_hid_0 _ _).trans hk
    | ⟨1, _⟩ => exact lhs_hid_1 _ _)
  have er : dot_S128x64_S128x512_S64x512_0_0_1_1_n_n.rhsIdx (ix2 p q) ((contrEquiv1 dot_S128x64_S128x512_S64x512_0_0_1_1_n_n 128 rfl rfl).symm k) = ix2 k q := funext fun a => Fin.ext (by
    match a with
    | ⟨0, _⟩ => exact (rhs_hid_0 _ _).trans hk
    | ⟨1, _⟩ => exact rhs_hid_1 _ _)
  rw [el, er]

/-! ### The second dense layer: hidden units contracted -/

theorem lhs_out_0 (i : S1x512.Idx) (q : dot_S64x1_S64x512_S1x512_0_0_1_1_n_n.contr.Idx) :
    (dot_S64x1_S64x512_S1x512_0_0_1_1_n_n.lhsIdx i q 0).val = (q ⟨0, by decide⟩).val :=
  dot_S64x1_S64x512_S1x512_0_0_1_1_n_n.lhsIdx_val_of_single rfl i q
theorem lhs_out_1 (i : S1x512.Idx) (q : dot_S64x1_S64x512_S1x512_0_0_1_1_n_n.contr.Idx) :
    (dot_S64x1_S64x512_S1x512_0_0_1_1_n_n.lhsIdx i q 1).val = (i 0).val := by
  unfold DotDims.lhsIdx
  rw [dif_neg (show ¬(1 : Fin S64x1.rank) ∈ dot_S64x1_S64x512_S1x512_0_0_1_1_n_n.lhsBatch by decide), dif_pos (show (1 : Fin S64x1.rank) ∈ dot_S64x1_S64x512_S1x512_0_0_1_1_n_n.lhsNonContracting by decide)]
  rfl
theorem rhs_out_0 (i : S1x512.Idx) (q : dot_S64x1_S64x512_S1x512_0_0_1_1_n_n.contr.Idx) :
    (dot_S64x1_S64x512_S1x512_0_0_1_1_n_n.rhsIdx i q 0).val = (q ⟨0, by decide⟩).val :=
  dot_S64x1_S64x512_S1x512_0_0_1_1_n_n.rhsIdx_val_of_single rfl i q
theorem rhs_out_1 (i : S1x512.Idx) (q : dot_S64x1_S64x512_S1x512_0_0_1_1_n_n.contr.Idx) :
    (dot_S64x1_S64x512_S1x512_0_0_1_1_n_n.rhsIdx i q 1).val = (i 1).val := by
  unfold DotDims.rhsIdx
  rw [dif_neg (show ¬(1 : Fin S64x512.rank) ∈ dot_S64x1_S64x512_S1x512_0_0_1_1_n_n.rhsBatch by decide), dif_pos (show (1 : Fin S64x512.rank) ∈ dot_S64x1_S64x512_S1x512_0_0_1_1_n_n.rhsNonContracting by decide)]
  rfl

/-- The product into a zero accumulator, read at `(p, q)`: the sum over the shared leading axis. -/
theorem matmul_out_apply {φ₁ φ₂ : FTy} (l : FVec Ideal S64x1 φ₁) (r : FVec Ideal S64x512 φ₂) (p : Fin 1) (q : Fin 512) :
    matmul dot_S64x1_S64x512_S1x512_0_0_1_1_n_n none l r (constant (F := Ideal) S1x512 .f32 0x00000000#32) (ix2 p q)
      = ∑ k : Fin 64, l (ix2 k p) * r (ix2 k q) := by
  simp only [matmul]
  rw [Ideal.matmul_constant_zero_apply, ← Equiv.sum_comp (contrEquiv1 dot_S64x1_S64x512_S1x512_0_0_1_1_n_n 64 rfl rfl).symm]
  refine Finset.sum_congr rfl fun k _ => ?_
  have hk := contrEquiv1_symm_val dot_S64x1_S64x512_S1x512_0_0_1_1_n_n 64 rfl rfl k
  have el : dot_S64x1_S64x512_S1x512_0_0_1_1_n_n.lhsIdx (ix2 p q) ((contrEquiv1 dot_S64x1_S64x512_S1x512_0_0_1_1_n_n 64 rfl rfl).symm k) = ix2 k p := funext fun a => Fin.ext (by
    match a with
    | ⟨0, _⟩ => exact (lhs_out_0 _ _).trans hk
    | ⟨1, _⟩ => exact lhs_out_1 _ _)
  have er : dot_S64x1_S64x512_S1x512_0_0_1_1_n_n.rhsIdx (ix2 p q) ((contrEquiv1 dot_S64x1_S64x512_S1x512_0_0_1_1_n_n 64 rfl rfl).symm k) = ix2 k q := funext fun a => Fin.ext (by
    match a with
    | ⟨0, _⟩ => exact (rhs_out_0 _ _).trans hk
    | ⟨1, _⟩ => exact rhs_out_1 _ _)
  rw [el, er]

/-! ## The kernel's arithmetic read at an index -/

/-- The 0/1 weight of a tile row for a graph, as the kernel computes it from the row's graph id. -/
abbrev wgt (x : BitVec 32) (g : Fin 512) : EReal :=
  FloatOps.sitofp (F := Ideal) .f32 ((IntOp.cmpi .eq x (BitVec.ofNat 32 g.val)).setWidth 32)

/-- The comparison of a tile's graph ids with the lane's graph number, at row `r` and graph `g`. -/
theorem pay3_apply (v4 : Vec Ideal S5000x1 .i32) (r : Fin 5000) (g : Fin 512) :
    k2_pay3 (F := Ideal) v4 (ix2 r g) = IntOp.cmpi .eq (v4 (ix2 r 0)) (BitVec.ofNat 32 g.val) := by
  unfold k2_pay3
  show IntOp.cmpi .eq (broadcastTo S5000x512 (shapeCast S5000x1 v4 shapeCasts_S5000x1_S5000x1) broadcasts_S5000x1_S5000x512 (ix2 r g)) (iota .tc S5000x512 32 [1] iota_S5000x512_d1_w32 (ix2 r g)) = _
  rw [broadcastTo_a1_ab_apply, shapeCast_self, iota_single_apply]

/-- The tile's weights as floats, at row `r` and graph `g`. -/
theorem hotTile_apply (v4 : Vec Ideal S5000x1 .i32) (r : Fin 5000) (g : Fin 512) :
    (sitofp .f32 (extui 32 (k2_pay3 (F := Ideal) v4) natLt_1_32) : FVec Ideal S5000x512 .f32) (ix2 r g) = wgt (v4 (ix2 r 0)) g := by
  rw [sitofp_apply, extui_apply, pay3_apply]

/-- The sums scratch after a tile: what it held plus, per feature and graph, the tile's features weighted by row. -/
theorem pay4_apply (v4 : Vec Ideal S5000x1 .i32) (v11 : Vec Ideal S5000x128 .f32) (v19 : Vec Ideal S128x512 .f32) (ch : Fin 128) (g : Fin 512) :
    k2_pay4 (F := Ideal) v4 v11 v19 (ix2 ch g) = v19 (ix2 ch g) + ∑ r : Fin 5000, v11 (ix2 r ch) * wgt (v4 (ix2 r 0)) g := by
  unfold k2_pay4
  rw [shapeCast_self, addf_apply, matmul_acc_apply]
  refine congrArg (v19 (ix2 ch g) + ·) (Finset.sum_congr rfl fun r _ => ?_)
  rw [truncf_apply, truncf_apply, shapeCast_self, hotTile_apply]

/-- Inserting row `k` over graph `g` in the tile's row reduction gives the index `(k, g)`. -/
theorem lift_cnt (g : Fin 512) (k : Fin 5000) : reduces_S5000x512_S512.lift (ix1 g) k = ix2 k g := by
  funext c; apply Fin.ext
  match c with
  | ⟨0, _⟩ => rfl
  | ⟨1, _⟩ => rfl

/-- The counts scratch after a tile: what it held plus, per graph, the tile's row weights. -/
theorem pay5_apply (v4 : Vec Ideal S5000x1 .i32) (v24 : Vec Ideal S1x512 .f32) (g : Fin 512) :
    k2_pay5 (F := Ideal) v4 v24 (ix2 (0 : Fin 1) g) = v24 (ix2 (0 : Fin 1) g) + ∑ r : Fin 5000, wgt (v4 (ix2 r 0)) g := by
  unfold k2_pay5
  rw [shapeCast_self, addf_apply, shapeCast_a_1a_apply]
  refine congrArg (v24 (ix2 (0 : Fin 1) g) + ·) ?_
  refine (Ideal.multiReduction_add_single _ 0x00000000#32 reduces_S5000x512_S512 (.inl rfl) rfl (ix1 g)).trans ?_
  refine Finset.sum_congr rfl fun r _ => ?_
  exact (congrArg (sitofp .f32 (extui 32 (k2_pay3 (F := Ideal) v4) natLt_1_32) : FVec Ideal S5000x512 .f32) (lift_cnt g r)).trans
    (hotTile_apply v4 r g)

/-- The closing arithmetic at graph `g`: the mean (sum over count, at least one), the first dense layer with its bias,
    the rectifier, the second dense layer with its bias. -/
theorem pay6_apply (v32 : Vec Ideal S1x512 .f32) (v37 : Vec Ideal S128x512 .f32) (v39 : Vec Ideal S128x64 .f32) (v43 : Vec Ideal S64x1 .f32)
    (v50 : Vec Ideal S64x1 .f32) (v54 : Vec Ideal S1x1 .f32) (g : Fin 512) :
    k2_pay6 (F := Ideal) v32 v37 v39 v43 v50 v54 (ix2 (0 : Fin 1) g)
      = (∑ k : Fin 64, v50 (ix2 k (0 : Fin 1)) * max ((∑ ch : Fin 128, v39 (ix2 ch k)
            * Ideal.div (v37 (ix2 ch g)) (max (v32 (ix2 (0 : Fin 1) g)) (Ideal.ofBits .f32 0x3F800000#32))) + v43 (ix2 k (0 : Fin 1)))
          (Ideal.ofBits .f32 0x00000000#32))
        + v54 (ix2 (0 : Fin 1) (0 : Fin 1)) := by
  unfold k2_pay6
  simp only [shapeCast_self]
  rw [addf_apply, matmul_out_apply, broadcastTo_a1_ab_apply]
  refine congrArg (· + v54 (ix2 (0 : Fin 1) (0 : Fin 1))) (Finset.sum_congr rfl fun k _ => ?_)
  rw [truncf_apply, truncf_apply, maximumf_apply, addf_apply, matmul_hid_apply, broadcastTo_a1_ab_apply, broadcast_apply]
  refine congrArg (fun x => v50 (ix2 k (0 : Fin 1)) * max (x + v43 (ix2 k (0 : Fin 1))) _) (Finset.sum_congr rfl fun ch _ => ?_)
  rw [truncf_apply, truncf_apply, divf_apply, broadcastTo_1b_ab_apply, maximumf_apply, broadcast_apply]
  rfl

/-! ## The windows' blocks, read off their arrays -/

variable (V : (c : Dev nD) → (b : Ref sig .tc) → Buf (Elt Ideal) ((c : Thread nD τ).loc b))

/-- The arrays the region reads, each at its literal type. -/
abbrev featArr (c : Dev nD) : Vec Ideal S100000x128 .f32 := V c main_v64
abbrev idArr (c : Dev nD) : Vec Ideal S100000x1 .i32 := V c main_v65
abbrev w1Arr (c : Dev nD) : Vec Ideal S128x64 .f32 := V c main_arg7
abbrev b1Arr (c : Dev nD) : Vec Ideal S64x1 .f32 := V c main_v66
abbrev w2Arr (c : Dev nD) : Vec Ideal S64x1 .f32 := V c main_arg9
abbrev b2Arr (c : Dev nD) : Vec Ideal S1x1 .f32 := V c main_v67

/-- The blocks the body reads at point `t`, each at its literal type. -/
abbrev featBlk (c : Dev nD) (t : Fin cfg2.N) : Vec Ideal S5000x128 .f32 := Reg.iblk2 V c 0 t
abbrev idBlk (c : Dev nD) (t : Fin cfg2.N) : Vec Ideal S5000x1 .i32 := Reg.iblk2 V c 1 t
abbrev w1Blk (c : Dev nD) (t : Fin cfg2.N) : Vec Ideal S128x64 .f32 := Reg.iblk2 V c 2 t
abbrev b1Blk (c : Dev nD) (t : Fin cfg2.N) : Vec Ideal S64x1 .f32 := Reg.iblk2 V c 3 t
abbrev w2Blk (c : Dev nD) (t : Fin cfg2.N) : Vec Ideal S64x1 .f32 := Reg.iblk2 V c 4 t
abbrev b2Blk (c : Dev nD) (t : Fin cfg2.N) : Vec Ideal S1x1 .f32 := Reg.iblk2 V c 5 t

/-- The printed index maps over the grid: the two row windows move with the point, every other window stays at block 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0 :=
  (by decide +kernel : ∀ t : Fin grid2.N, _)

/-- Row `r` of the feature tile at point `t` is row `5000 t + r` of the feature array. -/
theorem featBlk_apply (c : Dev nD) (t : Fin cfg2.N) (r : Fin 5000) (ch : Fin 128) (n : Fin 100000) (hn : n.val = r.val + 5000 * t.val) :
    featBlk V c t (ix2 r ch) = featArr V c (ix2 n ch) := by
  obtain ⟨e0, e1, -⟩ := idx_facts t
  show V c main_v64 (((cfg2.win 0).blk t).view.emb (ix2 r ch)) = V c main_v64 (ix2 n ch)
  refine congrArg (V c main_v64) (funext fun a => Fin.ext ?_)
  match a with
  | ⟨0, _⟩ => show win2_0.index t (0 : Fin 2) * 5000 + 1 * r.val = n.val; omega
  | ⟨1, _⟩ => show win2_0.index t (1 : Fin 2) * 128 + 1 * ch.val = ch.val; omega

/-- Row `r` of the graph-id tile at point `t` is row `5000 t + r` of the graph-id array. -/
theorem idBlk_apply (c : Dev nD) (t : Fin cfg2.N) (r : Fin 5000) (n : Fin 100000) (hn : n.val = r.val + 5000 * t.val) :
    idBlk V c t (ix2 r (0 : Fin 1)) = idArr V c (ix2 n (0 : Fin 1)) := by
  obtain ⟨-, -, e0, e1, -⟩ := idx_facts t
  show V c main_v65 (((cfg2.win 1).blk t).view.emb (ix2 r (0 : Fin 1))) = V c main_v65 (ix2 n (0 : Fin 1))
  refine congrArg (V c main_v65) (funext fun a => Fin.ext ?_)
  match a with
  | ⟨0, _⟩ => show win2_1.index t (0 : Fin 2) * 5000 + 1 * r.val = n.val; omega
  | ⟨1, _⟩ => show win2_1.index t (1 : Fin 2) * 1 + 1 * 0 = 0; omega

/-- The four small operands are staged whole at every point. -/
theorem w1Blk_eq (c : Dev nD) (t : Fin cfg2.N) : w1Blk V c t = w1Arr V c := by
  obtain ⟨-, -, -, -, e0, e1, -⟩ := idx_facts t
  funext j
  show V c main_arg7 (((cfg2.win 2).blk t).view.emb j) = V c main_arg7 j
  refine congrArg (V c main_arg7) (funext fun a => Fin.ext ?_)
  match a with
  | ⟨0, _⟩ => show win2_2.index t (0 : Fin 2) * 128 + 1 * (j 0).val = (j 0).val; omega
  | ⟨1, _⟩ => show win2_2.index t (1 : Fin 2) * 64 + 1 * (j 1).val = (j 1).val; omega
theorem b1Blk_eq (c : Dev nD) (t : Fin cfg2.N) : b1Blk V c t = b1Arr V c := by
  obtain ⟨-, -, -, -, -, -, e0, e1, -⟩ := idx_facts t
  funext j
  show V c main_v66 (((cfg2.win 3).blk t).view.emb j) = V c main_v66 j
  refine congrArg (V c main_v66) (funext fun a => Fin.ext ?_)
  match a with
  | ⟨0, _⟩ => show win2_3.index t (0 : Fin 2) * 64 + 1 * (j 0).val = (j 0).val; omega
  | ⟨1, _⟩ => show win2_3.index t (1 : Fin 2) * 1 + 1 * (j 1).val = (j 1).val; omega
theorem w2Blk_eq (c : Dev nD) (t : Fin cfg2.N) : w2Blk V c t = w2Arr V c := by
  obtain ⟨-, -, -, -, -, -, -, -, e0, e1, -⟩ := idx_facts t
  funext j
  show V c main_arg9 (((cfg2.win 4).blk t).view.emb j) = V c main_arg9 j
  refine congrArg (V c main_arg9) (funext fun a => Fin.ext ?_)
  match a with
  | ⟨0, _⟩ => show win2_4.index t (0 : Fin 2) * 64 + 1 * (j 0).val = (j 0).val; omega
  | ⟨1, _⟩ => show win2_4.index t (1 : Fin 2) * 1 + 1 * (j 1).val = (j 1).val; omega
theorem b2Blk_eq (c : Dev nD) (t : Fin cfg2.N) : b2Blk V c t = b2Arr V c := by
  obtain ⟨-, -, -, -, -, -, -, -, -, -, e0, e1, -⟩ := idx_facts t
  funext j
  show V c main_v67 (((cfg2.win 5).blk t).view.emb j) = V c main_v67 j
  refine congrArg (V c main_v67) (funext fun a => Fin.ext ?_)
  match a with
  | ⟨0, _⟩ => show win2_5.index t (0 : Fin 2) * 1 + 1 * (j 0).val = (j 0).val; omega
  | ⟨1, _⟩ => show win2_5.index t (1 : Fin 2) * 1 + 1 * (j 1).val = (j 1).val; omega

/-! ## The running sums and counts -/

/-- Row `r` of tile `t` as a row of the whole array. -/
def row (t : Fin cfg2.N) (r : Fin 5000) : Fin 100000 :=
  ⟨r.val + 5000 * t.val, by have hr := r.isLt; have ht : t.val < 20 := lt_of_lt_of_eq t.isLt N_2; omega⟩

theorem row_val (t : Fin cfg2.N) (r : Fin 5000) : (row t r).val = r.val + 5000 * t.val := rfl

/-- Tile `t`'s share of a graph's feature sum, and of its row count. -/
def tileSum (c : Dev nD) (ch : Fin 128) (g : Fin 512) (t : Fin cfg2.N) : EReal :=
  ∑ r : Fin 5000, featArr V c (ix2 (row t r) ch) * Spec.hot (idArr V c) (row t r) g
def tileCnt (c : Dev nD) (g : Fin 512) (t : Fin cfg2.N) : EReal :=
  ∑ r : Fin 5000, Spec.hot (idArr V c) (row t r) g

/-- The kernel's weight of a tile row is the specification's weight of that row of the array. -/
theorem wgt_tile (c : Dev nD) (t : Fin cfg2.N) (r : Fin 5000) (g : Fin 512) :
    wgt (idBlk V c t (ix2 r (0 : Fin 1))) g = Spec.hot (idArr V c) (row t r) g := by
  rw [idBlk_apply V c t r (row t r) (row_val t r)]
  rfl

/-- After `n` points the sums scratch holds, per feature and graph, the first `n` tiles' shares. -/
theorem acc_eq (c : Dev nD) (ch : Fin 128) (g : Fin 512) : ∀ (n : ℕ) (h : n ≤ cfg2.N),
    (Reg.accUpTo V c n h : Vec Ideal S128x512 .f32) (ix2 ch g) = ∑ i : Fin n, tileSum V c ch g ⟨i.val, lt_of_lt_of_le i.isLt h⟩
  | 0, h => by
    rw [Reg.accUpTo_zero, Finset.univ_eq_empty, Finset.sum_empty]
    exact Ideal.ofBits_zero_f32
  | n + 1, h => by
    rw [Reg.accUpTo_succ, Fin.sum_univ_castSucc]
    refine (pay4_apply (idBlk V c ⟨n, h⟩) (featBlk V c ⟨n, h⟩) (Reg.accUpTo V c n (Nat.le_of_succ_le h)) ch g).trans ?_
    rw [acc_eq c ch g n (Nat.le_of_succ_le h)]
    refine congrArg₂ (· + ·) rfl ?_
    unfold tileSum
    refine Finset.sum_congr rfl fun r _ => ?_
    rw [featBlk_apply V c ⟨n, h⟩ r ch (row ⟨n, h⟩ r) (row_val _ r), wgt_tile]
    rfl

/-- After `n` points the counts scratch holds, per graph, the first `n` tiles' shares. -/
theorem cnt_eq (c : Dev nD) (g : Fin 512) : ∀ (n : ℕ) (h : n ≤ cfg2.N),
    (Reg.cntUpTo V c n h : Vec Ideal S1x512 .f32) (ix2 (0 : Fin 1) g) = ∑ i : Fin n, tileCnt V c g ⟨i.val, lt_of_lt_of_le i.isLt h⟩
  | 0, h => by
    rw [Reg.cntUpTo_zero, Finset.univ_eq_empty, Finset.sum_empty]
    exact Ideal.ofBits_zero_f32
  | n + 1, h => by
    rw [Reg.cntUpTo_succ, Fin.sum_univ_castSucc]
    refine (pay5_apply (idBlk V c ⟨n, h⟩) (Reg.cntUpTo V c n (Nat.le_of_succ_le h)) g).trans ?_
    rw [cnt_eq c g n (Nat.le_of_succ_le h)]
    refine congrArg₂ (· + ·) rfl ?_
    unfold tileCnt
    refine Finset.sum_congr rfl fun r _ => ?_
    rw [wgt_tile]
    rfl

/-! ## All rows: twenty tiles of five thousand -/

/-- A sum over all rows is the sum over the tiles of the sums over each tile's rows. -/
theorem sum_rows (f : Fin 100000 → EReal) : ∑ n : Fin 100000, f n = ∑ t : Fin cfg2.N, ∑ r : Fin 5000, f (row t r) := by
  rw [← Equiv.sum_comp (finProdFinEquiv : Fin 20 × Fin 5000 ≃ Fin 100000) f, Fintype.sum_prod_type]
  rfl

/-- After the last point the sums scratch holds every graph's feature sums … -/
theorem acc_total (c : Dev nD) (ch : Fin 128) (g : Fin 512) (n : ℕ) (h : n ≤ cfg2.N) (hn : n = cfg2.N) :
    (Reg.accUpTo V c n h : Vec Ideal S128x512 .f32) (ix2 ch g) = Spec.poolSum (featArr V c) (idArr V c) ch g := by
  subst hn
  rw [acc_eq V c ch g cfg2.N h]
  unfold Spec.poolSum
  rw [sum_rows]
  rfl

/-- … and the counts scratch every graph's row count. -/
theorem cnt_total (c : Dev nD) (g : Fin 512) (n : ℕ) (h : n ≤ cfg2.N) (hn : n = cfg2.N) :
    (Reg.cntUpTo V c n h : Vec Ideal S1x512 .f32) (ix2 (0 : Fin 1) g) = Spec.poolCnt (idArr V c) g := by
  subst hn
  rw [cnt_eq V c g cfg2.N h]
  unfold Spec.poolCnt
  rw [sum_rows]
  rfl

/-! ## What the last point stores -/

/-- The closing arithmetic at the last point, on the full sums and counts and the whole small operands, is the pooled
    perceptron's output, graph by graph. -/
theorem out_eq (c : Dev nD) (t : Fin cfg2.N) (ht : t.val + 1 = cfg2.N) (j : S1x512.Idx) :
    (Reg.out2_6 V c t : Vec Ideal S1x512 .f32) j
      = Spec.outv (featArr V c) (idArr V c) (w1Arr V c) (b1Arr V c) (w2Arr V c) (b2Arr V c) (j 1) := by
  obtain ⟨u, g, rfl⟩ : ∃ (u : Fin 1) (g : Fin 512), j = ix2 u g := ⟨j 0, j 1, eq_ix2 j⟩
  obtain rfl : u = 0 := Subsingleton.elim _ _
  unfold Reg.out2_6
  refine (pay6_apply (Reg.cntUpTo V c (t.val + 1) t.isLt) (Reg.accUpTo V c (t.val + 1) t.isLt) (w1Blk V c t) (b1Blk V c t)
    (w2Blk V c t) (b2Blk V c t) g).trans ?_
  rw [w1Blk_eq, b1Blk_eq, w2Blk_eq, b2Blk_eq, cnt_total V c g (t.val + 1) t.isLt ht]
  unfold Spec.outv Spec.hid Spec.pooled
  refine congrArg (· + b2Arr V c (ix2 (0 : Fin 1) (0 : Fin 1))) (Finset.sum_congr rfl fun k _ => ?_)
  refine congrArg (fun x => w2Arr V c (ix2 k (0 : Fin 1)) * max (x + b1Arr V c (ix2 k (0 : Fin 1))) _) (Finset.sum_congr rfl fun ch _ => ?_)
  rw [acc_total V c ch g (t.val + 1) t.isLt ht]

/-! ## From the one flushed block to the array -/

/-- An index of the output array is in point `t`'s block iff each coordinate is in the block's range on its axis. -/
theorem mem_blk6 (t : Fin cfg2.N) (i : S1x512.Idx) :
    i ∈ ((cfg2.win 6).blk t).view.set ↔ ∀ a : Fin 2, win2_6.index t a * S1x512.size a ≤ (i a).val ∧ (i a).val < win2_6.index t a * S1x512.size a + S1x512.size a := by
  show i ∈ ((View.whole main_v68).slice (win2_6.rect t)).set ↔ _
  rw [View.set_slice_whole, Rect.mem_set_unit]
  exact Iff.rfl

/-- THE REGION'S VALUE: the output array after the region is the pooled perceptron of the six arrays as the region
    finds them. Only the last point writes the output window back, and its one block is the whole array. -/
theorem region2_value (c : Dev nD) :
    (Reg.dat2 (F := Ideal) V c).arrAt 6 cfg2.N
      = Spec.poolOut (V c main_v64) (V c main_v65) (V c main_arg7) (V c main_v66) (V c main_arg9) (V c main_v67) := by
  refine (Reg.dat2 (F := Ideal) V c).arrAt_eq_of_cover 6
    (Spec.poolOut (featArr V c) (idArr V c) (w1Arr V c) (b1Arr V c) (w2Arr V c) (b2Arr V c)) (fun t hf => ?_) (fun i => ?_)
  · have h19 : t.val % 20 = 19 := (flush2_6 t).mp hf
    have hlt : t.val < 20 := lt_of_lt_of_eq t.isLt N_2
    have ht : t.val + 1 = cfg2.N := by rw [show cfg2.N = 20 from N_2]; omega
    obtain ⟨-, -, -, -, -, -, -, -, -, -, -, -, e0, e1⟩ := idx_facts t
    show (cfg2.win 6).cut (grid2.coords t) ((Reg.dat2 (F := Ideal) V c).after 6 t) = _
    rw [Reg.after2_6]
    funext j
    show (Reg.out2_6 V c t : Vec Ideal S1x512 .f32) j
      = Spec.outv (featArr V c) (idArr V c) (w1Arr V c) (b1Arr V c) (w2Arr V c) (b2Arr V c) ((((cfg2.win 6).blk t).view.emb j) 1)
    refine (out_eq V c t ht j).trans (congrArg (Spec.outv (featArr V c) (idArr V c) (w1Arr V c) (b1Arr V c) (w2Arr V c) (b2Arr V c)) (Fin.ext ?_))
    show (j 1).val = win2_6.index t (1 : Fin 2) * 512 + 1 * (j 1).val
    omega
  · refine ⟨⟨19, by rw [show cfg2.N = 20 from N_2]; omega⟩, (flush2_6 _).mpr rfl, ?_⟩
    obtain ⟨-, -, -, -, -, -, -, -, -, -, -, -, e0, e1⟩ := idx_facts ⟨19, by rw [show cfg2.N = 20 from N_2]; omega⟩
    rw [mem_blk6]
    intro a
    match a with
    | ⟨0, _⟩ =>
      show win2_6.index _ (0 : Fin 2) * 1 ≤ (i 0).val ∧ (i 0).val < win2_6.index _ (0 : Fin 2) * 1 + 1
      have hi : (i 0).val < 1 := (i 0).isLt
      omega
    | ⟨1, _⟩ =>
      show win2_6.index _ (1 : Fin 2) * 512 ≤ (i 1).val ∧ (i 1).val < win2_6.index _ (1 : Fin 2) * 512 + 512
      have hi : (i 1).val < 512 := (i 1).isLt
      omega

end Cert.KernelIdeal.Val

end
-- ==== Proof.KI.Bridge.lean ====
/-
  The host computations the kernel's program and the reference share, each named once as a function of the arrays it
  reads, and the kernel's buffers between its items read through them.

  Both programs append the self loops to the edge list (`rowOf`, `colOf`), count every node's incoming edges, take the
  inverse square root of the counts where positive (`dis`) and weigh edge e by dis(row e) · dis(col e) (`weights`).
  A graph-convolution layer gathers the rows of a 100000 × 128 array at the edges' sources, scales them by the edge
  weights, adds them up at the edges' targets and adds the bias (`layer`); the first layer is rectified (`relu`);
  each layer's input is a product x · W (`dot`). The reference runs all of it as host operations, and its second
  layer, stage by stage, is this composition of its arguments (`val_v89_eq`: the same term, folded). The kernel's
  program runs the same host operations between three pipelined regions: the stretches are read from any contents
  (`stage…`), then at the contents the items before them leave (`V3_…`, `V6_v48`, `V8_…`, `V10_v69`). Given that the
  first two regions leave the two products, the array the third region reads is the reference's second layer of
  the launch arguments (`V8_v64_ref`); given also that the third leaves the pooled perceptron of what it reads, the
  result is the transposed pooled perceptron of the reference's second layer (`kernel_value_of`).
-/
import proofs.«424487_j41961830482015_1_alg».proof.Proof.Gen.KernelIdeal.Regions
import proofs.«424487_j41961830482015_1_alg».proof.Proof.Gen.ReferenceIdeal
import proofs.«424487_j41961830482015_1_alg».proof.Proof.RefRead
import proofs.«424487_j41961830482015_1_alg».proof.Proof.KI.PoolSpec
import Idealize.ShloMosaic.Lib.StableHlo.Run
import Idealize.ShloMosaic.PureOps.Ideal

set_option maxRecDepth 16384

noncomputable section

/-! ## The shared stages, in the reference's vocabulary -/

namespace Cert.ReferenceIdeal.Chain

open Cert.ReferenceIdeal Cert.ReferenceIdeal.Gen
open Idealize.ShloMosaic Idealize.ShloMosaic.TcCoe Idealize.SL.Sem Idealize.ShloMosaic.StableHlo

variable {F : FTy → Type} [FloatOps F]

/-- An array of shape `S` and element type `e`. -/
abbrev Arr (F : FTy → Type) (S : Shape) (e : EltTy) : Type := (⟨S, e⟩ : BufTy).Contents (Elt F)

/-- The edges' sources followed by the self loops' (node n to itself). -/
def rowOf (ei : Arr F S2x1600000 .i32) : Arr F S1700000 .i32 :=
  concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0

/-- The edges' targets followed by the self loops'. -/
def colOf (ei : Arr F S2x1600000 .i32) : Arr F S1700000 .i32 :=
  concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0

/-- Node numbers as gather indices: a negative one counted from the end, then one index per row. -/
def selIdx (r : Arr F S1700000 .i32) : Arr F S1700000x1 .i32 :=
  broadcastInDim S1700000x1 ![0] bcast_S1700000_S1700000x1_0 (select (cmpi .slt r (broadcastInDim S1700000 ![] bcast_S_S1700000 (constantI S_ 32 0#32))) (addi r (broadcastInDim S1700000 ![] bcast_S_S1700000 (constantI S_ 32 100000#32))) r)

/-- The inverse square root of every node's number of incoming edges, zero where there is none. -/
def dis (col : Arr F S1700000 .i32) : Arr F S100000 .f32 :=
  select (cmpf (F := F) .ogt (Host.scatterAdd scatter_S100000_S1700000x1_S1700000_n_0_0_1 (broadcastInDim S100000 ![] bcast_S_S100000 (constant S_ .f32 0x00000000#32)) (broadcastInDim S1700000x1 ![0] bcast_S1700000_S1700000x1_0 col) (broadcastInDim S1700000 ![] bcast_S_S1700000 (constant S_ .f32 0x3F800000#32))) (broadcastInDim S100000 ![] bcast_S_S100000 (constant S_ .f32 0x00000000#32))) (Host.powf (Host.scatterAdd scatter_S100000_S1700000x1_S1700000_n_0_0_1 (broadcastInDim S100000 ![] bcast_S_S100000 (constant S_ .f32 0x00000000#32)) (broadcastInDim S1700000x1 ![0] bcast_S1700000_S1700000x1_0 col) (broadcastInDim S1700000 ![] bcast_S_S1700000 (constant S_ .f32 0x3F800000#32))) (broadcastInDim S100000 ![] bcast_S_S100000 (constant S_ .f32 0xBF000000#32))) (broadcastInDim S100000 ![] bcast_S_S100000 (id (constant S_ .f32 0x00000000#32)))

/-- The weight of every edge: the product of its two ends' `dis`, as one column. -/
def weights (row col : Arr F S1700000 .i32) : Arr F S1700000x1 .f32 :=
  broadcastInDim S1700000x1 ![0] bcast_S1700000_S1700000x1_0 (mulf (Host.gather gather_S100000_S1700000x1_S1700000_n_0_n_n_0_1_1 (dis col) (selIdx row)) (Host.gather gather_S100000_S1700000x1_S1700000_n_0_n_n_0_1_1 (dis col) (selIdx col)))

/-- One propagation: the rows of `h` at the edges' sources, weighed, summed at the edges' targets, the bias added. -/
def layer (row col : Arr F S1700000 .i32) (w : Arr F S1700000x1 .f32) (h : Arr F S100000x128 .f32) (b : Arr F S128 .f32) : Arr F S100000x128 .f32 :=
  addf (Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 col) (mulf (broadcastInDim S1700000x128 ![0, 1] bcast_S1700000x1_S1700000x128_0_1 w) (Host.gather gather_S100000x128_S1700000x1_S1700000x128_1_0_n_n_0_1_1128 h (selIdx row)))) (broadcastInDim S100000x128 ![0, 1] bcast_S1x128_S100000x128_0_1 (broadcastInDim S1x128 ![1] bcast_S128_S1x128_1 b))

/-- The rectifier on a 100000 × 128 array. -/
def relu (x : Arr F S100000x128 .f32) : Arr F S100000x128 .f32 :=
  maximumf x (broadcastInDim S100000x128 ![] bcast_S_S100000x128 (constant S_ .f32 0x00000000#32))

/-- The product of a 100000 × 128 array with a 128 × 128 matrix. -/
def dot (l : Arr F S100000x128 .f32) (r : Arr F S128x128 .f32) : Arr F S100000x128 .f32 :=
  Host.dotGeneral dot_S100000x128_S128x128_S100000x128_1_0_0_1_n_n none l r

/-- The reference's second layer, stage by stage, is the composition of the stages above. -/
theorem val_v89_eq (x0 : Arr F S100000x128 .f32) (x1 : Arr F S2x1600000 .i32) (x3 : Arr F S128x128 .f32) (x4 : Arr F S128 .f32)
    (x5 : Arr F S128x128 .f32) (x6 : Arr F S128 .f32) :
    ReadP.val_main_v89 (F := F) x0 x1 x3 x4 x5 x6
      = layer (rowOf x1) (colOf x1) (weights (rowOf x1) (colOf x1))
          (dot (relu (layer (rowOf x1) (colOf x1) (weights (rowOf x1) (colOf x1)) (dot x0 x3) x4)) x5) x6 := rfl

end Cert.ReferenceIdeal.Chain

/-! ## The kernel's host stretches, from any contents -/

namespace Cert.KernelIdeal.Val

open Cert.KernelIdeal Cert.KernelIdeal.Gen
open Idealize.ShloMosaic Idealize.ShloMosaic.TcCoe Idealize.SL.Sem Idealize.ShloMosaic.StableHlo
open Cert.ReferenceIdeal.Chain

variable {F : FTy → Type} [FloatOps F]

section Stages

variable (W : Valuation τ sig (Elt F))

/-- The first three stretches leave the extended sources in `main_v3`. -/
theorem stage0_v3 :
    after hostOps0_2 (after hostOps0_1 (after hostOps0 W)) (Proc.devRef .tc main_v3) = rowOf (F := F) (W (Proc.devRef .tc main_arg1)) := by
  after_results_simp
  rfl

/-- … the extended targets in `main_v6`. -/
theorem stage0_v6 :
    after hostOps0_2 (after hostOps0_1 (after hostOps0 W)) (Proc.devRef .tc main_v6) = colOf (F := F) (W (Proc.devRef .tc main_arg1)) := by
  after_results_simp
  rfl

set_option maxHeartbeats 4000000 in
/-- … and the edge weights in `main_v31`. -/
theorem stage0_v31 :
    after hostOps0_2 (after hostOps0_1 (after hostOps0 W)) (Proc.devRef .tc main_v31)
      = weights (F := F) (rowOf (W (Proc.devRef .tc main_arg1))) (colOf (W (Proc.devRef .tc main_arg1))) := by
  after_results_simp
  rfl

set_option maxHeartbeats 4000000 in
/-- The two stretches after the first region leave the rectified first layer in `main_v48`. -/
theorem stage1_v48 :
    after hostOps1_1 (after hostOps1 W) (Proc.devRef .tc main_v48)
      = relu (F := F) (layer (W (Proc.devRef .tc main_v3)) (W (Proc.devRef .tc main_v6)) (W (Proc.devRef .tc main_v31))
          (W (Proc.devRef .tc main_v32)) (W (Proc.devRef .tc main_arg4))) := by
  after_results_simp
  rfl

set_option maxHeartbeats 4000000 in
/-- The stretch after the second region leaves the second layer in `main_v64` … -/
theorem stage2_v64 :
    after hostOps2 W (Proc.devRef .tc main_v64)
      = layer (F := F) (W (Proc.devRef .tc main_v3)) (W (Proc.devRef .tc main_v6)) (W (Proc.devRef .tc main_v31))
          (W (Proc.devRef .tc main_v49)) (W (Proc.devRef .tc main_arg6)) := by
  after_results_simp
  rfl

/-- … the graph ids as one column in `main_v65` … -/
theorem stage2_v65 :
    after hostOps2 W (Proc.devRef .tc main_v65) = shapeCast S100000x1 (W (Proc.devRef .tc main_arg2)) shapeCasts_S100000_S100000x1 := by
  after_results_simp
  rfl

/-- … the first dense bias as one column in `main_v66` … -/
theorem stage2_v66 :
    after hostOps2 W (Proc.devRef .tc main_v66) = shapeCast S64x1 (W (Proc.devRef .tc main_arg8)) shapeCasts_S64_S64x1 := by
  after_results_simp
  rfl

/-- … and the second dense bias as a 1 × 1 array in `main_v67`. -/
theorem stage2_v67 :
    after hostOps2 W (Proc.devRef .tc main_v67) = shapeCast S1x1 (W (Proc.devRef .tc main_arg10)) shapeCasts_S1_S1x1 := by
  after_results_simp
  rfl

/-- The last stretch transposes the third region's row of 512 into the result column. -/
theorem stage3_v69 :
    after hostOps3 W (Proc.devRef .tc main_v69)
      = transpose S512x1 [1, 0] (W (Proc.devRef .tc main_v68)) transposes_S1x512_S512x1_1_0 := by
  after_results_simp

end Stages

/-! ## The contents between the items, read -/

section Chain

variable (m : (ℓ : Loc nD τ sig) → Buf (Elt F) ℓ) (outs : Gen.Outs (F := F)) (c : Dev nD)

/-- A buffer the first three stretches do not write holds its launch contents before the first region. -/
theorem V3_keep (r : Ref sig .tc) (h0 : r ∉ hostOps0_W) (h1 : r ∉ hostOps0_1_W) (h2 : r ∉ hostOps0_2_W) :
    Gen.V3 m c r = m ((c : Thread nD τ).loc r) :=
  (V3_of m c r h2).trans <| (V2_of m c r h1).trans <| (V1_of m c r h0).trans rfl

/-- A buffer that neither the first region nor the two stretches after it write is, before the second region, as
    before the first. -/
theorem V6_keep (r : Ref sig .tc) (h : r ∉ ([main_v32] : List (Ref sig .tc))) (h1 : r ∉ hostOps1_W) (h11 : r ∉ hostOps1_1_W) :
    Gen.V6 m outs c r = Gen.V3 m c r :=
  (V6_of m outs c r h11).trans <| (V5_of m outs c r h1).trans (V4_of m outs c r h)

/-- Likewise after the second region. -/
theorem V7_keep (r : Ref sig .tc) (h : r ∉ ([main_v32] : List (Ref sig .tc))) (h1 : r ∉ hostOps1_W) (h11 : r ∉ hostOps1_1_W)
    (h' : r ∉ ([main_v49] : List (Ref sig .tc))) : Gen.V7 m outs c r = Gen.V3 m c r :=
  (V7_of m outs c r h').trans (V6_keep m outs c r h h1 h11)

/-- Likewise before the third region. -/
theorem V8_keep (r : Ref sig .tc) (h : r ∉ ([main_v32] : List (Ref sig .tc))) (h1 : r ∉ hostOps1_W) (h11 : r ∉ hostOps1_1_W)
    (h' : r ∉ ([main_v49] : List (Ref sig .tc))) (h2 : r ∉ hostOps2_W) : Gen.V8 m outs c r = Gen.V3 m c r :=
  (V8_of m outs c r h2).trans (V7_keep m outs c r h h1 h11 h')

theorem V3_v3 : Gen.V3 m c main_v3 = rowOf (F := F) (m ((c : Thread nD τ).loc main_arg1)) := stage0_v3 (Gen.V0 m c)
theorem V3_v6 : Gen.V3 m c main_v6 = colOf (F := F) (m ((c : Thread nD τ).loc main_arg1)) := stage0_v6 (Gen.V0 m c)
theorem V3_v31 : Gen.V3 m c main_v31
    = weights (F := F) (rowOf (m ((c : Thread nD τ).loc main_arg1))) (colOf (m ((c : Thread nD τ).loc main_arg1))) :=
  stage0_v31 (Gen.V0 m c)

/-- The first region's output array holds what the region left. -/
theorem V4_v32 : Gen.V4 m outs c main_v32 = outs 4 main_v32 c := Function.update_self _ _ _
/-- The second region's output array holds what the region left. -/
theorem V7_v49 : Gen.V7 m outs c main_v49 = outs 7 main_v49 c := Function.update_self _ _ _
/-- The third region's output array holds what the region left. -/
theorem V9_v68 : Gen.V9 m outs c main_v68 = outs 9 main_v68 c := Function.update_self _ _ _

/-- Before the second region `main_v48` holds the rectified first layer of whatever the first region left. -/
theorem V6_v48 : Gen.V6 m outs c main_v48
    = relu (F := F) (layer (rowOf (m ((c : Thread nD τ).loc main_arg1))) (colOf (m ((c : Thread nD τ).loc main_arg1)))
        (weights (rowOf (m ((c : Thread nD τ).loc main_arg1))) (colOf (m ((c : Thread nD τ).loc main_arg1))))
        (outs 4 main_v32 c) (m ((c : Thread nD τ).loc main_arg4))) := by
  refine (stage1_v48 (Gen.V4 m outs c)).trans ?_
  rw [V4_v32, V4_of m outs c main_v3 (by decide), V4_of m outs c main_v6 (by decide), V4_of m outs c main_v31 (by decide),
    V4_of m outs c main_arg4 (by decide), V3_v3, V3_v6, V3_v31, V3_keep m c main_arg4 (by decide) (by decide) (by decide)]

/-- Before the third region `main_v64` holds the second layer of whatever the second region left. -/
theorem V8_v64 : Gen.V8 m outs c main_v64
    = layer (F := F) (rowOf (m ((c : Thread nD τ).loc main_arg1))) (colOf (m ((c : Thread nD τ).loc main_arg1)))
        (weights (rowOf (m ((c : Thread nD τ).loc main_arg1))) (colOf (m ((c : Thread nD τ).loc main_arg1))))
        (outs 7 main_v49 c) (m ((c : Thread nD τ).loc main_arg6)) := by
  refine (stage2_v64 (Gen.V7 m outs c)).trans ?_
  rw [V7_v49, V7_keep m outs c main_v3 (by decide) (by decide) (by decide) (by decide),
    V7_keep m outs c main_v6 (by decide) (by decide) (by decide) (by decide),
    V7_keep m outs c main_v31 (by decide) (by decide) (by decide) (by decide),
    V7_keep m outs c main_arg6 (by decide) (by decide) (by decide) (by decide),
    V3_v3, V3_v6, V3_v31, V3_keep m c main_arg6 (by decide) (by decide) (by decide)]

/-- The graph ids as one column. -/
theorem V8_v65 : Gen.V8 m outs c main_v65 = shapeCast S100000x1 (m ((c : Thread nD τ).loc main_arg2)) shapeCasts_S100000_S100000x1 := by
  refine (stage2_v65 (Gen.V7 m outs c)).trans ?_
  rw [V7_keep m outs c main_arg2 (by decide) (by decide) (by decide) (by decide), V3_keep m c main_arg2 (by decide) (by decide) (by decide)]
/-- The first dense bias as one column. -/
theorem V8_v66 : Gen.V8 m outs c main_v66 = shapeCast S64x1 (m ((c : Thread nD τ).loc main_arg8)) shapeCasts_S64_S64x1 := by
  refine (stage2_v66 (Gen.V7 m outs c)).trans ?_
  rw [V7_keep m outs c main_arg8 (by decide) (by decide) (by decide) (by decide), V3_keep m c main_arg8 (by decide) (by decide) (by decide)]
/-- The second dense bias as a 1 × 1 array. -/
theorem V8_v67 : Gen.V8 m outs c main_v67 = shapeCast S1x1 (m ((c : Thread nD τ).loc main_arg10)) shapeCasts_S1_S1x1 := by
  refine (stage2_v67 (Gen.V7 m outs c)).trans ?_
  rw [V7_keep m outs c main_arg10 (by decide) (by decide) (by decide) (by decide), V3_keep m c main_arg10 (by decide) (by decide) (by decide)]

/-- An argument array holds its launch contents before the third region. -/
theorem V8_arg (r : Ref sig .tc) (h0 : r ∉ hostOps0_W) (h1 : r ∉ hostOps0_1_W) (h2 : r ∉ hostOps0_2_W)
    (h : r ∉ ([main_v32] : List (Ref sig .tc))) (h3 : r ∉ hostOps1_W) (h4 : r ∉ hostOps1_1_W)
    (h' : r ∉ ([main_v49] : List (Ref sig .tc))) (h5 : r ∉ hostOps2_W) : Gen.V8 m outs c r = m ((c : Thread nD τ).loc r) :=
  (V8_keep m outs c r h h3 h4 h' h5).trans (V3_keep m c r h0 h1 h2)

/-- The result is the transposed row the third region left. -/
theorem V10_v69 : Gen.V10 m outs c main_v69 = transpose S512x1 [1, 0] (outs 9 main_v68 c) transposes_S1x512_S512x1_1_0 := by
  refine (stage3_v69 (Gen.V9 m outs c)).trans ?_
  rw [V9_v68]

/-- Given that the first two regions leave the two products, the array the third region reads is the reference's
    second layer of the launch arguments. -/
theorem V8_v64_ref
    (h4 : outs 4 main_v32 c = dot (F := F) (Gen.V3 m c main_arg0) (Gen.V3 m c main_arg3))
    (h7 : outs 7 main_v49 c = dot (F := F) (Gen.V6 m outs c main_v48) (Gen.V6 m outs c main_arg5)) :
    Gen.V8 m outs c main_v64
      = Cert.ReferenceIdeal.ReadP.val_main_v89 (F := F) (m ((c : Thread nD τ).loc main_arg0)) (m ((c : Thread nD τ).loc main_arg1))
          (m ((c : Thread nD τ).loc main_arg3)) (m ((c : Thread nD τ).loc main_arg4)) (m ((c : Thread nD τ).loc main_arg5))
          (m ((c : Thread nD τ).loc main_arg6)) := by
  rw [V8_v64, h7, V6_v48, h4, V6_keep m outs c main_arg5 (by decide) (by decide) (by decide),
    V3_keep m c main_arg0 (by decide) (by decide) (by decide), V3_keep m c main_arg3 (by decide) (by decide) (by decide),
    V3_keep m c main_arg5 (by decide) (by decide) (by decide)]
  exact (val_v89_eq _ _ _ _ _ _).symm

end Chain

/-! ## The result, given what the three regions leave -/

/-- THE KERNEL'S RESULT at the extended reals, given what the three regions leave — the first the product of `main_arg0`
    and `main_arg3`, the second the product of the rectified first layer and `main_arg5`, the third the pooled
    perceptron of the six arrays it reads —: the transposed pooled perceptron of the reference's second layer, the
    graph ids and the two dense layers' weights and biases. -/
theorem kernel_value_of (m : (ℓ : Loc nD τ sig) → Buf (Elt Ideal) ℓ) (outs : Gen.Outs (F := Ideal)) (c : Dev nD)
    (h4 : outs 4 main_v32 c = dot (F := Ideal) (Gen.V3 m c main_arg0) (Gen.V3 m c main_arg3))
    (h7 : outs 7 main_v49 c = dot (F := Ideal) (Gen.V6 m outs c main_v48) (Gen.V6 m outs c main_arg5))
    (h9 : outs 9 main_v68 c = Spec.poolOut (Gen.V8 m outs c main_v64) (Gen.V8 m outs c main_v65) (Gen.V8 m outs c main_arg7)
        (Gen.V8 m outs c main_v66) (Gen.V8 m outs c main_arg9) (Gen.V8 m outs c main_v67)) :
    Gen.V10 m outs c main_v69
      = transpose S512x1 [1, 0]
          (Spec.poolOut
            (Cert.ReferenceIdeal.ReadP.val_main_v89 (F := Ideal) (m ((c : Thread nD τ).loc main_arg0)) (m ((c : Thread nD τ).loc main_arg1))
              (m ((c : Thread nD τ).loc main_arg3)) (m ((c : Thread nD τ).loc main_arg4)) (m ((c : Thread nD τ).loc main_arg5))
              (m ((c : Thread nD τ).loc main_arg6)))
            (shapeCast S100000x1 (m ((c : Thread nD τ).loc main_arg2)) shapeCasts_S100000_S100000x1)
            (m ((c : Thread nD τ).loc main_arg7))
            (shapeCast S64x1 (m ((c : Thread nD τ).loc main_arg8)) shapeCasts_S64_S64x1)
            (m ((c : Thread nD τ).loc main_arg9))
            (shapeCast S1x1 (m ((c : Thread nD τ).loc main_arg10)) shapeCasts_S1_S1x1))
          transposes_S1x512_S512x1_1_0 := by
  rw [V10_v69, h9, V8_v64_ref m outs c h4 h7, V8_v65, V8_v66, V8_v67,
    V8_arg m outs c main_arg7 (by decide) (by decide) (by decide) (by decide) (by decide) (by decide) (by decide) (by decide),
    V8_arg m outs c main_arg9 (by decide) (by decide) (by decide) (by decide) (by decide) (by decide) (by decide) (by decide)]

end Cert.KernelIdeal.Val

end
-- ==== Proof.lean ====
/-
  The certificate of a two-layer graph convolution with a per-graph mean pool and a two-layer perceptron.

  Both programs take node features x (100000 × 128), an edge list (2 × 1600000), a graph id per node and the layers'
  weights and biases. They append a self loop per node, weigh edge e by d(row e)^(-1/2) · d(col e)^(-1/2) with d the
  number of edges into a node, and apply twice: multiply by a 128 × 128 matrix, gather the rows at the edges' sources,
  scale by the edge weights, add up at the edges' targets, add the bias (the first time followed by the rectifier).
  Then per graph the mean of its nodes' rows (the count taken at least one), a dense layer to 64 with the rectifier
  and a dense layer to one number: a column of 512.

  The reference does all of it as host operations. The kernel's program does the two matrix products and the pooled
  perceptron in three pipelined regions of twenty row blocks each, the rest as the same host operations in between.

  Frames: the kernel's program at both instances by the regions' segment records between the host stretches
  (`Reg.frame`), the reference's by its run. Values, at the extended reals: each of the first two regions leaves the
  matrix product of the arrays it reads (`region0_value`, `region1_value`), the third the pooled perceptron of the
  six arrays it reads, as index formulas (`region2_value`, `Spec.poolOut`); the host stretches in between are the
  reference's own stages of the same arrays, so the array the third region reads is the reference's second layer
  (`kernel_value_of`); and the reference's closing stages are the same index formulas of that layer, transposed
  (`tail_eq_spec`). Hence both results are one function of arguments that agree (`kernel_value`).
-/
import proofs.«424487_j41961830482015_1_alg».proof.Defs
import proofs.«424487_j41961830482015_1_alg».proof.Proof.Gen.Kernel
import proofs.«424487_j41961830482015_1_alg».proof.Proof.Gen.Kernel.Skeleton
import proofs.«424487_j41961830482015_1_alg».proof.Proof.Gen.Kernel.Launch
import proofs.«424487_j41961830482015_1_alg».proof.Proof.Gen.Kernel.Regions
import proofs.«424487_j41961830482015_1_alg».proof.Proof.Gen.Kernel.Points
import proofs.«424487_j41961830482015_1_alg».proof.Proof.Gen.KernelIdeal
import proofs.«424487_j41961830482015_1_alg».proof.Proof.Gen.KernelIdeal.Skeleton
import proofs.«424487_j41961830482015_1_alg».proof.Proof.Gen.KernelIdeal.Launch
import proofs.«424487_j41961830482015_1_alg».proof.Proof.Gen.KernelIdeal.Regions
import proofs.«424487_j41961830482015_1_alg».proof.Proof.Gen.KernelIdeal.Points
import proofs.«424487_j41961830482015_1_alg».proof.Proof.Gen.ReferenceIdeal
import proofs.«424487_j41961830482015_1_alg».proof.Proof.RefRead
import proofs.«424487_j41961830482015_1_alg».proof.Proof.RefPool
import proofs.«424487_j41961830482015_1_alg».proof.Proof.Gen.Pre_finite_inputs
import proofs.«424487_j41961830482015_1_alg».proof.Proof.K.Run
import proofs.«424487_j41961830482015_1_alg».proof.Proof.KI.Run
import proofs.«424487_j41961830482015_1_alg».proof.Proof.KI.RunV
import proofs.«424487_j41961830482015_1_alg».proof.Proof.KI.ValMM
import proofs.«424487_j41961830482015_1_alg».proof.Proof.KI.ValPool
import proofs.«424487_j41961830482015_1_alg».proof.Proof.KI.Bridge
import Idealize.ShloMosaic.Adequacy
import Idealize.ShloMosaic.Init

noncomputable section

open Idealize.ShloMosaic Idealize.ShloMosaic.TcCoe Idealize.SL.Sem

/-! ## The kernel's result is the reference's function of the launch arguments -/

namespace Cert.KernelIdeal.Val

open Cert.KernelIdeal Cert.KernelIdeal.Gen

/-- At the extended reals the kernel's result array ends at the reference's last stage of the kernel's launch arguments:
    what the three regions leave (their proof data read at the last point, then the regions' value lemmas) put into
    the host chain, and the reference's closing stages read as the pooled perceptron's index formulas. -/
theorem kernel_value (m : (ℓ : Loc nD τ sig) → Buf (Elt Ideal) ℓ) (c : Dev nD) :
    Gen.V10 m (Reg.outs m) c main_v69
      = Cert.ReferenceIdeal.ReadP.val_main_v110 (F := Ideal) (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10)) :=
  (kernel_value_of m (Reg.outs m) c ((Reg.outs_4 m c).trans (region0_value _ c)) ((Reg.outs_7 m c).trans (region1_value _ c))
      ((Reg.outs_9 m c).trans (region2_value _ c))).trans
    (Cert.ReferenceIdeal.RefValue.tail_eq_spec _ _ _ _ _ _ _ _ _ _ _).symm

end Cert.KernelIdeal.Val

/-! ## The claims -/

namespace Cert.Proof

/-- The kernel's program as printed runs and leaves its arguments as launched. -/
theorem frame_k : Cert.frame_Kernel := fun m ρ _ => Cert.Kernel.Reg.frame m ρ

/-- So does its reading at the extended reals. -/
theorem frame_ki : Cert.frame_KernelIdeal := fun m ρ _ => Cert.KernelIdeal.Reg.frame m ρ

/-- The reference runs and leaves its arguments as launched: its run, the result's conjunct dropped. -/
theorem frame_ri : Cert.frame_ReferenceIdeal := fun m ρ _ =>
  (θ_run Cert.ReferenceIdeal.defs _ _).mono (fun _ h c => (h c).2) (Cert.ReferenceIdeal.ValueP.run (F := Ideal) m ρ)

/-- No operation of the kernel's program was rewritten for the reading at the extended reals. -/
theorem preserves : Cert.preserves_Kernel_KernelIdeal := trivial

/-- At the extended reals, from arguments that agree, the kernel's result array ends at `Gen.V10 … main_v69` (its run)
    and the reference's at its composed term (its run): one function of the arguments (`kernel_value`). -/
theorem algebraic : Cert.algebraic_KernelIdeal_ReferenceIdeal := by
  intro m ρ m' ρ' _ hagree
  refine ⟨_, Cert.KernelIdeal.Reg.run m ρ, ?_⟩
  refine (θ_run Cert.ReferenceIdeal.defs _ _).mono (fun _ h c => ⟨(h c).1.trans ?_, (h c).2⟩)
    (Cert.ReferenceIdeal.ValueP.run (F := Ideal) m' ρ')
  obtain ⟨e0, e1, e2, e3, e4, e5, e6, e7, e8, e9, e10⟩ := hagree c
  rw [Cert.ReferenceIdeal.ReadP.val_main_v110_eq, e0, e1, e2, e3, e4, e5, e6, e7, e8, e9, e10]
  exact (Cert.KernelIdeal.Val.kernel_value m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
